-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S10 : Shape := ⟨1, ![10]⟩
abbrev S8192x1024 : Shape := ⟨2, ![8192, 1024]⟩
abbrev S8192x3072 : Shape := ⟨2, ![8192, 3072]⟩
abbrev S256x1024 : Shape := ⟨2, ![256, 1024]⟩
abbrev S256x3072 : Shape := ⟨2, ![256, 3072]⟩
abbrev S4x2048x3072 : Shape := ⟨3, ![4, 2048, 3072]⟩
abbrev S1x512x1024 : Shape := ⟨3, ![1, 512, 1024]⟩
abbrev S1 : Shape := ⟨1, ![1]⟩
abbrev S512x16 : Shape := ⟨2, ![512, 16]⟩
abbrev S512x1024 : Shape := ⟨2, ![512, 1024]⟩
abbrev S512x512 : Shape := ⟨2, ![512, 512]⟩
abbrev S512x64 : Shape := ⟨2, ![512, 64]⟩
abbrev S512x1 : Shape := ⟨2, ![512, 1]⟩
abbrev S512 : Shape := ⟨1, ![512]⟩
abbrev S512x16x1 : Shape := ⟨3, ![512, 16, 1]⟩
abbrev S512x16x64 : Shape := ⟨3, ![512, 16, 64]⟩

abbrev nBuf : Space → Nat
  | .hbm => 9
  | .vmem => 19
  | .smem => 2
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S8192x3072, .bf16⟩
  | .hbm, ⟨7, _⟩ => ⟨S4x2048x3072, .bf16⟩
  | .hbm, ⟨8, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S256x3072, .bf16⟩
  | .local _ .vmem, ⟨6, _⟩ => ⟨S256x3072, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1024x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x16, .f32⟩
  | .local _ .vmem, ⟨17, _⟩ => ⟨S512x16, .f32⟩
  | .local _ .vmem, ⟨18, _⟩ => ⟨S512x1024, .f32⟩
  | .local _ .smem, ⟨0, _⟩ => ⟨S10, .i32⟩
  | .local _ .smem, ⟨1, _⟩ => ⟨S10, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond2 (v1 : BitVec 32) (v3 : BitVec 32) : BitVec 1 :=
  let v354 : BitVec 1 := Scalar.cmpi .eq v3 v1
  let v355 : BitVec 32 := Scalar.extui v354
  let c0_i32_102 : BitVec 32 := 0#32
  let v356 : BitVec 1 := Scalar.cmpi .ne v355 c0_i32_102
  v356

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c1_i32 : BitVec 32 := 1#32
  let c0_i32 : BitVec 32 := 0#32
  ![arg0.toNat, v1.toNat, c1_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c2_i32 : BitVec 32 := 2#32
  let c0_i32 : BitVec 32 := 0#32
  ![arg0.toNat, v1.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x1024_S8192x1024 : S4x2048x1024.ShapeCasts S8192x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  concatenates_S256x1024_S256x1024_S256x1024_S256x3072_d1 : Shape.Concatenates [S256x1024, S256x1024, S256x1024] S256x3072 1
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  shapeCasts_S8192x3072_S4x2048x3072 : S8192x3072.ShapeCasts S4x2048x3072
  numel1_S1 : S1.numel = 1
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S512x512_d0_w32 : S512x512.Iotas .tc 32 [0]
  iota_S512x512_d1_w32 : S512x512.Iotas .tc 32 [1]
  slices_S512x1024_o0_0_S512x64 : S512x1024.Slices ![0, 0] S512x64
  slices_S512x16_o0_0_S512x1 : S512x16.Slices ![0, 0] S512x1
  reduces_S512x512_S512 : S512x512.Reduces [1] S512
  shapeCasts_S512_S512x1 : S512.ShapeCasts S512x1
  broadcasts_S512x1_S512x512 : S512x1.Broadcasts S512x512
  slices_S512x1024_o0_64_S512x64 : S512x1024.Slices ![0, 64] S512x64
  slices_S512x16_o0_1_S512x1 : S512x16.Slices ![0, 1] S512x1
  slices_S512x1024_o0_128_S512x64 : S512x1024.Slices ![0, 128] S512x64
  slices_S512x16_o0_2_S512x1 : S512x16.Slices ![0, 2] S512x1
  slices_S512x1024_o0_192_S512x64 : S512x1024.Slices ![0, 192] S512x64
  slices_S512x16_o0_3_S512x1 : S512x16.Slices ![0, 3] S512x1
  slices_S512x1024_o0_256_S512x64 : S512x1024.Slices ![0, 256] S512x64
  slices_S512x16_o0_4_S512x1 : S512x16.Slices ![0, 4] S512x1
  slices_S512x1024_o0_320_S512x64 : S512x1024.Slices ![0, 320] S512x64
  slices_S512x16_o0_5_S512x1 : S512x16.Slices ![0, 5] S512x1
  slices_S512x1024_o0_384_S512x64 : S512x1024.Slices ![0, 384] S512x64
  slices_S512x16_o0_6_S512x1 : S512x16.Slices ![0, 6] S512x1
  slices_S512x1024_o0_448_S512x64 : S512x1024.Slices ![0, 448] S512x64
  slices_S512x16_o0_7_S512x1 : S512x16.Slices ![0, 7] S512x1
  slices_S512x1024_o0_512_S512x64 : S512x1024.Slices ![0, 512] S512x64
  slices_S512x16_o0_8_S512x1 : S512x16.Slices ![0, 8] S512x1
  slices_S512x1024_o0_576_S512x64 : S512x1024.Slices ![0, 576] S512x64
  slices_S512x16_o0_9_S512x1 : S512x16.Slices ![0, 9] S512x1
  slices_S512x1024_o0_640_S512x64 : S512x1024.Slices ![0, 640] S512x64
  slices_S512x16_o0_10_S512x1 : S512x16.Slices ![0, 10] S512x1
  slices_S512x1024_o0_704_S512x64 : S512x1024.Slices ![0, 704] S512x64
  slices_S512x16_o0_11_S512x1 : S512x16.Slices ![0, 11] S512x1
  slices_S512x1024_o0_768_S512x64 : S512x1024.Slices ![0, 768] S512x64
  slices_S512x16_o0_12_S512x1 : S512x16.Slices ![0, 12] S512x1
  slices_S512x1024_o0_832_S512x64 : S512x1024.Slices ![0, 832] S512x64
  slices_S512x16_o0_13_S512x1 : S512x16.Slices ![0, 13] S512x1
  slices_S512x1024_o0_896_S512x64 : S512x1024.Slices ![0, 896] S512x64
  slices_S512x16_o0_14_S512x1 : S512x16.Slices ![0, 14] S512x1
  slices_S512x1024_o0_960_S512x64 : S512x1024.Slices ![0, 960] S512x64
  slices_S512x16_o0_15_S512x1 : S512x16.Slices ![0, 15] S512x1
  concatenates_S512x1_S512x1_S512x1_S512x1_S512x1_S512x1_S512x1_S512x1_S512x1_S512x1_S512x1_S512x1_S512x1_S512x1_S512x1_S512x1_S512x16_d1 : Shape.Concatenates [S512x1, S512x1, S512x1, S512x1, S512x1, S512x1, S512x1, S512x1, S512x1, S512x1, S512x1, S512x1, S512x1, S512x1, S512x1, S512x1] S512x16 1
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  shapeCasts_S512x16_S512x16x1 : S512x16.ShapeCasts S512x16x1
  shapeCasts_S512x16x1_S512x16x1 : S512x16x1.ShapeCasts S512x16x1
  broadcasts_S512x16x1_S512x16x64 : S512x16x1.Broadcasts S512x16x64
  shapeCasts_S512x16x64_S512x1024 : S512x16x64.ShapeCasts S512x1024
  shapeCasts_S512x1024_S1x512x1024 : S512x1024.ShapeCasts S1x512x1024
  dot_S256x1024_S1024x1024_S256x1024_1_1_0_0_n_n_wf : DotDims.WF S256x1024 S1024x1024 S256x1024 [1] [1] [0] [0] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x3072.size a ≤ S8192x3072.size a
  hwx0_4 : ∀ i : grid0.Coords, EltTy.bits .bf16 = 32 ∨ (Rect.block (s := S8192x3072) S256x3072.size (cc0_transform_4 i) (hinb0_4 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ {F : FTy → Type} [FloatOps F] (pf : pre1.Contents (Elt F)) (i i' : grid1.Coords), (∀ a, reads1_4 a = true → i a = i' a) → cc1_transform_4 k1_off1_inb numel1_S1 pf i = cc1_transform_4 k1_off1_inb numel1_S1 pf i'

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x3072.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v2) S1x512x1024.size reads1_0 false false 2 stage1_0 sem1_0 nbuf1_0 hstage1_0

abbrev spec1_1 : Pipeline.WinSpec sig grid1.rank :=
  Pipeline.WinSpec.ofSpec (Memref.whole main_v2) S1x512x1024.size reads1_1 false false 2 stage1_1 sem1_1 nbuf1_1 hstage1_1

abbrev spec1_2 : Pipeline.WinSpec sig grid1.rank :=
  Pipeline.WinSpec.ofSpec (Memref.whole main_v2) S1x512x1024.size reads1_2 false false 2 stage1_2 sem1_2 nbuf1_2 hstage1_2

abbrev spec1_3 : Pipeline.WinSpec sig grid1.rank :=
  Pipeline.WinSpec.ofSpec (Memref.whole main_arg4) S1024x1024.size reads1_3 false true 1 stage1_3 sem1_3 nbuf1_3 hstage1_3

abbrev spec1_4 : Pipeline.WinSpec sig grid1.rank :=
  Pipeline.WinSpec.ofSpec (Memref.whole main_v3) S1x512x1024.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 | 4 => cc1_transform_4 k1_off1_inb numel1_S1 pf | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 | 4 => hreads1_4 pf | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x512x1024.size a ≤ S4x2048x3072.size a), EltTy.bits .bf16 = 32 ∨ (Rect.block (s := S4x2048x3072) S1x512x1024.size (cc1_transform_0 k1_off1_inb numel1_S1 pf i) h).WholeWords (EltTy.packing .bf16)) ∧
  (∀ i : grid1.Coords, ∃ h : (∀ a, (cc1_transform_1 k1_off1_inb numel1_S1 pf i a + 1) * S1x512x1024.size a ≤ S4x2048x3072.size a), EltTy.bits .bf16 = 32 ∨ (Rect.block (s := S4x2048x3072) S1x512x1024.size (cc1_transform_1 k1_off1_inb numel1_S1 pf i) h).WholeWords (EltTy.packing .bf16)) ∧
  (∀ i : grid1.Coords, ∃ h : (∀ a, (cc1_transform_2 k1_off1_inb numel1_S1 pf i a + 1) * S1x512x1024.size a ≤ S4x2048x3072.size a), EltTy.bits .bf16 = 32 ∨ (Rect.block (s := S4x2048x3072) S1x512x1024.size (cc1_transform_2 k1_off1_inb numel1_S1 pf i) h).WholeWords (EltTy.packing .bf16)) ∧
  (∀ i : grid1.Coords, ∃ h : (∀ a, (cc1_transform_4 k1_off1_inb numel1_S1 pf i a + 1) * S1x512x1024.size a ≤ S4x2048x1024.size a), EltTy.bits .f32 = 32 ∨ (Rect.block (s := S4x2048x1024) S1x512x1024.size (cc1_transform_4 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => hinb1_3 | 4 => fun i a => (hok.2.2.2 i).elim fun h _ => h a | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => hwx1_3 | 4 => fun i => (hok.2.2.2 i).elim fun _ h => h | ⟨_ + 5, h⟩ => absurd h (Nat.not_lt.2 (Nat.le_add_left _ _))
abbrev idle1 (pf : pre1.Contents (Elt F)) : Fin 5 → grid1.Coords → Bool := fun | 0 => fun _ => false | 1 => fun _ => false | 2 => fun _ => false | 3 => fun _ => false | 4 => fun i => !(k1_cond2 (pf.atD 0 (k1_off1 i)) (pf.atD 1 (k1_off1 i)) == 1#1) | ⟨_ + 5, h⟩ => absurd h (Nat.not_lt.2 (Nat.le_add_left _ _))

class Facts : Prop extends Facts₀ where
  harr1 : ∀ w, (spec1 w).arr.IsWhole

variable [Facts]
-- ==== ReferenceIdeal.lean ====
abbrev S4x2048x1024 : Shape := ⟨3, ![4, 2048, 1024]⟩
abbrev S1024x1024 : Shape := ⟨2, ![1024, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S4x16x2048 : Shape := ⟨3, ![4, 16, 2048]⟩
abbrev S4x16x2048x1 : Shape := ⟨4, ![4, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x16x64, .f32⟩
  | .hbm, ⟨7, _⟩ => ⟨S4x16x2048x64, .f32⟩
  | .hbm, ⟨8, _⟩ => ⟨S4x2048x1024, .f32⟩
  | .hbm, ⟨9, _⟩ => ⟨S4x2048x16x64, .f32⟩
  | .hbm, ⟨10, _⟩ => ⟨S4x16x2048x64, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S_, .i1⟩
  | .hbm, ⟨20, _⟩ => ⟨S2048x2048, .i1⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .i1⟩
  | .hbm, ⟨28, _⟩ => ⟨S2048x2048, .i1⟩
  | .hbm, ⟨29, _⟩ => ⟨S2048x2048, .i1⟩
  | .hbm, ⟨30, _⟩ => ⟨S_, .f32⟩
  | .hbm, ⟨31, _⟩ => ⟨S4x16x2048x2048, .i1⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v14 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S4x16x2048x2048_2_3 : S2048x2048.BroadcastsInDim S4x16x2048x2048 (![2, 3] : Fin 2 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.R0.lean ====
/- The first TensorCore region of @main — custom_call 0, the projection kernel — at a PARAMETER V, the
   TensorCore's buffer contents when the region is entered: each window's block at a grid point, what the body
   leaves in the result window's staging buffer as a closed function of the four input blocks, the body's triple,
   the pipeline's proof data and the body obligation at every point. Generic in the float instance. -/
import proofs.«405825_j40080634807018_3_alg».proof.Proof.Gen.KernelIdeal.Launch
import proofs.«405825_j40080634807018_3_alg».proof.Proof.Gen.KernelIdeal.Skeleton
import proofs.«405825_j40080634807018_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the first weight matrix, whole, fetched at the first point only): where it is not fetched the
    block index has not moved, so the buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the second weight matrix), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the third weight matrix), likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S256x1024 := Rect.unit (s := S256x1024) ![0, 0] S256x1024.size inb_S256x1024_S256x1024_0_0
abbrev r0_1 : Rect S1024x1024 := Rect.unit (s := S1024x1024) ![0, 0] S1024x1024.size inb_S1024x1024_S1024x1024_0_0
abbrev r0_4 : Rect S256x3072 := Rect.unit (s := S256x3072) ![0, 0] S256x3072.size inb_S256x3072_S256x3072_0_0

/-! ## What the body leaves in the result window's buffer -/

/-- Window 4's staging buffer after the body, from the four input blocks: its one store, whole, of the payload
    (the three products side by side) over the loaded blocks. -/
def out0_4 (x0 : Vec F S256x1024 .f32) (x1 x2 x3 : Vec F S1024x1024 .f32) : Vec F S256x3072 .bf16 :=
  View.canon [⟨r0_4, k0_pay1 (View.ld x0 r0_0) (View.ld x1 r0_1) (View.ld x2 r0_1) (View.ld x3 r0_1)⟩]

/-- The one store tiles the buffer, so it covers it. -/
theorem cover0_4 (p0 : Vec F S256x3072 .bf16) (y : S256x3072.Idx) :
    ∃ pc ∈ ([⟨r0_4, p0⟩] : List (View.Piece (Elt F) S256x3072 .bf16)), y ∈ pc.1.set :=
  View.cover_of_tiled [⟨r0_4, p0⟩] S256x3072.size (by rfl) y

/-! ## The body's triple -/

set_option maxHeartbeats 1000000 in
/-- The kernel body on whole staging memrefs, the inputs' at read contents xW and the output's at anything, runs to
    the continuation holding the inputs' as they were and the output's at out0_4 of the inputs'. -/
theorem sound_kernel0 (c : Dev nD) (E : Set ℕ) (i : grid0.Coords)
    (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S256x3072 .bf16) (harg5 : arg5.IsWhole)
    (x0 : Vec F S256x1024 .f32) (x1 x2 x3 : Vec F S1024x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__qkv_kernel i arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them (V); after the body at point t
    each input's buffer at its block and the output's at out0_4 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.R1Runs.lean ====
/-
  The second pallas_call (causal attention over a triangular schedule of tiles, with the output projection at the last
  tile of each row): what its two runs share.  The two schedule tables are held whole and read one word each per
  point: the query-tile index and the key-tile index of the point.  A point whose key-tile index is 0 starts a row of
  tiles (the three running buffers are reset before use); a point whose two indices agree ends one (the output block
  is stored).
-/
import proofs.«405825_j40080634807018_3_alg».proof.Proof.Gen.KernelIdeal.Launch
import proofs.«405825_j40080634807018_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The schedule tables as the body is handed them -/

/-- The query-tile table's whole buffer as a memref. -/
abbrev tbM1_0 : Memref sig .tc .smem S10 .i32 := Memref.whole main_c
/-- The key-tile table's whole buffer as a memref. -/
abbrev tbM1_1 : Memref sig .tc .smem S10 .i32 := Memref.whole main_c_0
/-- A table's contents type on core `c`. -/
abbrev TbBuf1 (c : Dev nD) {S : Shape} {e : EltTy} (M : Memref sig .tc .smem S e) : Type := Buf (Elt F) (M.view.loc (c : Thread nD τ))
/-- A table held whole at contents `f`. -/
abbrev tbPt1 (c : Dev nD) {S : Shape} {e : EltTy} (M : Memref sig .tc .smem S e) (f : TbBuf1 (F := F) c M) : sProp 𝕄 :=
  M.view.loc (c : Thread nD τ) ↦{fullShare} f

/-- The word of a table at the point's position along the schedule. -/
abbrev wAt (c : Dev nD) (i : grid1.Coords) (M : Memref sig .tc .smem S10 .i32) (xt : TbBuf1 (F := F) c M) : Elt F .i32 :=
  M.view.readAt (Elt F) (Rect.unit (s := S10) (k1_off1 i) S1.size (k1_off1_inb i)).toLoadRect xt (Shape.Idx.first (numel1_S1.symm ▸ Nat.one_pos))

/-- "The point starts a row of tiles": its key-tile word is 0 (spelled as the body tests it). -/
abbrev condR (w : BitVec 32) : Prop := Scalar.cmpi .ne (Scalar.extui (Scalar.cmpi .eq w 0#32)) 0#32 = 1#1
/-- "The point ends a row of tiles": its two words agree (the body's second test). -/
abbrev condF (wq wk : BitVec 32) : Prop := k1_cond2 wq wk = 1#1

/-! ## The buffers the runs are stated through -/

/-- The three running buffers (maximum, denominator, weighted sum), whole. -/
abbrev scM1_0 : Memref sig .tc .vmem S512x16 .f32 := Memref.whole cc1_scratch0
abbrev scM1_1 : Memref sig .tc .vmem S512x16 .f32 := Memref.whole cc1_scratch1
abbrev scM1_2 : Memref sig .tc .vmem S512x1024 .f32 := Memref.whole cc1_scratch2
/-- One buffer of each kind, through which contents are stated (the choice does not matter: the stores cover). -/
abbrev VS1_0 : View sig .tc .vmem S512x16 .f32 := scM1_0.view
abbrev VS1_1 : View sig .tc .vmem S512x16 .f32 := scM1_1.view
abbrev VS1_2 : View sig .tc .vmem S512x1024 .f32 := scM1_2.view
abbrev VO1_4 : View sig .tc .vmem S1x512x1024 .f32 := (Memref.whole cc1_stg4_0 : Memref sig .tc .vmem S1x512x1024 .f32).view

/-- The pieces a run leaves: in the three running buffers and in the output's staging buffer. -/
abbrev Pieces1 : Type :=
  List (View.Piece (Elt F) S512x16 .f32) × List (View.Piece (Elt F) S512x16 .f32) × List (View.Piece (Elt F) S512x1024 .f32)
    × List (View.Piece (Elt F) S1x512x1024 .f32)

/-- The pieces a run that does not store the output leaves: in the three running buffers only. -/
abbrev PiecesS1 : Type :=
  List (View.Piece (Elt F) S512x16 .f32) × List (View.Piece (Elt F) S512x16 .f32) × List (View.Piece (Elt F) S512x1024 .f32)

/-- A conditional store as a store of a conditional list of pieces. -/
theorem writes_ite {sp : Space} {S : Shape} {e : EltTy} (v : View sig .tc sp S e) (p : Prop) [Decidable p]
    (f : BufTy.Contents (Elt F) v.ty) (L : List (View.Piece (Elt F) S e)) :
    (if p then v.writes (Elt F) f L else f) = v.writes (Elt F) f (if p then L else []) := by
  split <;> rfl

end Cert.KernelIdeal.Hand

end
-- ==== Proof.R1Sched.lean ====
/-
  The schedule of the second pallas_call.  Its two tables are literal: position s of the schedule (s = 0 … 9) works on
  query tile qi(s) and key tile ki(s), the pairs (0,0) (1,0) (1,1) (2,0) (2,1) (2,2) (3,0) (3,1) (3,2) (3,3) — the lower
  triangle, row by row.  The grid is 4 batch entries by these 10 positions, batch-major, so point t is position t mod 10
  of batch entry t / 10.  Decided here, over the 40 points: which points start a row (ki = 0), which end one (ki = qi),
  and where the pipeline writes the output block back (exactly where a row ends).
-/
import proofs.«405825_j40080634807018_3_alg».proof.Proof.R1Runs
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The float instance this program is read at. -/
abbrev FI : FTy → Type := Ideal

local notation "𝕄" => MT nD τ sig Unit (Elt FI) ℕ (UR sig nD τ) ℕ

/-! ## The literal tables as admissible contents -/

/-- The two tables' contents: the literal schedule. -/
def tblL : pre1.Contents (Elt FI) := fun j => match j with
  | ⟨0, _⟩ => fun i => lit0 (S10.rowMajor i)
  | ⟨1, _⟩ => fun i => lit1 (S10.rowMajor i)

/-- Every block the schedule names lies inside its array. -/
theorem okL : ok1 (F := FI) tblL := by decide +kernel

/-- The literal schedule as admissible contents of the tables, and the pipeline at them. -/
abbrev admL : (pcfg1 (F := FI)).Adm := ⟨tblL, okL⟩
abbrev cfgL : Pipeline.Cfg sig Λ₀ := cfg1 (F := FI) admL

theorem N_L : cfgL.N = 40 := by decide +kernel

/-- The two words of point `t`: its query-tile and key-tile index. -/
abbrev wqL (c : Dev nD) (t : Fin cfgL.N) : BitVec 32 := wAt (F := FI) c (grid1.coords t) tbM1_0 (tblL 0)
abbrev wkL (c : Dev nD) (t : Fin cfgL.N) : BitVec 32 := wAt (F := FI) c (grid1.coords t) tbM1_1 (tblL 1)

/-- Point `t` starts a row of tiles exactly at the schedule positions 0, 1, 3, 6. -/
theorem hcondR : ∀ (c : Dev nD) (t : Fin cfgL.N), condR (wkL c t) ↔ (t.val % 10 = 0 ∨ t.val % 10 = 1 ∨ t.val % 10 = 3 ∨ t.val % 10 = 6) := by
  decide +kernel
/-- Point `t` ends a row of tiles exactly at the schedule positions 0, 2, 5, 9. -/
theorem hcondF : ∀ (c : Dev nD) (t : Fin cfgL.N), condF (wqL c t) (wkL c t) ↔ (t.val % 10 = 0 ∨ t.val % 10 = 2 ∨ t.val % 10 = 5 ∨ t.val % 10 = 9) := by
  decide +kernel

/-! ## The staging memrefs at a point, and where the windows are idle -/

/-- Each window's current staging memref at point `t`, spelled as the pipeline passes it, and its wholeness. -/
abbrev ms1_0 (t : Fin cfgL.N) : Memref sig .tc .vmem S1x512x1024 .bf16 := spec1_0.stage (cfgL.slots t 0)
abbrev hs1_0 (t : Fin cfgL.N) : (ms1_0 t).IsWhole := hstage1_0 ((cfgL.slots t 0).cast nbuf1_0)
abbrev ms1_1 (t : Fin cfgL.N) : Memref sig .tc .vmem S1x512x1024 .bf16 := spec1_1.stage (cfgL.slots t 1)
abbrev hs1_1 (t : Fin cfgL.N) : (ms1_1 t).IsWhole := hstage1_1 ((cfgL.slots t 1).cast nbuf1_1)
abbrev ms1_2 (t : Fin cfgL.N) : Memref sig .tc .vmem S1x512x1024 .bf16 := spec1_2.stage (cfgL.slots t 2)
abbrev hs1_2 (t : Fin cfgL.N) : (ms1_2 t).IsWhole := hstage1_2 ((cfgL.slots t 2).cast nbuf1_2)
abbrev ms1_3 (t : Fin cfgL.N) : Memref sig .tc .vmem S1024x1024 .f32 := spec1_3.stage (cfgL.slots t 3)
abbrev hs1_3 (t : Fin cfgL.N) : (ms1_3 t).IsWhole := hstage1_3 ((cfgL.slots t 3).cast nbuf1_3)
abbrev ms1_4 (t : Fin cfgL.N) : Memref sig .tc .vmem S1x512x1024 .f32 := spec1_4.stage (cfgL.slots t 4)
abbrev hs1_4 (t : Fin cfgL.N) : (ms1_4 t).IsWhole := hstage1_4 ((cfgL.slots t 4).cast nbuf1_4)

/-- The input windows are never idle. -/
theorem liveAt1_0 : ∀ t : Fin cfgL.N, cfgL.idle 0 (grid1.coords t) = false := by decide +kernel
theorem liveAt1_1 : ∀ t : Fin cfgL.N, cfgL.idle 1 (grid1.coords t) = false := by decide +kernel
theorem liveAt1_2 : ∀ t : Fin cfgL.N, cfgL.idle 2 (grid1.coords t) = false := by decide +kernel
theorem liveAt1_3 : ∀ t : Fin cfgL.N, cfgL.idle 3 (grid1.coords t) = false := by decide +kernel
/-- Where a row does not end the output window is idle and its block is not written back; where one ends it is live. -/
theorem idleAt1_4 : ∀ (c : Dev nD) (t : Fin cfgL.N), ¬condF (wqL c t) (wkL c t) → cfgL.idle 4 (grid1.coords t) = true := by decide +kernel
theorem noFlush1_4 : ∀ (c : Dev nD) (t : Fin cfgL.N), ¬condF (wqL c t) (wkL c t) → (cfgL.win 4).flush t = false := by decide +kernel
theorem liveAt1_4 : ∀ (c : Dev nD) (t : Fin cfgL.N), condF (wqL c t) (wkL c t) → cfgL.idle 4 (grid1.coords t) = false := by decide +kernel

/-- The first point starts a row. -/
theorem condR_zero (c : Dev nD) (t : Fin cfgL.N) (h : t.val = 0) : condR (wkL c t) :=
  (hcondR c t).mpr (Or.inl (by rw [h]))

/-! ## The windows' blocks, at the buffer contents `V` the region is entered with -/

section AtV

variable (V : (c : Dev nD) → (b : Ref sig .tc) → Buf (Elt FI) ((c : Thread nD τ).loc b))

/-- Window `w`'s block at point `t`, read off its array as the region finds it. -/
def iblk1 (c : Dev nD) (w : Fin cfgL.W) (t : Fin cfgL.N) : ((cfgL.win w).xblock (cfgL.grid.coords t)).Idx → Elt FI (cfgL.win w).elt :=
  ((cfgL.win w).blk t).view.read (Elt FI) (V c (Pipeline.arrRef spec1 w))

/-- An input window's current staging buffer holds its block at every point, fetched there or not, for any proof data
    whose array is `V`'s and whose body leaves the block in place. -/
theorem before1_0_of {c : Dev nD} (dat : Dat τ (Elt FI) Unit ℕ (UR sig nD τ) ℕ cfgL c) (hA : dat.A 0 = V c (Pipeline.arrRef spec1 0))
    (hafter : ∀ t, dat.after 0 t = iblk1 V c 0 t) (t : Fin cfgL.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt FI) Unit ℕ (UR sig nD τ) ℕ cfgL c) (hA : dat.A 1 = V c (Pipeline.arrRef spec1 1))
    (hafter : ∀ t, dat.after 1 t = iblk1 V c 1 t) (t : Fin cfgL.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt FI) Unit ℕ (UR sig nD τ) ℕ cfgL c) (hA : dat.A 2 = V c (Pipeline.arrRef spec1 2))
    (hafter : ∀ t, dat.after 2 t = iblk1 V c 2 t) (t : Fin cfgL.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt FI) Unit ℕ (UR sig nD τ) ℕ cfgL c) (hA : dat.A 3 = V c (Pipeline.arrRef spec1 3))
    (hafter : ∀ t, dat.after 3 t = iblk1 V c 3 t) (t : Fin cfgL.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end AtV

/-! ## The class invariant, its scratch buffers one by one -/

/-- The scoped buffers of the first pallas_call, which this one never touches, each at some contents. -/
def restS1 (c : Dev nD) : sProp 𝕄 :=
  iprop((∃ f : Buf (Elt FI) ((c : Thread nD τ).loc cc0_stg0_0), ((c : Thread nD τ).loc cc0_stg0_0) ↦{fullShare} f) ∗ (∃ f : Buf (Elt FI) ((c : Thread nD τ).loc cc0_stg0_1), ((c : Thread nD τ).loc cc0_stg0_1) ↦{fullShare} f) ∗ (∃ f : Buf (Elt FI) ((c : Thread nD τ).loc cc0_stg1_0), ((c : Thread nD τ).loc cc0_stg1_0) ↦{fullShare} f) ∗ (∃ f : Buf (Elt FI) ((c : Thread nD τ).loc cc0_stg2_0), ((c : Thread nD τ).loc cc0_stg2_0) ↦{fullShare} f) ∗ (∃ f : Buf (Elt FI) ((c : Thread nD τ).loc cc0_stg3_0), ((c : Thread nD τ).loc cc0_stg3_0) ↦{fullShare} f) ∗ (∃ f : Buf (Elt FI) ((c : Thread nD τ).loc cc0_stg4_0), ((c : Thread nD τ).loc cc0_stg4_0) ↦{fullShare} f) ∗ (∃ f : Buf (Elt FI) ((c : Thread nD τ).loc cc0_stg4_1), ((c : Thread nD τ).loc cc0_stg4_1) ↦{fullShare} f))

/-- The class invariant: the other call's staging buffers, the three running buffers at anything, the generator
    register at some state. -/
theorem PhiA1_eq (c : Dev nD) :
    (Pipeline.ΦA spec1 c : sProp 𝕄)
      = iprop(iprop((∃ f : Buf (Elt FI) ((c : Thread nD τ).loc cc0_stg0_0), ((c : Thread nD τ).loc cc0_stg0_0) ↦{fullShare} f) ∗ (∃ f : Buf (Elt FI) ((c : Thread nD τ).loc cc0_stg0_1), ((c : Thread nD τ).loc cc0_stg0_1) ↦{fullShare} f) ∗ (∃ f : Buf (Elt FI) ((c : Thread nD τ).loc cc0_stg1_0), ((c : Thread nD τ).loc cc0_stg1_0) ↦{fullShare} f) ∗ (∃ f : Buf (Elt FI) ((c : Thread nD τ).loc cc0_stg2_0), ((c : Thread nD τ).loc cc0_stg2_0) ↦{fullShare} f) ∗ (∃ f : Buf (Elt FI) ((c : Thread nD τ).loc cc0_stg3_0), ((c : Thread nD τ).loc cc0_stg3_0) ↦{fullShare} f) ∗ (∃ f : Buf (Elt FI) ((c : Thread nD τ).loc cc0_stg4_0), ((c : Thread nD τ).loc cc0_stg4_0) ↦{fullShare} f) ∗ (∃ f : Buf (Elt FI) ((c : Thread nD τ).loc cc0_stg4_1), ((c : Thread nD τ).loc cc0_stg4_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The two tables held whole at the literal schedule. -/
theorem prefHeld1_eq (c : Dev nD) :
    (Pipeline.prefHeld (Ix := Unit) (Name := ℕ) (U := UR sig nD τ) (Lvl := ℕ) pre1 c (fun _ => fullShare) tblL : sProp 𝕄)
      = iprop(tbPt1 (F := FI) c tbM1_0 (tblL 0) ∗ tbPt1 (F := FI) c tbM1_1 (tblL 1)) := by
  unfold Pipeline.prefHeld
  rw [show (Finset.univ : Finset (Fin 2)) = insert (0 : Fin 2) {(1 : Fin 2)} from by decide,
    bigSep_insert (by decide), bigSep_singleton]
  rfl

end Cert.KernelIdeal.Hand

end
-- ==== Proof.R1RunA.lean ====
/-
  The body of the second pallas_call at a point that STARTS a row of tiles (the three running buffers may hold anything: the body resets them before reading them) and ENDS one (the output block is stored).
-/
import proofs.«405825_j40080634807018_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), with the proof that on whole staging memrefs — the inputs' at
    their contents, the tables at theirs — the body runs to the continuation holding the inputs and tables as they
    were and each stored buffer with its pieces written. -/
noncomputable def kernelRun1_A (c : Dev nD) (i : grid1.Coords)
    (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec F S1x512x1024 .bf16) (x3 : Vec F S1024x1024 .f32) (xt0 : TbBuf1 (F := F) c tbM1_0) (xt1 : TbBuf1 (F := F) c tbM1_1)
    (hcR : condR (wAt c i tbM1_1 xt1)) (hcF : condF (wAt c i tbM1_0 xt0) (wAt c i tbM1_1 xt1)) :
    { L : Pieces1 (F := F) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ (∃ d, owns (c : Thread nD τ) arg8 fullShare d)
            ∗ tbPt1 c tbM1_0 xt0 ∗ tbPt1 c tbM1_1 xt1
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3
                ∗ (∃ f, arg8.view.loc (c : Thread nD τ) ↦[arg8.view.set]{fullShare} arg8.view.writes (Elt F) f L.2.2.2)
                ∗ tbPt1 c tbM1_0 xt0 ∗ tbPt1 c tbM1_1 xt1
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2.1)
                ∗ (∃ f, arg11.view.loc (c : Thread nD τ) ↦[arg11.view.set]{fullShare} arg11.view.writes (Elt F) f L.2.2.1)) -∗ K ⟨⟩))
          ⊢ wp frame (wpE (defs₀ (F := F)) Variants.none c none) E (cc1__flash_causal_wo_kernel i tbM1_0 (Memref.isWhole_whole _) tbM1_1 (Memref.isWhole_whole _) arg4 harg4 arg5 harg5 arg6 harg6 arg7 harg7 arg8 harg8 arg9 harg9 arg10 harg10 arg11 harg11) K } := by
  refine ⟨(?_, ?_, ?_, ?_), fun E K => ?run⟩
  case run =>
    simp only [cc1__flash_causal_wo_kernel_eq_skeleton]; unfold cc1__flash_causal_wo_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hcR | sl_exact hcF)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    isplitl [HT1]; · iexact HT1
    isplitl [HS0]; · iexists _; iexact HS0
    isplitl [HS1]; · iexists _; iexact HS1
    iexists _; iexact HS2

end Cert.KernelIdeal.Hand

end
-- ==== Proof.R1RunB.lean ====
/-
  The body of the second pallas_call at a point that STARTS a row of tiles (the three running buffers may hold anything: the body resets them before reading them) and does NOT end one (the output's staging buffer is left as it was).
-/
import proofs.«405825_j40080634807018_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), with the proof that on whole staging memrefs — the inputs' at
    their contents, the tables at theirs — the body runs to the continuation holding the inputs and tables as they
    were and each stored buffer with its pieces written. -/
noncomputable def kernelRun1_B (c : Dev nD) (i : grid1.Coords)
    (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec F S1x512x1024 .bf16) (x3 : Vec F S1024x1024 .f32) (x4 : Vec F S1x512x1024 .f32) (xt0 : TbBuf1 (F := F) c tbM1_0) (xt1 : TbBuf1 (F := F) c tbM1_1)
    (hcR : condR (wAt c i tbM1_1 xt1)) (hcF : ¬condF (wAt c i tbM1_0 xt0) (wAt c i tbM1_1 xt1)) :
    { L : PiecesS1 (F := F) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ owns (c : Thread nD τ) arg8 fullShare x4
            ∗ tbPt1 c tbM1_0 xt0 ∗ tbPt1 c tbM1_1 xt1
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3
                ∗ owns (c : Thread nD τ) arg8 fullShare x4
                ∗ tbPt1 c tbM1_0 xt0 ∗ tbPt1 c tbM1_1 xt1
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2.1)
                ∗ (∃ f, arg11.view.loc (c : Thread nD τ) ↦[arg11.view.set]{fullShare} arg11.view.writes (Elt F) f L.2.2)) -∗ K ⟨⟩))
          ⊢ wp frame (wpE (defs₀ (F := F)) Variants.none c none) E (cc1__flash_causal_wo_kernel i tbM1_0 (Memref.isWhole_whole _) tbM1_1 (Memref.isWhole_whole _) arg4 harg4 arg5 harg5 arg6 harg6 arg7 harg7 arg8 harg8 arg9 harg9 arg10 harg10 arg11 harg11) K } := by
  refine ⟨(?_, ?_, ?_), fun E K => ?run⟩
  case run =>
    simp only [cc1__flash_causal_wo_kernel_eq_skeleton]; unfold cc1__flash_causal_wo_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, HT0, HT1, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hcR | sl_exact hcF)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HT0]; · iexact HT0
    isplitl [HT1]; · iexact HT1
    isplitl [HS0]; · iexists _; iexact HS0
    isplitl [HS1]; · iexists _; iexact HS1
    iexists _; iexact HS2

end Cert.KernelIdeal.Hand

end
-- ==== Proof.R1RunC.lean ====
/-
  The body of the second pallas_call at a point that does NOT start a row of tiles (the three running buffers hold what the point before left) and ENDS one (the output block is stored).
-/
import proofs.«405825_j40080634807018_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), with the proof that on whole staging memrefs — the inputs' at
    their contents, the tables at theirs — the body runs to the continuation holding the inputs and tables as they
    were and each stored buffer with its pieces written. -/
noncomputable def kernelRun1_C (c : Dev nD) (i : grid1.Coords)
    (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec F S1x512x1024 .bf16) (x3 : Vec F S1024x1024 .f32) (xt0 : TbBuf1 (F := F) c tbM1_0) (xt1 : TbBuf1 (F := F) c tbM1_1)
    (xs0 xs1 : Vec F S512x16 .f32) (xs2 : Vec F S512x1024 .f32)
    (hcR : ¬condR (wAt c i tbM1_1 xt1)) (hcF : condF (wAt c i tbM1_0 xt0) (wAt c i tbM1_1 xt1)) :
    { L : Pieces1 (F := F) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ (∃ d, owns (c : Thread nD τ) arg8 fullShare d)
            ∗ tbPt1 c tbM1_0 xt0 ∗ tbPt1 c tbM1_1 xt1
            ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3
                ∗ (∃ f, arg8.view.loc (c : Thread nD τ) ↦[arg8.view.set]{fullShare} arg8.view.writes (Elt F) f L.2.2.2)
                ∗ tbPt1 c tbM1_0 xt0 ∗ tbPt1 c tbM1_1 xt1
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2.1)
                ∗ (∃ f, arg11.view.loc (c : Thread nD τ) ↦[arg11.view.set]{fullShare} arg11.view.writes (Elt F) f L.2.2.1)) -∗ K ⟨⟩))
          ⊢ wp frame (wpE (defs₀ (F := F)) Variants.none c none) E (cc1__flash_causal_wo_kernel i tbM1_0 (Memref.isWhole_whole _) tbM1_1 (Memref.isWhole_whole _) arg4 harg4 arg5 harg5 arg6 harg6 arg7 harg7 arg8 harg8 arg9 harg9 arg10 harg10 arg11 harg11) K } := by
  refine ⟨(?_, ?_, ?_, ?_), fun E K => ?run⟩
  case run =>
    simp only [cc1__flash_causal_wo_kernel_eq_skeleton]; unfold cc1__flash_causal_wo_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3
    obtain rfl := harg9.eq_unread hfs0; obtain rfl := harg10.eq_unread hfs1; obtain rfl := harg11.eq_unread hfs2
    sl_exec (disch := first | sl_exact hcR | sl_exact hcF)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    isplitl [HT1]; · iexact HT1
    isplitl [HS0]; · iexists _; iexact HS0
    isplitl [HS1]; · iexists _; iexact HS1
    iexists _; iexact HS2

end Cert.KernelIdeal.Hand

end
-- ==== Proof.R1RunD.lean ====
/-
  The body of the second pallas_call at a point that does NOT start a row of tiles (the three running buffers hold what the point before left) and does NOT end one (the output's staging buffer is left as it was).
-/
import proofs.«405825_j40080634807018_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), with the proof that on whole staging memrefs — the inputs' at
    their contents, the tables at theirs — the body runs to the continuation holding the inputs and tables as they
    were and each stored buffer with its pieces written. -/
noncomputable def kernelRun1_D (c : Dev nD) (i : grid1.Coords)
    (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec F S1x512x1024 .bf16) (x3 : Vec F S1024x1024 .f32) (x4 : Vec F S1x512x1024 .f32) (xt0 : TbBuf1 (F := F) c tbM1_0) (xt1 : TbBuf1 (F := F) c tbM1_1)
    (xs0 xs1 : Vec F S512x16 .f32) (xs2 : Vec F S512x1024 .f32)
    (hcR : ¬condR (wAt c i tbM1_1 xt1)) (hcF : ¬condF (wAt c i tbM1_0 xt0) (wAt c i tbM1_1 xt1)) :
    { L : PiecesS1 (F := F) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ owns (c : Thread nD τ) arg8 fullShare x4
            ∗ tbPt1 c tbM1_0 xt0 ∗ tbPt1 c tbM1_1 xt1
            ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3
                ∗ owns (c : Thread nD τ) arg8 fullShare x4
                ∗ tbPt1 c tbM1_0 xt0 ∗ tbPt1 c tbM1_1 xt1
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2.1)
                ∗ (∃ f, arg11.view.loc (c : Thread nD τ) ↦[arg11.view.set]{fullShare} arg11.view.writes (Elt F) f L.2.2)) -∗ K ⟨⟩))
          ⊢ wp frame (wpE (defs₀ (F := F)) Variants.none c none) E (cc1__flash_causal_wo_kernel i tbM1_0 (Memref.isWhole_whole _) tbM1_1 (Memref.isWhole_whole _) arg4 harg4 arg5 harg5 arg6 harg6 arg7 harg7 arg8 harg8 arg9 harg9 arg10 harg10 arg11 harg11) K } := by
  refine ⟨(?_, ?_, ?_), fun E K => ?run⟩
  case run =>
    simp only [cc1__flash_causal_wo_kernel_eq_skeleton]; unfold cc1__flash_causal_wo_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, HT0, HT1, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4
    obtain rfl := harg9.eq_unread hfs0; obtain rfl := harg10.eq_unread hfs1; obtain rfl := harg11.eq_unread hfs2
    sl_exec (disch := first | sl_exact hcR | sl_exact hcF)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HT0]; · iexact HT0
    isplitl [HT1]; · iexact HT1
    isplitl [HS0]; · iexists _; iexact HS0
    isplitl [HS1]; · iexists _; iexact HS1
    iexists _; iexact HS2

end Cert.KernelIdeal.Hand

end
-- ==== Proof.R1Dat.lean ====
/-
  The second pallas_call: what its body leaves after each point, the invariant that carries the three running buffers
  from point to point, the proof data, and the body obligation.
-/
import proofs.«405825_j40080634807018_3_alg».proof.Proof.R1Sched
import proofs.«405825_j40080634807018_3_alg».proof.Proof.R1RunA
import proofs.«405825_j40080634807018_3_alg».proof.Proof.R1RunB
import proofs.«405825_j40080634807018_3_alg».proof.Proof.R1RunC
import proofs.«405825_j40080634807018_3_alg».proof.Proof.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt FI) ℕ (UR sig nD τ) ℕ

/-! ## What each case leaves -/

/-- Case A's one store into running buffer 0 covers it. -/
theorem scoverA_0 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) (y : S512x16.Idx) :
    ∃ pc ∈ (kernelRun1_A (F := FI) c i arg4 harg4 arg5 harg5 arg6 harg6 arg7 harg7 arg8 harg8 arg9 harg9 arg10 harg10 arg11 harg11 x0 x1 x2 x3 xt0 xt1 hcR hcF).1.1, y ∈ pc.1.set :=
  View.cover_of_tiledL (kernelRun1_A (F := FI) c i arg4 harg4 arg5 harg5 arg6 harg6 arg7 harg7 arg8 harg8 arg9 harg9 arg10 harg10 arg11 harg11 x0 x1 x2 x3 xt0 xt1 hcR hcF).1.1 S512x16.size (by sl_kernel_rfl) y
/-- What case A leaves in running buffer 0. -/
def soutA_0 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) : Vec FI S512x16 .f32 :=
  VS1_0.read (Elt FI) (VS1_0.writes (Elt FI) VS1_0.junk (kernelRun1_A (F := FI) c i arg4 harg4 arg5 harg5 arg6 harg6 arg7 harg7 arg8 harg8 arg9 harg9 arg10 harg10 arg11 harg11 x0 x1 x2 x3 xt0 xt1 hcR hcF).1.1)
/-- Case A's one store into running buffer 1 covers it. -/
theorem scoverA_1 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) (y : S512x16.Idx) :
    ∃ pc ∈ (kernelRun1_A (F := FI) c i arg4 harg4 arg5 harg5 arg6 harg6 arg7 harg7 arg8 harg8 arg9 harg9 arg10 harg10 arg11 harg11 x0 x1 x2 x3 xt0 xt1 hcR hcF).1.2.1, y ∈ pc.1.set :=
  View.cover_of_tiledL (kernelRun1_A (F := FI) c i arg4 harg4 arg5 harg5 arg6 harg6 arg7 harg7 arg8 harg8 arg9 harg9 arg10 harg10 arg11 harg11 x0 x1 x2 x3 xt0 xt1 hcR hcF).1.2.1 S512x16.size (by sl_kernel_rfl) y
/-- What case A leaves in running buffer 1. -/
def soutA_1 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) : Vec FI S512x16 .f32 :=
  VS1_1.read (Elt FI) (VS1_1.writes (Elt FI) VS1_1.junk (kernelRun1_A (F := FI) c i arg4 harg4 arg5 harg5 arg6 harg6 arg7 harg7 arg8 harg8 arg9 harg9 arg10 harg10 arg11 harg11 x0 x1 x2 x3 xt0 xt1 hcR hcF).1.2.1)
/-- Case A's one store into running buffer 2 covers it. -/
theorem scoverA_2 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) (y : S512x1024.Idx) :
    ∃ pc ∈ (kernelRun1_A (F := FI) c i arg4 harg4 arg5 harg5 arg6 harg6 arg7 harg7 arg8 harg8 arg9 harg9 arg10 harg10 arg11 harg11 x0 x1 x2 x3 xt0 xt1 hcR hcF).1.2.2.1, y ∈ pc.1.set :=
  View.cover_of_tiledL (kernelRun1_A (F := FI) c i arg4 harg4 arg5 harg5 arg6 harg6 arg7 harg7 arg8 harg8 arg9 harg9 arg10 harg10 arg11 harg11 x0 x1 x2 x3 xt0 xt1 hcR hcF).1.2.2.1 S512x1024.size (by sl_kernel_rfl) y
/-- What case A leaves in running buffer 2. -/
def soutA_2 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) : Vec FI S512x1024 .f32 :=
  VS1_2.read (Elt FI) (VS1_2.writes (Elt FI) VS1_2.junk (kernelRun1_A (F := FI) c i arg4 harg4 arg5 harg5 arg6 harg6 arg7 harg7 arg8 harg8 arg9 harg9 arg10 harg10 arg11 harg11 x0 x1 x2 x3 xt0 xt1 hcR hcF).1.2.2.1)
/-- Case A's one store into the output block covers it. -/
theorem coverA_4 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) (y : S1x512x1024.Idx) :
    ∃ pc ∈ (kernelRun1_A (F := FI) c i arg4 harg4 arg5 harg5 arg6 harg6 arg7 harg7 arg8 harg8 arg9 harg9 arg10 harg10 arg11 harg11 x0 x1 x2 x3 xt0 xt1 hcR hcF).1.2.2.2, y ∈ pc.1.set :=
  View.cover_of_tiledL (kernelRun1_A (F := FI) c i arg4 harg4 arg5 harg5 arg6 harg6 arg7 harg7 arg8 harg8 arg9 harg9 arg10 harg10 arg11 harg11 x0 x1 x2 x3 xt0 xt1 hcR hcF).1.2.2.2 S1x512x1024.size (by sl_kernel_rfl) y
/-- What case A leaves in the output's staging buffer. -/
def outA_4 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) : Vec FI S1x512x1024 .f32 :=
  VO1_4.read (Elt FI) (VO1_4.writes (Elt FI) VO1_4.junk (kernelRun1_A (F := FI) c i arg4 harg4 arg5 harg5 arg6 harg6 arg7 harg7 arg8 harg8 arg9 harg9 arg10 harg10 arg11 harg11 x0 x1 x2 x3 xt0 xt1 hcR hcF).1.2.2.2)

/-- Case B's one store into running buffer 0 covers it. -/
theorem scoverB_0 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (hcR : condR (wAt c i tbM1_1 xt1)) (hcF : ¬condF (wAt c i tbM1_0 xt0) (wAt c i tbM1_1 xt1)) (y : S512x16.Idx) :
    ∃ pc ∈ (kernelRun1_B (F := FI) c i arg4 harg4 arg5 harg5 arg6 harg6 arg7 harg7 arg8 harg8 arg9 harg9 arg10 harg10 arg11 harg11 x0 x1 x2 x3 x4 xt0 xt1 hcR hcF).1.1, y ∈ pc.1.set :=
  View.cover_of_tiledL (kernelRun1_B (F := FI) c i arg4 harg4 arg5 harg5 arg6 harg6 arg7 harg7 arg8 harg8 arg9 harg9 arg10 harg10 arg11 harg11 x0 x1 x2 x3 x4 xt0 xt1 hcR hcF).1.1 S512x16.size (by sl_kernel_rfl) y
/-- What case B leaves in running buffer 0. -/
def soutB_0 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (hcR : condR (wAt c i tbM1_1 xt1)) (hcF : ¬condF (wAt c i tbM1_0 xt0) (wAt c i tbM1_1 xt1)) : Vec FI S512x16 .f32 :=
  VS1_0.read (Elt FI) (VS1_0.writes (Elt FI) VS1_0.junk (kernelRun1_B (F := FI) c i arg4 harg4 arg5 harg5 arg6 harg6 arg7 harg7 arg8 harg8 arg9 harg9 arg10 harg10 arg11 harg11 x0 x1 x2 x3 x4 xt0 xt1 hcR hcF).1.1)
/-- Case B's one store into running buffer 1 covers it. -/
theorem scoverB_1 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (hcR : condR (wAt c i tbM1_1 xt1)) (hcF : ¬condF (wAt c i tbM1_0 xt0) (wAt c i tbM1_1 xt1)) (y : S512x16.Idx) :
    ∃ pc ∈ (kernelRun1_B (F := FI) c i arg4 harg4 arg5 harg5 arg6 harg6 arg7 harg7 arg8 harg8 arg9 harg9 arg10 harg10 arg11 harg11 x0 x1 x2 x3 x4 xt0 xt1 hcR hcF).1.2.1, y ∈ pc.1.set :=
  View.cover_of_tiledL (kernelRun1_B (F := FI) c i arg4 harg4 arg5 harg5 arg6 harg6 arg7 harg7 arg8 harg8 arg9 harg9 arg10 harg10 arg11 harg11 x0 x1 x2 x3 x4 xt0 xt1 hcR hcF).1.2.1 S512x16.size (by sl_kernel_rfl) y
/-- What case B leaves in running buffer 1. -/
def soutB_1 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (hcR : condR (wAt c i tbM1_1 xt1)) (hcF : ¬condF (wAt c i tbM1_0 xt0) (wAt c i tbM1_1 xt1)) : Vec FI S512x16 .f32 :=
  VS1_1.read (Elt FI) (VS1_1.writes (Elt FI) VS1_1.junk (kernelRun1_B (F := FI) c i arg4 harg4 arg5 harg5 arg6 harg6 arg7 harg7 arg8 harg8 arg9 harg9 arg10 harg10 arg11 harg11 x0 x1 x2 x3 x4 xt0 xt1 hcR hcF).1.2.1)
/-- Case B's one store into running buffer 2 covers it. -/
theorem scoverB_2 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (hcR : condR (wAt c i tbM1_1 xt1)) (hcF : ¬condF (wAt c i tbM1_0 xt0) (wAt c i tbM1_1 xt1)) (y : S512x1024.Idx) :
    ∃ pc ∈ (kernelRun1_B (F := FI) c i arg4 harg4 arg5 harg5 arg6 harg6 arg7 harg7 arg8 harg8 arg9 harg9 arg10 harg10 arg11 harg11 x0 x1 x2 x3 x4 xt0 xt1 hcR hcF).1.2.2, y ∈ pc.1.set :=
  View.cover_of_tiledL (kernelRun1_B (F := FI) c i arg4 harg4 arg5 harg5 arg6 harg6 arg7 harg7 arg8 harg8 arg9 harg9 arg10 harg10 arg11 harg11 x0 x1 x2 x3 x4 xt0 xt1 hcR hcF).1.2.2 S512x1024.size (by sl_kernel_rfl) y
/-- What case B leaves in running buffer 2. -/
def soutB_2 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (hcR : condR (wAt c i tbM1_1 xt1)) (hcF : ¬condF (wAt c i tbM1_0 xt0) (wAt c i tbM1_1 xt1)) : Vec FI S512x1024 .f32 :=
  VS1_2.read (Elt FI) (VS1_2.writes (Elt FI) VS1_2.junk (kernelRun1_B (F := FI) c i arg4 harg4 arg5 harg5 arg6 harg6 arg7 harg7 arg8 harg8 arg9 harg9 arg10 harg10 arg11 harg11 x0 x1 x2 x3 x4 xt0 xt1 hcR hcF).1.2.2)

/-- Case C's one store into running buffer 0 covers it. -/
theorem scoverC_0 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) (y : S512x16.Idx) :
    ∃ pc ∈ (kernelRun1_C (F := FI) c i arg4 harg4 arg5 harg5 arg6 harg6 arg7 harg7 arg8 harg8 arg9 harg9 arg10 harg10 arg11 harg11 x0 x1 x2 x3 xt0 xt1 xs0 xs1 xs2 hcR hcF).1.1, y ∈ pc.1.set :=
  View.cover_of_tiledL (kernelRun1_C (F := FI) c i arg4 harg4 arg5 harg5 arg6 harg6 arg7 harg7 arg8 harg8 arg9 harg9 arg10 harg10 arg11 harg11 x0 x1 x2 x3 xt0 xt1 xs0 xs1 xs2 hcR hcF).1.1 S512x16.size (by sl_kernel_rfl) y
/-- What case C leaves in running buffer 0. -/
def soutC_0 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) : Vec FI S512x16 .f32 :=
  VS1_0.read (Elt FI) (VS1_0.writes (Elt FI) VS1_0.junk (kernelRun1_C (F := FI) c i arg4 harg4 arg5 harg5 arg6 harg6 arg7 harg7 arg8 harg8 arg9 harg9 arg10 harg10 arg11 harg11 x0 x1 x2 x3 xt0 xt1 xs0 xs1 xs2 hcR hcF).1.1)
/-- Case C's one store into running buffer 1 covers it. -/
theorem scoverC_1 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) (y : S512x16.Idx) :
    ∃ pc ∈ (kernelRun1_C (F := FI) c i arg4 harg4 arg5 harg5 arg6 harg6 arg7 harg7 arg8 harg8 arg9 harg9 arg10 harg10 arg11 harg11 x0 x1 x2 x3 xt0 xt1 xs0 xs1 xs2 hcR hcF).1.2.1, y ∈ pc.1.set :=
  View.cover_of_tiledL (kernelRun1_C (F := FI) c i arg4 harg4 arg5 harg5 arg6 harg6 arg7 harg7 arg8 harg8 arg9 harg9 arg10 harg10 arg11 harg11 x0 x1 x2 x3 xt0 xt1 xs0 xs1 xs2 hcR hcF).1.2.1 S512x16.size (by sl_kernel_rfl) y
/-- What case C leaves in running buffer 1. -/
def soutC_1 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) : Vec FI S512x16 .f32 :=
  VS1_1.read (Elt FI) (VS1_1.writes (Elt FI) VS1_1.junk (kernelRun1_C (F := FI) c i arg4 harg4 arg5 harg5 arg6 harg6 arg7 harg7 arg8 harg8 arg9 harg9 arg10 harg10 arg11 harg11 x0 x1 x2 x3 xt0 xt1 xs0 xs1 xs2 hcR hcF).1.2.1)
/-- Case C's one store into running buffer 2 covers it. -/
theorem scoverC_2 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) (y : S512x1024.Idx) :
    ∃ pc ∈ (kernelRun1_C (F := FI) c i arg4 harg4 arg5 harg5 arg6 harg6 arg7 harg7 arg8 harg8 arg9 harg9 arg10 harg10 arg11 harg11 x0 x1 x2 x3 xt0 xt1 xs0 xs1 xs2 hcR hcF).1.2.2.1, y ∈ pc.1.set :=
  View.cover_of_tiledL (kernelRun1_C (F := FI) c i arg4 harg4 arg5 harg5 arg6 harg6 arg7 harg7 arg8 harg8 arg9 harg9 arg10 harg10 arg11 harg11 x0 x1 x2 x3 xt0 xt1 xs0 xs1 xs2 hcR hcF).1.2.2.1 S512x1024.size (by sl_kernel_rfl) y
/-- What case C leaves in running buffer 2. -/
def soutC_2 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) : Vec FI S512x1024 .f32 :=
  VS1_2.read (Elt FI) (VS1_2.writes (Elt FI) VS1_2.junk (kernelRun1_C (F := FI) c i arg4 harg4 arg5 harg5 arg6 harg6 arg7 harg7 arg8 harg8 arg9 harg9 arg10 harg10 arg11 harg11 x0 x1 x2 x3 xt0 xt1 xs0 xs1 xs2 hcR hcF).1.2.2.1)
/-- Case C's one store into the output block covers it. -/
theorem coverC_4 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) (y : S1x512x1024.Idx) :
    ∃ pc ∈ (kernelRun1_C (F := FI) c i arg4 harg4 arg5 harg5 arg6 harg6 arg7 harg7 arg8 harg8 arg9 harg9 arg10 harg10 arg11 harg11 x0 x1 x2 x3 xt0 xt1 xs0 xs1 xs2 hcR hcF).1.2.2.2, y ∈ pc.1.set :=
  View.cover_of_tiledL (kernelRun1_C (F := FI) c i arg4 harg4 arg5 harg5 arg6 harg6 arg7 harg7 arg8 harg8 arg9 harg9 arg10 harg10 arg11 harg11 x0 x1 x2 x3 xt0 xt1 xs0 xs1 xs2 hcR hcF).1.2.2.2 S1x512x1024.size (by sl_kernel_rfl) y
/-- What case C leaves in the output's staging buffer. -/
def outC_4 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) : Vec FI S1x512x1024 .f32 :=
  VO1_4.read (Elt FI) (VO1_4.writes (Elt FI) VO1_4.junk (kernelRun1_C (F := FI) c i arg4 harg4 arg5 harg5 arg6 harg6 arg7 harg7 arg8 harg8 arg9 harg9 arg10 harg10 arg11 harg11 x0 x1 x2 x3 xt0 xt1 xs0 xs1 xs2 hcR hcF).1.2.2.2)

/-- Case D's one store into running buffer 0 covers it. -/
theorem scoverD_0 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : ¬condF (wAt c i tbM1_0 xt0) (wAt c i tbM1_1 xt1)) (y : S512x16.Idx) :
    ∃ pc ∈ (kernelRun1_D (F := FI) c i arg4 harg4 arg5 harg5 arg6 harg6 arg7 harg7 arg8 harg8 arg9 harg9 arg10 harg10 arg11 harg11 x0 x1 x2 x3 x4 xt0 xt1 xs0 xs1 xs2 hcR hcF).1.1, y ∈ pc.1.set :=
  View.cover_of_tiledL (kernelRun1_D (F := FI) c i arg4 harg4 arg5 harg5 arg6 harg6 arg7 harg7 arg8 harg8 arg9 harg9 arg10 harg10 arg11 harg11 x0 x1 x2 x3 x4 xt0 xt1 xs0 xs1 xs2 hcR hcF).1.1 S512x16.size (by sl_kernel_rfl) y
/-- What case D leaves in running buffer 0. -/
def soutD_0 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : ¬condF (wAt c i tbM1_0 xt0) (wAt c i tbM1_1 xt1)) : Vec FI S512x16 .f32 :=
  VS1_0.read (Elt FI) (VS1_0.writes (Elt FI) VS1_0.junk (kernelRun1_D (F := FI) c i arg4 harg4 arg5 harg5 arg6 harg6 arg7 harg7 arg8 harg8 arg9 harg9 arg10 harg10 arg11 harg11 x0 x1 x2 x3 x4 xt0 xt1 xs0 xs1 xs2 hcR hcF).1.1)
/-- Case D's one store into running buffer 1 covers it. -/
theorem scoverD_1 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : ¬condF (wAt c i tbM1_0 xt0) (wAt c i tbM1_1 xt1)) (y : S512x16.Idx) :
    ∃ pc ∈ (kernelRun1_D (F := FI) c i arg4 harg4 arg5 harg5 arg6 harg6 arg7 harg7 arg8 harg8 arg9 harg9 arg10 harg10 arg11 harg11 x0 x1 x2 x3 x4 xt0 xt1 xs0 xs1 xs2 hcR hcF).1.2.1, y ∈ pc.1.set :=
  View.cover_of_tiledL (kernelRun1_D (F := FI) c i arg4 harg4 arg5 harg5 arg6 harg6 arg7 harg7 arg8 harg8 arg9 harg9 arg10 harg10 arg11 harg11 x0 x1 x2 x3 x4 xt0 xt1 xs0 xs1 xs2 hcR hcF).1.2.1 S512x16.size (by sl_kernel_rfl) y
/-- What case D leaves in running buffer 1. -/
def soutD_1 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : ¬condF (wAt c i tbM1_0 xt0) (wAt c i tbM1_1 xt1)) : Vec FI S512x16 .f32 :=
  VS1_1.read (Elt FI) (VS1_1.writes (Elt FI) VS1_1.junk (kernelRun1_D (F := FI) c i arg4 harg4 arg5 harg5 arg6 harg6 arg7 harg7 arg8 harg8 arg9 harg9 arg10 harg10 arg11 harg11 x0 x1 x2 x3 x4 xt0 xt1 xs0 xs1 xs2 hcR hcF).1.2.1)
/-- Case D's one store into running buffer 2 covers it. -/
theorem scoverD_2 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : ¬condF (wAt c i tbM1_0 xt0) (wAt c i tbM1_1 xt1)) (y : S512x1024.Idx) :
    ∃ pc ∈ (kernelRun1_D (F := FI) c i arg4 harg4 arg5 harg5 arg6 harg6 arg7 harg7 arg8 harg8 arg9 harg9 arg10 harg10 arg11 harg11 x0 x1 x2 x3 x4 xt0 xt1 xs0 xs1 xs2 hcR hcF).1.2.2, y ∈ pc.1.set :=
  View.cover_of_tiledL (kernelRun1_D (F := FI) c i arg4 harg4 arg5 harg5 arg6 harg6 arg7 harg7 arg8 harg8 arg9 harg9 arg10 harg10 arg11 harg11 x0 x1 x2 x3 x4 xt0 xt1 xs0 xs1 xs2 hcR hcF).1.2.2 S512x1024.size (by sl_kernel_rfl) y
/-- What case D leaves in running buffer 2. -/
def soutD_2 (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : ¬condF (wAt c i tbM1_0 xt0) (wAt c i tbM1_1 xt1)) : Vec FI S512x1024 .f32 :=
  VS1_2.read (Elt FI) (VS1_2.writes (Elt FI) VS1_2.junk (kernelRun1_D (F := FI) c i arg4 harg4 arg5 harg5 arg6 harg6 arg7 harg7 arg8 harg8 arg9 harg9 arg10 harg10 arg11 harg11 x0 x1 x2 x3 x4 xt0 xt1 xs0 xs1 xs2 hcR hcF).1.2.2)

/-! ## What the buffers hold after each point -/

section AtV

variable (V : (c : Dev nD) → (b : Ref sig .tc) → Buf (Elt FI) ((c : Thread nD τ).loc b))

/-- The three running buffers' contents (maximum, denominator, weighted sum). -/
abbrev Scr1 : Type := Vec FI S512x16 .f32 × Vec FI S512x16 .f32 × Vec FI S512x1024 .f32

/-- Contents nobody reads: the running buffers before the first point. -/
def junkS1 : Scr1 := (VS1_0.read (Elt FI) VS1_0.junk, VS1_1.read (Elt FI) VS1_1.junk, VS1_2.read (Elt FI) VS1_2.junk)

/-- What the body leaves at point `t` in the three running buffers, given what the point before left (`p`; unused where
    the point starts a row). -/
def scrAt (c : Dev nD) (t : Fin cfgL.N) (p : Scr1) : Scr1 :=
  if hR : condR (wkL c t) then
    if hF : condF (wqL c t) (wkL c t) then
      (soutA_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF, soutA_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF, soutA_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF)
    else
      (soutB_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) hR hF, soutB_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) hR hF, soutB_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) hR hF)
  else
    if hF : condF (wqL c t) (wkL c t) then
      (soutC_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) p.1 p.2.1 p.2.2 hR hF, soutC_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) p.1 p.2.1 p.2.2 hR hF, soutC_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) p.1 p.2.1 p.2.2 hR hF)
    else
      (soutD_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) p.1 p.2.1 p.2.2 hR hF, soutD_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) p.1 p.2.1 p.2.2 hR hF, soutD_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) p.1 p.2.1 p.2.2 hR hF)

/-- `scrAt` case by case. -/
theorem scrAt_A (c : Dev nD) (t : Fin cfgL.N) (p : Scr1) (hR : condR (wkL c t)) (hF : condF (wqL c t) (wkL c t)) :
    scrAt V c t p = (soutA_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF, soutA_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF, soutA_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF) := by
  unfold scrAt; rw [dif_pos hR, dif_pos hF]
theorem scrAt_B (c : Dev nD) (t : Fin cfgL.N) (p : Scr1) (hR : condR (wkL c t)) (hF : ¬condF (wqL c t) (wkL c t)) :
    scrAt V c t p = (soutB_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) hR hF, soutB_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) hR hF, soutB_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) hR hF) := by
  unfold scrAt; rw [dif_pos hR, dif_neg hF]
theorem scrAt_C (c : Dev nD) (t : Fin cfgL.N) (p : Scr1) (hR : ¬condR (wkL c t)) (hF : condF (wqL c t) (wkL c t)) :
    scrAt V c t p = (soutC_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) p.1 p.2.1 p.2.2 hR hF, soutC_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) p.1 p.2.1 p.2.2 hR hF, soutC_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) p.1 p.2.1 p.2.2 hR hF) := by
  unfold scrAt; rw [dif_neg hR, dif_pos hF]
theorem scrAt_D (c : Dev nD) (t : Fin cfgL.N) (p : Scr1) (hR : ¬condR (wkL c t)) (hF : ¬condF (wqL c t) (wkL c t)) :
    scrAt V c t p = (soutD_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) p.1 p.2.1 p.2.2 hR hF, soutD_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) p.1 p.2.1 p.2.2 hR hF, soutD_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) p.1 p.2.1 p.2.2 hR hF) := by
  unfold scrAt; rw [dif_neg hR, dif_neg hF]

/-- The three running buffers after point `n`. -/
def scrAfter (c : Dev nD) : (n : ℕ) → n < cfgL.N → Scr1
  | 0, hn => scrAt V c ⟨0, hn⟩ junkS1
  | n + 1, hn => scrAt V c ⟨n + 1, hn⟩ (scrAfter c n (Nat.lt_of_succ_lt hn))

/-- What the point before `t` left in them (nothing anyone reads before the first point). -/
def scrBefore (c : Dev nD) (t : Fin cfgL.N) : Scr1 :=
  if h : t.val = 0 then junkS1 else scrAfter V c (t.val - 1) (Nat.lt_of_le_of_lt (Nat.sub_le _ _) t.isLt)

theorem scrAfter_eq (c : Dev nD) (t : Fin cfgL.N) : scrAfter V c t.val t.isLt = scrAt V c t (scrBefore V c t) := by
  obtain ⟨n, hn⟩ := t
  cases n with
  | zero => rfl
  | succ n => rfl

theorem scrBefore_pos (c : Dev nD) (t : Fin cfgL.N) (hz : t.val ≠ 0) :
    scrBefore V c t = scrAfter V c (t.val - 1) (Nat.lt_of_le_of_lt (Nat.sub_le _ _) t.isLt) := dif_neg hz

/-- What the body leaves in the output's staging buffer at a point that ends a row (a placeholder elsewhere: the
    window is idle there and the buffer is handed back as found). -/
def outAt (c : Dev nD) (t : Fin cfgL.N) : Vec FI S1x512x1024 .f32 :=
  if hR : condR (wkL c t) then
    if hF : condF (wqL c t) (wkL c t) then outA_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF
    else (VO1_4.read (Elt FI) VO1_4.junk)
  else
    if hF : condF (wqL c t) (wkL c t) then outC_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrBefore V c t).1 (scrBefore V c t).2.1 (scrBefore V c t).2.2 hR hF
    else (VO1_4.read (Elt FI) VO1_4.junk)

theorem outAt_A (c : Dev nD) (t : Fin cfgL.N) (hR : condR (wkL c t)) (hF : condF (wqL c t) (wkL c t)) :
    outAt V c t = outA_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF := by
  unfold outAt; rw [dif_pos hR, dif_pos hF]
theorem outAt_C (c : Dev nD) (t : Fin cfgL.N) (hR : ¬condR (wkL c t)) (hF : condF (wqL c t) (wkL c t)) :
    outAt V c t = outC_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrBefore V c t).1 (scrBefore V c t).2.1 (scrBefore V c t).2.2 hR hF := by
  unfold outAt; rw [dif_neg hR, dif_pos hF]

/-! ## The invariant -/

/-- Before point `n`: at the start the class invariant (the running buffers at anything); afterwards the other call's
    staging buffers, the three running buffers at what the point before left, the generator register at some state. -/
def PhiS1 (c : Dev nD) : (n : ℕ) → n ≤ cfgL.N → sProp 𝕄
  | 0, _ => Pipeline.ΦA spec1 c
  | n + 1, hn => iprop(restS1 c ∗ owns (c : Thread nD τ) scM1_0 fullShare (scrAfter V c n hn).1 ∗ owns (c : Thread nD τ) scM1_1 fullShare (scrAfter V c n hn).2.1
      ∗ owns (c : Thread nD τ) scM1_2 fullShare (scrAfter V c n hn).2.2 ∗ (∃ r, prngReg c r))

theorem PhiS1_succ (c : Dev nD) (n : ℕ) (hn : n < cfgL.N) :
    PhiS1 V c (n + 1) hn = iprop(restS1 c ∗ owns (c : Thread nD τ) scM1_0 fullShare (scrAfter V c n hn).1 ∗ owns (c : Thread nD τ) scM1_1 fullShare (scrAfter V c n hn).2.1
      ∗ owns (c : Thread nD τ) scM1_2 fullShare (scrAfter V c n hn).2.2 ∗ (∃ r, prngReg c r)) := rfl

theorem PhiS1_pos (c : Dev nD) (n : ℕ) (h : n ≤ cfgL.N) (hz : n ≠ 0) :
    PhiS1 V c n h = iprop(restS1 c ∗ owns (c : Thread nD τ) scM1_0 fullShare (scrAfter V c (n - 1) (by omega)).1 ∗ owns (c : Thread nD τ) scM1_1 fullShare (scrAfter V c (n - 1) (by omega)).2.1
      ∗ owns (c : Thread nD τ) scM1_2 fullShare (scrAfter V c (n - 1) (by omega)).2.2 ∗ (∃ r, prngReg c r)) := by
  cases n with
  | zero => exact absurd rfl hz
  | succ n => rfl

/-- The class invariant, regrouped. -/
theorem PhiA1_split (c : Dev nD) :
    (Pipeline.ΦA spec1 c : sProp 𝕄) ⊢ iprop(restS1 c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) := by
  rw [PhiA1_eq]; unfold restS1
  iintro ⟨⟨B1, B2, B3, B4, B5, B6, B7, S0, S1, S2⟩, Hg⟩
  isplitl [B1 B2 B3 B4 B5 B6 B7]
  · isplitl [B1]; · iexact B1
    isplitl [B2]; · iexact B2
    isplitl [B3]; · iexact B3
    isplitl [B4]; · iexact B4
    isplitl [B5]; · iexact B5
    isplitl [B6]; · iexact B6
    iexact B7
  isplitl [S0]; · iexact S0
  isplitl [S1]; · iexact S1
  isplitl [S2]; · iexact S2
  iexact Hg
theorem PhiA1_join (c : Dev nD) :
    iprop(restS1 c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) ⊢ (Pipeline.ΦA spec1 c : sProp 𝕄) := by
  rw [PhiA1_eq]; unfold restS1
  iintro ⟨⟨B1, B2, B3, B4, B5, B6, B7⟩, S0, S1, S2, Hg⟩
  isplitr [Hg]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [S0]; · iexact S0
    isplitl [S1]; · iexact S1
    iexact S2
  iexact Hg

/-- At any point the invariant holds the running buffers at SOME contents. -/
theorem PhiS1_weaken (c : Dev nD) (n : ℕ) (h : n ≤ cfgL.N) :
    PhiS1 V c n h ⊢ iprop(restS1 c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) := by
  cases n with
  | zero => exact PhiA1_split c
  | succ n =>
    rw [PhiS1_succ]
    iintro ⟨Hr, S0, S1, S2, Hg⟩
    isplitl [Hr]; · iexact Hr
    isplitl [S0]; · iexists _; iexact S0
    isplitl [S1]; · iexists _; iexact S1
    isplitl [S2]; · iexists _; iexact S2
    iexact Hg

/-! ## The pipeline's proof data -/

/-- The proof data of this pipeline on core `c`: the arrays as the region finds them (`V`); after the body at point `t`
    each input's buffer at its block and the output's at `outAt`; the invariant `PhiS1` beside the two tables held whole
    at the literal schedule; nothing owed.  The three windows that read one array hold it at three shares that make
    the whole. -/
def dat1 (c : Dev nD) : Dat τ (Elt FI) Unit ℕ (UR sig nD τ) ℕ cfgL c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := iprop(PhiS1 V c t.val (Nat.le_of_lt_succ t.isLt) ∗ tbPt1 (F := FI) c tbM1_0 (tblL 0) ∗ tbPt1 (F := FI) c tbM1_1 (tblL 1))
  q w := match w with
    | ⟨0, _⟩ => fullShare.left
    | ⟨1, _⟩ => fullShare.right.left
    | ⟨2, _⟩ => fullShare.right.right
    | _ => fullShare
  owed _ := 0

theorem A_eq1 (c : Dev nD) (w : Fin cfgL.W) : (dat1 V c).A w = V c (Pipeline.arrRef spec1 w) := by
  dsimp only [dat1]

theorem Phi1_castSucc (c : Dev nD) (t : Fin cfgL.N) :
    (dat1 V c).Φ t.castSucc = iprop(PhiS1 V c t.val (Nat.le_of_lt t.isLt) ∗ tbPt1 (F := FI) c tbM1_0 (tblL 0) ∗ tbPt1 (F := FI) c tbM1_1 (tblL 1)) := by
  dsimp only [dat1]; simp only [Fin.coe_castSucc]

theorem after1_0 (c : Dev nD) (t : Fin cfgL.N) : (dat1 V c).after 0 t = iblk1 V c 0 t := by dsimp only [dat1]
theorem after1_1 (c : Dev nD) (t : Fin cfgL.N) : (dat1 V c).after 1 t = iblk1 V c 1 t := by dsimp only [dat1]
theorem after1_2 (c : Dev nD) (t : Fin cfgL.N) : (dat1 V c).after 2 t = iblk1 V c 2 t := by dsimp only [dat1]
theorem after1_3 (c : Dev nD) (t : Fin cfgL.N) : (dat1 V c).after 3 t = iblk1 V c 3 t := by dsimp only [dat1]
theorem after1_4 (c : Dev nD) (t : Fin cfgL.N) : (dat1 V c).after 4 t = outAt V c t := by dsimp only [dat1]

theorem before1_0 (c : Dev nD) (t : Fin cfgL.N) (d) : (dat1 V c).before 0 t d = iblk1 V c 0 t :=
  before1_0_of V (dat1 V c) (A_eq1 V c 0) (after1_0 V c) t d
theorem before1_1 (c : Dev nD) (t : Fin cfgL.N) (d) : (dat1 V c).before 1 t d = iblk1 V c 1 t :=
  before1_1_of V (dat1 V c) (A_eq1 V c 1) (after1_1 V c) t d
theorem before1_2 (c : Dev nD) (t : Fin cfgL.N) (d) : (dat1 V c).before 2 t d = iblk1 V c 2 t :=
  before1_2_of V (dat1 V c) (A_eq1 V c 2) (after1_2 V c) t d
theorem before1_3 (c : Dev nD) (t : Fin cfgL.N) (d) : (dat1 V c).before 3 t d = iblk1 V c 3 t :=
  before1_3_of V (dat1 V c) (A_eq1 V c 3) (after1_3 V c) t d

/-! ## The body obligation, at a generic point -/

/-- The body as the pipeline calls it at point `t`. -/
abbrev bodyAt1 (t : Fin cfgL.N) : Prog (TpuEff nD τ sig (Elt FI) Λ₀ .tc) PUnit :=
  cc1__flash_causal_wo_kernel (grid1.coords t) tbM1_0 (Memref.isWhole_whole _) tbM1_1 (Memref.isWhole_whole _) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _)

def bodyPre1 (c : Dev nD) (t : Fin cfgL.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfgL.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t)

set_option maxHeartbeats 4800000 in
/-- The body at any point: the inputs' memrefs hold their blocks; the schedule says which case the point is in; the
    invariant hands the body the running buffers (at what the point before left, or at anything where a row starts)
    and takes them back at this point's contents; the output's buffer comes back stored where a row ends and untouched
    elsewhere. -/
theorem sound_body1 (c : Dev nD) (t : Fin cfgL.N) :
    bodyPre1 V c t ⊢ wp frame (wpE (defs₀ (F := FI)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = iprop(PhiS1 V c (t.val + 1) t.isLt ∗ tbPt1 (F := FI) c tbM1_0 (tblL 0) ∗ tbPt1 (F := FI) c tbM1_1 (tblL 1)) from rfl, PhiS1_succ,
    Phi1_castSucc]
  by_cases hR : condR (wkL c t)
  · by_cases hF : condF (wqL c t) (wkL c t)
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 c t hF], after1_4, outAt_A V c t hR hF]
      rw [scrAfter_eq V c t, scrAt_A V c t _ hR hF]
      unfold soutA_0 soutA_1 soutA_2 outA_4; (try dsimp only)
      refine (sep_mono (sep_mono (PhiS1_weaken V c _ _) .rfl) .rfl).trans ?_
      iintro ⟨⟨⟨Hrest, HS0, HS1, HS2, Hg⟩, HT0, HT1⟩, Ho, ⟨%d0, H0⟩, ⟨%d1, H1⟩, ⟨%d2, H2⟩, ⟨%d3, H3⟩, ⟨%d4, H4⟩⟩
      iapply ((kernelRun1_A (F := FI) c (grid1.coords t) _ _ _ _ _ _ _ _ _ _ _ _ _ _ _ _ (iblk1 V c 0 t) (iblk1 V c 1 t) (iblk1 V c 2 t) (iblk1 V c 3 t) (tblL 0) (tblL 1) hR hF).2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      isplitl [HS0]; · iexact HS0
      isplitl [HS1]; · iexact HS1
      isplitl [HS2]; · iexact HS2
      iintro ⟨H0, H1, H2, H3, ⟨%e4, H4⟩, HT0, HT1, ⟨%es0, HS0⟩, ⟨%es1, HS1⟩, ⟨%es2, HS2⟩⟩
      isplitl [Hrest HS0 HS1 HS2 Hg HT0 HT1]
      · isplitl [Hrest HS0 HS1 HS2 Hg]
        · isplitl [Hrest]; · iexact Hrest
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverA_2 c _ _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverA_4 c _ _ _ _ _ _ _ _ _ _ _ _ _ _ _ _ _ _ _ _ _ _ _ _ _)

    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 c t hF) (noFlush1_4 c t hF)]
      rw [scrAfter_eq V c t, scrAt_B V c t _ hR hF]
      unfold soutB_0 soutB_1 soutB_2; (try dsimp only)
      refine (sep_mono (sep_mono (PhiS1_weaken V c _ _) .rfl) .rfl).trans ?_
      iintro ⟨⟨⟨Hrest, HS0, HS1, HS2, Hg⟩, HT0, HT1⟩, Ho, ⟨%d0, H0⟩, ⟨%d1, H1⟩, ⟨%d2, H2⟩, ⟨%d3, H3⟩, ⟨%d4, H4⟩⟩
      iapply ((kernelRun1_B (F := FI) c (grid1.coords t) _ _ _ _ _ _ _ _ _ _ _ _ _ _ _ _ (iblk1 V c 0 t) (iblk1 V c 1 t) (iblk1 V c 2 t) (iblk1 V c 3 t) ((dat1 V c).before 4 t d4) (tblL 0) (tblL 1) hR hF).2 Set.univ _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HS0]; · iexact HS0
      isplitl [HS1]; · iexact HS1
      isplitl [HS2]; · iexact HS2
      iintro ⟨H0, H1, H2, H3, H4, HT0, HT1, ⟨%es0, HS0⟩, ⟨%es1, HS1⟩, ⟨%es2, HS2⟩⟩
      isplitl [Hrest HS0 HS1 HS2 Hg HT0 HT1]
      · isplitl [Hrest HS0 HS1 HS2 Hg]
        · isplitl [Hrest]; · iexact Hrest
          isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverB_2 c _ _ _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4

  · by_cases hF : condF (wqL c t) (wkL c t)
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 c t hF], after1_4, outAt_C V c t hR hF]
      have hz : t.val ≠ 0 := fun hz => hR (condR_zero c t hz)
      rw [scrAfter_eq V c t, scrAt_C V c t _ hR hF, scrBefore_pos V c t hz]
      unfold soutC_0 soutC_1 soutC_2 outC_4; (try dsimp only)
      rw [PhiS1_pos V c _ _ hz]
      iintro ⟨⟨⟨Hrest, HS0, HS1, HS2, Hg⟩, HT0, HT1⟩, Ho, ⟨%d0, H0⟩, ⟨%d1, H1⟩, ⟨%d2, H2⟩, ⟨%d3, H3⟩, ⟨%d4, H4⟩⟩
      iapply ((kernelRun1_C (F := FI) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrAfter V c (t.val - 1) (Nat.lt_of_le_of_lt (Nat.sub_le _ _) t.isLt)).1 (scrAfter V c (t.val - 1) (Nat.lt_of_le_of_lt (Nat.sub_le _ _) t.isLt)).2.1 (scrAfter V c (t.val - 1) (Nat.lt_of_le_of_lt (Nat.sub_le _ _) t.isLt)).2.2 hR hF).2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      isplitl [HS0]; · iexact HS0
      isplitl [HS1]; · iexact HS1
      isplitl [HS2]; · iexact HS2
      iintro ⟨H0, H1, H2, H3, ⟨%e4, H4⟩, HT0, HT1, ⟨%es0, HS0⟩, ⟨%es1, HS1⟩, ⟨%es2, HS2⟩⟩
      isplitl [Hrest HS0 HS1 HS2 Hg HT0 HT1]
      · isplitl [Hrest HS0 HS1 HS2 Hg]
        · isplitl [Hrest]; · iexact Hrest
          isplitl [HS0]
          · unfold owns; iexists _; isplitr
            swap; · iexact HS0
            ipureintro; exact View.read_writes_of_cover _ _ _ _ _ (scoverC_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrAfter V c (t.val - 1) (Nat.lt_of_le_of_lt (Nat.sub_le _ _) t.isLt)).1 (scrAfter V c (t.val - 1) (Nat.lt_of_le_of_lt (Nat.sub_le _ _) t.isLt)).2.1 (scrAfter V c (t.val - 1) (Nat.lt_of_le_of_lt (Nat.sub_le _ _) t.isLt)).2.2 hR hF)
          isplitl [HS1]
          · unfold owns; iexists _; isplitr
            swap; · iexact HS1
            ipureintro; exact View.read_writes_of_cover _ _ _ _ _ (scoverC_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrAfter V c (t.val - 1) (Nat.lt_of_le_of_lt (Nat.sub_le _ _) t.isLt)).1 (scrAfter V c (t.val - 1) (Nat.lt_of_le_of_lt (Nat.sub_le _ _) t.isLt)).2.1 (scrAfter V c (t.val - 1) (Nat.lt_of_le_of_lt (Nat.sub_le _ _) t.isLt)).2.2 hR hF)
          isplitl [HS2]
          · unfold owns; iexists _; isplitr
            swap; · iexact HS2
            ipureintro; exact View.read_writes_of_cover _ _ _ _ _ (scoverC_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrAfter V c (t.val - 1) (Nat.lt_of_le_of_lt (Nat.sub_le _ _) t.isLt)).1 (scrAfter V c (t.val - 1) (Nat.lt_of_le_of_lt (Nat.sub_le _ _) t.isLt)).2.1 (scrAfter V c (t.val - 1) (Nat.lt_of_le_of_lt (Nat.sub_le _ _) t.isLt)).2.2 hR hF)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrAfter V c (t.val - 1) (Nat.lt_of_le_of_lt (Nat.sub_le _ _) t.isLt)).1 (scrAfter V c (t.val - 1) (Nat.lt_of_le_of_lt (Nat.sub_le _ _) t.isLt)).2.1 (scrAfter V c (t.val - 1) (Nat.lt_of_le_of_lt (Nat.sub_le _ _) t.isLt)).2.2 hR hF)

    · -- case D
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 c t hF) (noFlush1_4 c t hF)]
      have hz : t.val ≠ 0 := fun hz => hR (condR_zero c t hz)
      rw [scrAfter_eq V c t, scrAt_D V c t _ hR hF, scrBefore_pos V c t hz]
      unfold soutD_0 soutD_1 soutD_2; (try dsimp only)
      rw [PhiS1_pos V c _ _ hz]
      iintro ⟨⟨⟨Hrest, HS0, HS1, HS2, Hg⟩, HT0, HT1⟩, Ho, ⟨%d0, H0⟩, ⟨%d1, H1⟩, ⟨%d2, H2⟩, ⟨%d3, H3⟩, ⟨%d4, H4⟩⟩
      iapply ((kernelRun1_D (F := FI) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) ((dat1 V c).before 4 t d4) (tblL 0) (tblL 1) (scrAfter V c (t.val - 1) (Nat.lt_of_le_of_lt (Nat.sub_le _ _) t.isLt)).1 (scrAfter V c (t.val - 1) (Nat.lt_of_le_of_lt (Nat.sub_le _ _) t.isLt)).2.1 (scrAfter V c (t.val - 1) (Nat.lt_of_le_of_lt (Nat.sub_le _ _) t.isLt)).2.2 hR hF).2 Set.univ _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HS0]; · iexact HS0
      isplitl [HS1]; · iexact HS1
      isplitl [HS2]; · iexact HS2
      iintro ⟨H0, H1, H2, H3, H4, HT0, HT1, ⟨%es0, HS0⟩, ⟨%es1, HS1⟩, ⟨%es2, HS2⟩⟩
      isplitl [Hrest HS0 HS1 HS2 Hg HT0 HT1]
      · isplitl [Hrest HS0 HS1 HS2 Hg]
        · isplitl [Hrest]; · iexact Hrest
          isplitl [HS0]
          · unfold owns; iexists _; isplitr
            swap; · iexact HS0
            ipureintro; exact View.read_writes_of_cover _ _ _ _ _ (scoverD_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) ((dat1 V c).before 4 t d4) (tblL 0) (tblL 1) (scrAfter V c (t.val - 1) (Nat.lt_of_le_of_lt (Nat.sub_le _ _) t.isLt)).1 (scrAfter V c (t.val - 1) (Nat.lt_of_le_of_lt (Nat.sub_le _ _) t.isLt)).2.1 (scrAfter V c (t.val - 1) (Nat.lt_of_le_of_lt (Nat.sub_le _ _) t.isLt)).2.2 hR hF)
          isplitl [HS1]
          · unfold owns; iexists _; isplitr
            swap; · iexact HS1
            ipureintro; exact View.read_writes_of_cover _ _ _ _ _ (scoverD_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) ((dat1 V c).before 4 t d4) (tblL 0) (tblL 1) (scrAfter V c (t.val - 1) (Nat.lt_of_le_of_lt (Nat.sub_le _ _) t.isLt)).1 (scrAfter V c (t.val - 1) (Nat.lt_of_le_of_lt (Nat.sub_le _ _) t.isLt)).2.1 (scrAfter V c (t.val - 1) (Nat.lt_of_le_of_lt (Nat.sub_le _ _) t.isLt)).2.2 hR hF)
          isplitl [HS2]
          · unfold owns; iexists _; isplitr
            swap; · iexact HS2
            ipureintro; exact View.read_writes_of_cover _ _ _ _ _ (scoverD_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) ((dat1 V c).before 4 t d4) (tblL 0) (tblL 1) (scrAfter V c (t.val - 1) (Nat.lt_of_le_of_lt (Nat.sub_le _ _) t.isLt)).1 (scrAfter V c (t.val - 1) (Nat.lt_of_le_of_lt (Nat.sub_le _ _) t.isLt)).2.1 (scrAfter V c (t.val - 1) (Nat.lt_of_le_of_lt (Nat.sub_le _ _) t.isLt)).2.2 hR hF)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 V c) (defs₀ (F := FI)) Variants.none () Set.univ := fun t => by
  rw [bigSep_W1, bigSep_W1]
  exact sound_body1 V c t

/-- Before the first point the invariant is the class's beside the two tables. -/
theorem Phi1_zero (c : Dev nD) :
    (dat1 V c).Φ 0 = iprop(Pipeline.ΦA spec1 c ∗ tbPt1 (F := FI) c tbM1_0 (tblL 0) ∗ tbPt1 (F := FI) c tbM1_1 (tblL 1)) := rfl

/-- After the last point it gives them back: the running buffers' named contents are forgotten. -/
theorem Phi1_out (c : Dev nD) :
    (dat1 V c).Φ (Fin.last cfgL.N) ⊢ iprop(Pipeline.ΦA spec1 c ∗ tbPt1 (F := FI) c tbM1_0 (tblL 0) ∗ tbPt1 (F := FI) c tbM1_1 (tblL 1)) :=
  sep_mono ((PhiS1_weaken V c _ _).trans (PhiA1_join c)) .rfl

/-- The shares at which the three windows on one array hold it, and the others theirs. -/
theorem q1_0 (c : Dev nD) : (dat1 V c).q 0 = fullShare.left := rfl
theorem q1_1 (c : Dev nD) : (dat1 V c).q 1 = fullShare.right.left := rfl
theorem q1_2 (c : Dev nD) : (dat1 V c).q 2 = fullShare.right.right := rfl
theorem q1_3 (c : Dev nD) : (dat1 V c).q 3 = fullShare := rfl

end AtV

end Cert.KernelIdeal.Hand

end
-- ==== Proof.Run.lean ====
/- The run of the whole program, with the result array's final contents: the two kernel regions among the host
   stretches, each region entered from the unscoped buffers at the contents the items before it leave and left at
   those contents with its output array at what its write-backs made of it.  The first region's windows stage five
   distinct arrays; the second's first three windows stage ONE array (the fused projections, read as queries, keys and
   values), held at three shares that make the whole, and it reads its schedule from two tables the first host
   stretch wrote.  The final memory holds the result array at what the second region's write-backs leave, and every
   argument as launched. -/
import proofs.«405825_j40080634807018_3_alg».proof.Proof.R0
import proofs.«405825_j40080634807018_3_alg».proof.Proof.R1Dat
import proofs.«405825_j40080634807018_3_alg».proof.Proof.Gen.KernelIdeal.Launch
import proofs.«405825_j40080634807018_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

/-! ## The program's run from the two regions' records, the result array read at the end -/

section Cond

variable {F : FTy → Type} [FloatOps F] [Named F]
variable (m : (ℓ : Loc nD τ sig) → Buf (Elt F) ℓ) (outs : Outs (F := F))

/-- The result array after the last item is what the second region leaves in it. -/
theorem V4_main_v3 (c : Dev nD) : V4 m outs c main_v3 = outs 4 main_v3 c := by
  simp only [V4, Function.update_self]

set_option backward.isDefEq.respectTransparency.types false in
/-- GIVEN, per region, a segment record entered from the unscoped buffers at the contents before it and left at the
    contents after it, every weakly fair execution of @main terminates and every final memory holds the result array
    at what the second region leaves in it and each argument as launched. -/
theorem frame_cond_val {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v3) = outs 4 main_v3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_v3) = outs 4 main_v3 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch contents; the rest makes the first rest state on every core
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result array and each argument read off the last contents
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_v3) (Finset.mem_filter.mpr ⟨StableHlo.devRef_mem_tcRefs main_v3, by decide⟩)).trans (V4_main_v3 m outs c),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c)⟩
    · iexact HSI

end Cond

/-- The second region's body owes nothing at any point. -/
theorem owed1 (V : (c : Dev nD) → (b : Ref sig .tc) → Buf (Elt FI) ((c : Thread nD τ).loc b)) (c : Dev nD) (t : Fin (cfgL.N + 1)) :
    (dat1 V c).owed t = 0 := rfl

/-! ## The contents between the items, the proof data, the first region's record -/

section Run

local notation "𝕄" => MT nD τ sig Unit (Elt FI) ℕ (UR sig nD τ) ℕ

variable (m : (ℓ : Loc nD τ sig) → Buf (Elt FI) ℓ) (ρ : Dev nD → PrngReg)

/-- The TensorCore's buffers when the first region is entered: the launch contents after the first host stretch. -/
abbrev Vin0 : (c : Dev nD) → (b : Ref sig .tc) → Buf (Elt FI) ((c : Thread nD τ).loc b) := fun c b => V1 m c b

/-- What the first region leaves in its result array (and the launch contents elsewhere: read nowhere else). -/
def outs2 : Outs (F := FI) := fun _ r c =>
  Function.update (fun r' : Ref sig .tc => (m ((c : Thread nD τ).loc r') : Buf (Elt FI) ((c : Thread nD τ).loc r')))
    main_v1 ((dat0 (F := FI) (Vin0 m) c).arrAt 4 cfg0.N) r

/-- The TensorCore's buffers when the second region is entered: those contents after the first region's write-backs
    and the second host stretch. -/
abbrev Vin1 : (c : Dev nD) → (b : Ref sig .tc) → Buf (Elt FI) ((c : Thread nD τ).loc b) := fun c b => V3 m (outs2 m) c b

/-- What each region leaves in its result array. -/
def outsR : Outs (F := FI) := fun n r c =>
  if n = 4 then
    Function.update (fun r' : Ref sig .tc => (m ((c : Thread nD τ).loc r') : Buf (Elt FI) ((c : Thread nD τ).loc r')))
      main_v3 ((dat1 (Vin1 m) c).arrAt 4 cfgL.N) r
  else outs2 m n r c

theorem outsR_2 (c : Dev nD) : outsR m 2 main_v1 c = (dat0 (F := FI) (Vin0 m) c).arrAt 4 cfg0.N := by
  unfold outsR outs2
  rw [if_neg (by decide), Function.update_self]
theorem outsR_4 (c : Dev nD) : outsR m 4 main_v3 c = (dat1 (Vin1 m) c).arrAt 4 cfgL.N := by
  unfold outsR
  rw [if_pos rfl, Function.update_self]
/-- The contents before the second region read the regions' results only at the first region's. -/
theorem V2_outsR (c : Dev nD) : V2 m (outsR m) c = V2 m (outs2 m) c := rfl
theorem V3_outsR (c : Dev nD) : V3 m (outsR m) c = V3 m (outs2 m) c := rfl

/-- The tables' contents per pallas_call: none for the first, the literal schedule for the second. -/
abbrev admR : (p : Fin 2) → (pcfgs (F := FI) p).Adm := fun
  | ⟨0, _⟩ => cfg0.toPCfg_adm
  | ⟨1, _⟩ => admL
  | ⟨_ + 2, h⟩ => absurd h (Nat.not_lt.2 (Nat.le_add_left _ _))

/-- Every pipeline's proof data, each at its region's entry contents. -/
def pdatsR : (p : Fin 2) → (c : Dev nD) → Dat τ (Elt FI) Unit ℕ (UR sig nD τ) ℕ (Pipeline.pin (pcfgs (F := FI)) admR p) c
  | ⟨0, _⟩ => fun c => dat0 (F := FI) (Vin0 m) c
  | ⟨1, _⟩ => fun c => dat1 (Vin1 m) c

abbrev 𝒱R : Variants := Variants.none
abbrev LR : GSem nD τ sig → Finset Unit := fun _ => ∅
abbrev lvR : GSem nD τ sig → Unit → ℕ := fun _ _ => 0
/-- What rides beside the buffers through every item: the core's generator register at some state and its debts, none. -/
abbrev RR (c : Dev nD) : sProp 𝕄 := iprop((∃ r, prngReg c r) ∗ ∃ W, owes (c : Thread nD τ) (0 : CellTallies nD τ sig Unit) W)

/-- The first region's arrays after it, read off the contents after it. -/
theorem hF0 (c : Dev nD) (w : Fin cfg0.W) :
    (pdatsR m 0 c).arrAt w cfg0.N = (fun b : Ref sig .tc => V2 m (outsR m) c b) (Pipeline.arrRef spec0 w) := by
  show (dat0 (F := FI) (Vin0 m) c).arrAt w cfg0.N = _
  match w with
  | ⟨0, _⟩ => exact (((dat0 (F := FI) (Vin0 m) c).arrAt_in 0 rfl _).trans (A_eq0 (Vin0 m) c 0)).trans (V2_of m (outsR m) c main_v0 (by decide)).symm
  | ⟨1, _⟩ => exact (((dat0 (F := FI) (Vin0 m) c).arrAt_in 1 rfl _).trans (A_eq0 (Vin0 m) c 1)).trans (V2_of m (outsR m) c main_arg1 (by decide)).symm
  | ⟨2, _⟩ => exact (((dat0 (F := FI) (Vin0 m) c).arrAt_in 2 rfl _).trans (A_eq0 (Vin0 m) c 2)).trans (V2_of m (outsR m) c main_arg2 (by decide)).symm
  | ⟨3, _⟩ => exact (((dat0 (F := FI) (Vin0 m) c).arrAt_in 3 rfl _).trans (A_eq0 (Vin0 m) c 3)).trans (V2_of m (outsR m) c main_arg3 (by decide)).symm
  | ⟨4, _⟩ =>
    show _ = V2 m (outsR m) c main_v1
    simp only [V2, Function.update_self]
    exact (outsR_2 m c).symm

/-- Every other buffer is as the region found it. -/
theorem hrest0 (c : Dev nD) : ∀ b, b ∉ Finset.univ.image (Pipeline.arrRef spec0) →
    (fun b : Ref sig .tc => V2 m (outsR m) c b) b = Vin0 m c b := fun b hb =>
  V2_of m (outsR m) c b fun h => hb (Finset.mem_image.mpr ⟨4, Finset.mem_univ _, (List.mem_singleton.mp h).symm⟩)

set_option backward.isDefEq.respectTransparency.types false in
/-- THE FIRST REGION over the thread state: entered from every unscoped buffer at the contents after the first host
    stretch, left at those contents with its result array at what its write-backs leave. Its five arrays are distinct
    whole buffers: split out of the unscoped buffers and put back. -/
def reg0 : Pipeline.RegionSeg (pcfgs (F := FI)) admR (pdatsR m) () defs₀ 𝒱R LR lvR 0 where
  win := (launch0 (F := FI)).win.to₀
  block_pos := (launch0 (F := FI)).block_pos
  stage_whole := (launch0 (F := FI)).stage_whole
  K := PEmpty
  osem k := k.elim
  ho := Pipeline.OwnSemFacts.none _
  hbody c := (body_obligation0 (F := FI) (Vin0 m) c).loose
  hwaits := Pipeline.hwaits_of_owed_zero _ _ _ _ LR lvR 0 fun _ _ => rfl
  pre c := iprop(StableHlo.held (c : Thread nD τ) (Pipeline.ucRefs τ sig) (V1 m c) ∗ RR c)
  post c := iprop(StableHlo.held (c : Thread nD τ) (Pipeline.ucRefs τ sig) (V2 m (outsR m) c) ∗ RR c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := FI)) admR (pdatsR m) (launch0 (F := FI)).win (launch0 (F := FI)).arr_whole c
      ((pdatsR m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsR m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsR m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := FI)) admR (Ix := Unit) (Name := ℕ) (U := UR sig nD τ) (Lvl := ℕ)
      (launch0 (F := FI)).win (launch0 (F := FI)).arr_whole c (pdatsR m) ((pdatsR m 0 c).share_full fun _ => rfl)
      (Vin0 m c) (fun b : Ref sig .tc => V2 m (outsR m) c b) ((pdatsR m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: its tables, its arrays -/

/-- When the second region is entered its two tables hold the literal schedule: the first host stretch wrote them,
    and nothing since has. -/
theorem tbl_eq (c : Dev nD) (k : Fin pre1.K) : Vin1 m c (pre1.ref k) = tblL k := by
  match k with
  | ⟨0, _⟩ =>
    show V3 m (outs2 m) c main_c = _
    rw [V3_of m (outs2 m) c main_c (by decide), V2_of m (outs2 m) c main_c (by decide)]
    show StableHlo.after hostOps0 (V0 m c) (Proc.devRef .tc main_c) = _
    after_results
    rfl
  | ⟨1, _⟩ =>
    show V3 m (outs2 m) c main_c_0 = _
    rw [V3_of m (outs2 m) c main_c_0 (by decide), V2_of m (outs2 m) c main_c_0 (by decide)]
    show StableHlo.after hostOps0 (V0 m c) (Proc.devRef .tc main_c_0) = _
    after_results
    rfl

/-- The buffers behind the second region's five windows: the fused projections (three windows), the output weights,
    the result. -/
theorem arrImg1 : Finset.univ.image (Pipeline.arrRef spec1) = ({main_v2, main_arg4, main_v3} : Finset (Ref sig .tc)) := by decide

/-- A window of the second region holds its array, a whole buffer, at its share. -/
theorem share1_0 (V : (c : Dev nD) → (b : Ref sig .tc) → Buf (Elt FI) ((c : Thread nD τ).loc b)) (c : Dev nD) : (dat1 V c).share 0 = fullShare.left := by
  unfold Pipeline.Dat.share; rw [if_neg (by decide)]; exact q1_0 V c
theorem share1_1 (V : (c : Dev nD) → (b : Ref sig .tc) → Buf (Elt FI) ((c : Thread nD τ).loc b)) (c : Dev nD) : (dat1 V c).share 1 = fullShare.right.left := by
  unfold Pipeline.Dat.share; rw [if_neg (by decide)]; exact q1_1 V c
theorem share1_2 (V : (c : Dev nD) → (b : Ref sig .tc) → Buf (Elt FI) ((c : Thread nD τ).loc b)) (c : Dev nD) : (dat1 V c).share 2 = fullShare.right.right := by
  unfold Pipeline.Dat.share; rw [if_neg (by decide)]; exact q1_2 V c
theorem share1_3 (V : (c : Dev nD) → (b : Ref sig .tc) → Buf (Elt FI) ((c : Thread nD τ).loc b)) (c : Dev nD) : (dat1 V c).share 3 = fullShare := by
  unfold Pipeline.Dat.share; rw [if_neg (by decide)]; exact q1_3 V c
theorem share1_4 (V : (c : Dev nD) → (b : Ref sig .tc) → Buf (Elt FI) ((c : Thread nD τ).loc b)) (c : Dev nD) : (dat1 V c).share 4 = fullShare := by
  unfold Pipeline.Dat.share; rw [if_pos (by decide)]

/-- The three buffers behind the windows, each whole at the full share, ARE the five windows' holdings: the fused
    projections' buffer is dealt in three shares that make the whole, one per window reading it. -/
theorem arrays1_iff (V : (c : Dev nD) → (b : Ref sig .tc) → Buf (Elt FI) ((c : Thread nD τ).loc b)) (c : Dev nD)
    (W : (b : Ref sig .tc) → Buf (Elt FI) ((c : Thread nD τ).loc b))
    (F : (w : Fin cfgL.W) → Buf (Elt FI) ((cfgL.win w).arr.view.loc (c.tc : Thread nD τ))) (hF : ∀ w, F w = W (Pipeline.arrRef spec1 w)) :
    (Pipeline.arrBufs spec1 c W : sProp 𝕄) ⊣⊢ (dat1 V c).arrays F := by
  have harr : ∀ w : Fin cfgL.W, (cfgL.win w).arr.IsWhole := arr_whole1
  have e0 : ((cfgL.win 0).arr.view.loc (c.tc : Thread nD τ) ↦[(cfgL.win 0).arr.view.set]{(dat1 V c).share 0} F 0 : sProp 𝕄)
      = ((c.tc : Thread nD τ).loc main_v2 ↦{fullShare.left} W main_v2) := by
    rw [(harr 0).set_eq_univ, share1_0, hF 0]
  have e1 : ((cfgL.win 1).arr.view.loc (c.tc : Thread nD τ) ↦[(cfgL.win 1).arr.view.set]{(dat1 V c).share 1} F 1 : sProp 𝕄)
      = ((c.tc : Thread nD τ).loc main_v2 ↦{fullShare.right.left} W main_v2) := by
    rw [(harr 1).set_eq_univ, share1_1, hF 1]
  have e2 : ((cfgL.win 2).arr.view.loc (c.tc : Thread nD τ) ↦[(cfgL.win 2).arr.view.set]{(dat1 V c).share 2} F 2 : sProp 𝕄)
      = ((c.tc : Thread nD τ).loc main_v2 ↦{fullShare.right.right} W main_v2) := by
    rw [(harr 2).set_eq_univ, share1_2, hF 2]
  have e3 : ((cfgL.win 3).arr.view.loc (c.tc : Thread nD τ) ↦[(cfgL.win 3).arr.view.set]{(dat1 V c).share 3} F 3 : sProp 𝕄)
      = ((c.tc : Thread nD τ).loc main_arg4 ↦{fullShare} W main_arg4) := by
    rw [(harr 3).set_eq_univ, share1_3, hF 3]
  have e4 : ((cfgL.win 4).arr.view.loc (c.tc : Thread nD τ) ↦[(cfgL.win 4).arr.view.set]{(dat1 V c).share 4} F 4 : sProp 𝕄)
      = ((c.tc : Thread nD τ).loc main_v3 ↦{fullShare} W main_v3) := by
    rw [(harr 4).set_eq_univ, share1_4, hF 4]
  have hL : (Pipeline.arrBufs spec1 c W : sProp 𝕄)
      = iprop(((c.tc : Thread nD τ).loc main_v2 ↦{fullShare} W main_v2) ∗ ((c.tc : Thread nD τ).loc main_arg4 ↦{fullShare} W main_arg4)
          ∗ ((c.tc : Thread nD τ).loc main_v3 ↦{fullShare} W main_v3)) := by
    unfold Pipeline.arrBufs
    rw [arrImg1, bigSep_insert (by decide), bigSep_insert (by decide), bigSep_singleton]
    rfl
  have hR : ((dat1 V c).arrays F : sProp 𝕄)
      = iprop(((c.tc : Thread nD τ).loc main_v2 ↦{fullShare.left} W main_v2) ∗ ((c.tc : Thread nD τ).loc main_v2 ↦{fullShare.right.left} W main_v2)
          ∗ ((c.tc : Thread nD τ).loc main_v2 ↦{fullShare.right.right} W main_v2) ∗ ((c.tc : Thread nD τ).loc main_arg4 ↦{fullShare} W main_arg4)
          ∗ ((c.tc : Thread nD τ).loc main_v3 ↦{fullShare} W main_v3)) := by
    unfold Pipeline.Dat.arrays
    rw [bigSep_W1, e0, e1, e2, e3, e4]
  rw [hL, hR]
  constructor
  · iintro ⟨H2, H4, H3⟩
    ihave Ha := (pointsTo_share (PosShare.mem_left_op_right fullShare)).1 $$ H2
    icases Ha with ⟨Hl, Hr⟩
    ihave Hb := (pointsTo_share (PosShare.mem_left_op_right fullShare.right)).1 $$ Hr
    icases Hb with ⟨Hrl, Hrr⟩
    isplitl [Hl]; · iexact Hl
    isplitl [Hrl]; · iexact Hrl
    isplitl [Hrr]; · iexact Hrr
    isplitl [H4]; · iexact H4
    iexact H3
  · iintro ⟨Hl, Hrl, Hrr, H4, H3⟩
    ihave Hr := (pointsTo_share (PosShare.mem_left_op_right fullShare.right)).2 $$ [Hrl Hrr]
    · isplitl [Hrl]; · iexact Hrl
      iexact Hrr
    ihave H2 := (pointsTo_share (PosShare.mem_left_op_right fullShare)).2 $$ [Hl Hr]
    · isplitl [Hl]; · iexact Hl
      iexact Hr
    isplitl [H2]; · iexact H2
    isplitl [H4]; · iexact H4
    iexact H3

/-- Every unscoped buffer of a core at one valuation: the three buffers behind the second region's windows, its two
    tables, and the rest. -/
theorem held1_eq (c : Dev nD) (W : Valuation τ sig (Elt FI)) :
    (StableHlo.held (c : Thread nD τ) (Pipeline.ucRefs τ sig) W : sProp 𝕄)
      = iprop(Pipeline.arrBufs spec1 c (fun b => W b) ∗ Pipeline.prefHeld pre1 c (fun _ => fullShare) (fun k => W (pre1.ref k))
          ∗ Pipeline.unscopedRestP pre1 spec1 c (fun b => W b)) := by
  rw [← Pipeline.unscopedBufs_held (Ix := Unit) (Name := ℕ) (U := UR sig nD τ) (Lvl := ℕ) c W]
  refine (Pipeline.unscopedBufs_split₀ (Pipeline.pin (pcfgs (F := FI)) admR) 1 (winFacts₀1).arr_unscoped c (fun b => W b)).trans ?_
  show (iprop(Pipeline.arrBufs spec1 c (fun b => W b) ∗ Pipeline.unscopedRest spec1 c (fun b => W b)) : sProp 𝕄) = _
  rw [Pipeline.unscopedRest_split preFacts1 c (fun b => W b)]

/-- The second region's arrays after it, read off the contents after it: the inputs as entered, the result at what
    the write-backs leave. -/
theorem hF1 (c : Dev nD) (w : Fin cfgL.W) :
    (dat1 (Vin1 m) c).arrAt w cfgL.N = (fun b : Ref sig .tc => V4 m (outsR m) c b) (Pipeline.arrRef spec1 w) := by
  match w with
  | ⟨0, _⟩ => exact (((dat1 (Vin1 m) c).arrAt_in 0 rfl _).trans (A_eq1 (Vin1 m) c 0)).trans (V4_of m (outsR m) c main_v2 (by decide)).symm
  | ⟨1, _⟩ => exact (((dat1 (Vin1 m) c).arrAt_in 1 rfl _).trans (A_eq1 (Vin1 m) c 1)).trans (V4_of m (outsR m) c main_v2 (by decide)).symm
  | ⟨2, _⟩ => exact (((dat1 (Vin1 m) c).arrAt_in 2 rfl _).trans (A_eq1 (Vin1 m) c 2)).trans (V4_of m (outsR m) c main_v2 (by decide)).symm
  | ⟨3, _⟩ => exact (((dat1 (Vin1 m) c).arrAt_in 3 rfl _).trans (A_eq1 (Vin1 m) c 3)).trans (V4_of m (outsR m) c main_arg4 (by decide)).symm
  | ⟨4, _⟩ =>
    show _ = V4 m (outsR m) c main_v3
    rw [V4_main_v3]
    exact (outsR_4 m c).symm

/-- The tables are as the second region found them. -/
theorem tbl_eq4 (c : Dev nD) : (fun k : Fin pre1.K => V4 m (outsR m) c (pre1.ref k)) = tblL := funext fun k => by
  match k with
  | ⟨0, _⟩ => exact (V4_of m (outsR m) c main_c (by decide)).trans (tbl_eq m c 0)
  | ⟨1, _⟩ => exact (V4_of m (outsR m) c main_c_0 (by decide)).trans (tbl_eq m c 1)

/-- Every buffer that is neither a window's array nor a table is as the second region found it. -/
theorem restP_eq4 (c : Dev nD) :
    (Pipeline.unscopedRestP pre1 spec1 c (fun b : Ref sig .tc => V4 m (outsR m) c b) : sProp 𝕄) = Pipeline.unscopedRestP pre1 spec1 c (Vin1 m c) := by
  unfold Pipeline.unscopedRestP
  exact bigSep_congr fun b hb => by
    beta_reduce
    rw [V4_of m (outsR m) c b fun h => (Finset.mem_sdiff.mp (Finset.mem_sdiff.mp hb).1).2
      (Finset.mem_image.mpr ⟨4, Finset.mem_univ _, (List.mem_singleton.mp h).symm⟩)]
    rfl

set_option backward.isDefEq.respectTransparency.types false in
/-- THE SECOND REGION over the thread state: entered from every unscoped buffer at the contents after the second host
    stretch, left at those contents with the result array at what its write-backs leave. Its three buffers are dealt to
    the five windows and put back; its two tables, held whole at the literal schedule, go into the invariant and come
    back; the generator register likewise; nothing owed; no semaphore of the kernel's own. -/
def reg1 : Pipeline.RegionSeg (pcfgs (F := FI)) admR (pdatsR m) () defs₀ 𝒱R LR lvR 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero (pcfgs (F := FI)) admR (pdatsR m) () LR lvR 1 fun c t => owed1 (Vin1 m) c t
  pre c := iprop(StableHlo.held (c : Thread nD τ) (Pipeline.ucRefs τ sig) (V3 m (outs2 m) c) ∗ RR c)
  post c := iprop(StableHlo.held (c : Thread nD τ) (Pipeline.ucRefs τ sig) (V4 m (outsR m) c) ∗ RR c)
  X c := iprop(∃ r, prngReg c r)
  Y c := iprop((∃ r, prngReg c r) ∗ tbPt1 (F := FI) c tbM1_0 (tblL 0) ∗ tbPt1 (F := FI) c tbM1_1 (tblL 1))
  Z c := Pipeline.unscopedRestP (Ix := Unit) (Name := ℕ) (U := UR sig nD τ) (Lvl := ℕ) pre1 spec1 c (Vin1 m c)
  hentry c := by
    rw [Pipeline.ownSems0_none]
    iintro ⟨⟨Hh, Hp, HO⟩, -, -⟩
    ihave H := (Entails.of_eq (held1_eq c (V3 m (outs2 m) c))) $$ Hh
    icases H with ⟨Ha, Ht, Hz⟩
    imodintro
    isplitl [Ha]
    · iapply (arrays1_iff (Vin1 m) c (Vin1 m c) (fun w => (dat1 (Vin1 m) c).arrAt w 0) (fun w => A_eq1 (Vin1 m) c w)).1
      iexact Ha
    isplitl [Ht]
    · iapply (Entails.of_eq (show (Pipeline.prefHeld pre1 c (fun _ => fullShare) (fun k => V3 m (outs2 m) c (pre1.ref k)) : sProp 𝕄)
          = Pipeline.prefHeld pre1 c (fun _ => fullShare) tblL from by rw [show (fun k : Fin pre1.K => V3 m (outs2 m) c (pre1.ref k)) = tblL from funext (tbl_eq m c)]))
      iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    show (iprop((∃ r, prngReg c r) ∗ Pipeline.prefHeld pre1 c (fun _ => fullShare) tblL ∗ Pipeline.scopedRest spec1 c) : sProp 𝕄) ⊢ (dat1 (Vin1 m) c).Φ 0
    rw [Phi1_zero, prefHeld1_eq]; unfold Pipeline.ΦA
    iintro ⟨Hp, ⟨T0, T1⟩, Hr⟩
    isplitl [Hr Hp]
    · isplitl [Hr]; · iexact Hr
      iexact Hp
    isplitl [T0]; · iexact T0
    iexact T1
  hout c := by
    rw [Pipeline.ownSems0_none]
    refine (show (pdatsR m 1 c).Φ (Fin.last _) ⊢ _ from Phi1_out (Vin1 m) c).trans ?_
    unfold Pipeline.ΦA
    iintro ⟨⟨Hr, Hp⟩, T0, T1⟩
    isplitl [Hp T0 T1]
    · isplitl [Hp]; · iexact Hp
      isplitl [T0]; · iexact T0
      iexact T1
    isplitr; · iempintro
    iexact Hr
  hexit c := by
    iintro ⟨Ha, HO, ⟨Hp, T0, T1⟩, Hz⟩
    imodintro
    isplitl [Ha T0 T1 Hz]
    · iapply (Entails.of_eq (held1_eq c (V4 m (outsR m) c)).symm)
      isplitl [Ha]
      · iapply (arrays1_iff (Vin1 m) c (fun b : Ref sig .tc => V4 m (outsR m) c b) (fun w => (dat1 (Vin1 m) c).arrAt w cfgL.N) (hF1 m c)).2
        iexact Ha
      isplitl [T0 T1]
      · iapply (Entails.of_eq (show (iprop(tbPt1 (F := FI) c tbM1_0 (tblL 0) ∗ tbPt1 (F := FI) c tbM1_1 (tblL 1)) : sProp 𝕄)
            = Pipeline.prefHeld pre1 c (fun _ => fullShare) (fun k => V4 m (outsR m) c (pre1.ref k)) from by rw [tbl_eq4 m c, prefHeld1_eq]))
        isplitl [T0]; · iexact T0
        iexact T1
      iapply (Entails.of_eq (restP_eq4 m c).symm)
      iexact Hz
    isplitl [Hp]; · iexact Hp
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main terminates, and every final
    memory holds the result array at what the second region's write-backs leave — its proof data entered at the
    contents the first region and the host stretches leave — and every argument as launched. -/
theorem run_val :
    θ_run (defs (F := FI)) (onTc (τ := τ) (main (F := FI))) ⟨m, fun _ => 0, ρ⟩ (fun r => ∀ c : Dev nD,
      r.2.mem ((c.tc : Thread nD τ).loc main_v3) = (dat1 (Vin1 m) c).arrAt 4 cfgL.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h c).1.trans (outsR_4 m c), (h c).2⟩)
    (frame_cond_val (F := FI) m (outsR m) emb₁ () 𝒱R LR lvR (fun _ _ => rfl) ρ admR (pdatsR m) 0 (fun _ => iprop(emp))
      (initOf (Pipeline.cells (Pipeline.pin (pcfgs (F := FI)) admR) (cellOf_inj admR)) (Pipeline.launchToks (Pipeline.pin (pcfgs (F := FI)) admR) (cellOf_inj admR)))
      (by
        iintro Hu; imodintro
        isplitl [Hu]
        · iapply (show (ownU (initOf (Pipeline.cells (Pipeline.pin (pcfgs (F := FI)) admR) (cellOf_inj admR)) (Pipeline.launchToks (Pipeline.pin (pcfgs (F := FI)) admR) (cellOf_inj admR))) : sProp 𝕄)
              ⊢ BI.own (emb₁ (initOf (Pipeline.cells (Pipeline.pin (pcfgs (F := FI)) admR) (cellOf_inj admR)) (Pipeline.launchToks (Pipeline.pin (pcfgs (F := FI)) admR) (cellOf_inj admR)))) from .rfl)
          iexact Hu
        iapply (show (BI.emp : sProp 𝕄) ⊢ bigSep Finset.univ (fun _ : Dev nD => (BI.emp : sProp 𝕄)) from by rw [BI.bigSep_emp_const])
        iempintro)
      (fun _ c => RR c)
      (Pipeline.initEach LR lvR fun c => by
        iintro ⟨⟨-, HO, -, Hp, -⟩, -⟩
        imodintro
        isplitl [Hp]; · iexists _; iexact Hp
        iexists ∅; iexact HO)
      (fun c => by iintro ⟨-, HO⟩; iexact HO)
      (reg0 m) (fun c => .rfl) (fun c => .rfl)
      (reg1 m) (fun c => .rfl) (fun c => .rfl))

end Run

end Cert.KernelIdeal.Hand

end
-- ==== Proof.Spec.lean ====
/-
  Causal multi-head self-attention over the extended reals, as one function of the five argument arrays.

  For a batch entry b, a query position q and an output feature e the result is
      out[b,q,e] = Σ_j ctx[b,q,j] · Wo[e,j],
  where the context row lays the 16 heads side by side, 64 lanes each (j = 64·h + d):
      ctx[b,q,64h+d] = Σ_k softmax_k(score[b,h,q,·])(k) · V[b,k,64h+d],
      score[b,h,q,k] = (Σ_d Q[b,q,64h+d] · K[b,k,64h+d]) / 8   for k ≤ q,   −∞ for k > q,
  Q, K, V the three projections x·Wᵀ.  The softmax is taken as exp(s − max) / Σ exp(s − max).

  The second half states the same context row as a running computation over the key axis cut into tiles of 512
  positions: a running maximum, a running denominator and a running weighted sum, each rescaled by
  exp(old max − new max) when a tile raises the maximum; dividing the running sum by the running denominator after
  the tile that holds the diagonal gives the context row.
-/
import Idealize.ShloMosaic.PureOps.Ideal
import Idealize.ShloMosaic.Lib.ValueIdx

noncomputable section

open scoped BigOperators

namespace Attn

open Idealize.ShloMosaic

/-- An activation array [4, 2048, 1024] by coordinates. -/
abbrev Arr3 : Type := Fin 4 → Fin 2048 → Fin 1024 → EReal
/-- A weight matrix [1024, 1024] (row = output feature, column = input feature). -/
abbrev Mat : Type := Fin 1024 → Fin 1024 → EReal

/-- The linear layer y = x · Wᵀ: y[b,s,e] = Σ_d x[b,s,d] · W[e,d]. -/
def proj (X : Arr3) (W : Mat) : Arr3 := fun b s e => ∑ d : Fin 1024, X b s d * W e d

/-- Lane d of head h among the 1024 features. -/
def hcol (h : Fin 16) (d : Fin 64) : Fin 1024 := ⟨h.val * 64 + d.val, by have := h.isLt; have := d.isLt; omega⟩
/-- The head a feature belongs to. -/
def headOf (j : Fin 1024) : Fin 16 := ⟨j.val / 64, by have := j.isLt; omega⟩

/-- The unscaled product of query row q and key row k within head h. -/
def qk (Q K : Arr3) (b : Fin 4) (h : Fin 16) (q k : Fin 2048) : EReal :=
  ∑ d : Fin 64, Q b q (hcol h d) * K b k (hcol h d)

/-- The causal score: the product divided by 8 on and below the diagonal, −∞ above it. -/
def score (Q K : Arr3) (b : Fin 4) (h : Fin 16) (q k : Fin 2048) : EReal :=
  if k.val ≤ q.val then qk Q K b h q k * (((1 / 8 : ℝ) : ℝ) : EReal) else ⊥

/-- The row maximum of the scores (the bottom element −∞ is the empty maximum). -/
def rowMax (Q K : Arr3) (b : Fin 4) (h : Fin 16) (q : Fin 2048) : EReal := Finset.univ.sup (score Q K b h q)
/-- The unnormalised softmax weight exp(score − row maximum). -/
def wt (Q K : Arr3) (b : Fin 4) (h : Fin 16) (q k : Fin 2048) : EReal := Ideal.exp (score Q K b h q k - rowMax Q K b h q)
/-- The softmax denominator. -/
def den (Q K : Arr3) (b : Fin 4) (h : Fin 16) (q : Fin 2048) : EReal := ∑ k : Fin 2048, wt Q K b h q k

/-- The attention context, heads side by side: ctx[b,q,j] = Σ_k (wt / den)[b, head j, q, k] · V[b,k,j]. -/
def ctx (Q K V : Arr3) : Arr3 := fun b q j =>
  ∑ k : Fin 2048, Ideal.div (wt Q K b (headOf j) q k) (den Q K b (headOf j) q) * V b k j

/-- The whole layer. -/
def out (X : Arr3) (Wq Wk Wv Wo : Mat) : Arr3 := proj (ctx (proj X Wq) (proj X Wk) (proj X Wv)) Wo

/-! ## The same context row, computed tile by tile along the key axis -/

/-- Key position c of tile n. -/
def kpos (n : Fin 4) (c : Fin 512) : Fin 2048 := ⟨n.val * 512 + c.val, by have := n.isLt; have := c.isLt; omega⟩
/-- Row r of query tile n. -/
abbrev qpos (n : Fin 4) (r : Fin 512) : Fin 2048 := kpos n r

/-- The score as the tiled computation forms it: the query row is scaled by 1/8 BEFORE the product. -/
def tscore (Q K : Arr3) (b : Fin 4) (h : Fin 16) (q k : Fin 2048) : EReal :=
  if k.val ≤ q.val then (∑ d : Fin 64, (Q b q (hcol h d) * (((1 / 8 : ℝ) : ℝ) : EReal)) * K b k (hcol h d)) else ⊥

/-- One tile's update of the running maximum. -/
def stepM (mprev : EReal) (s : Fin 512 → EReal) : EReal := max mprev (Finset.univ.sup s)
/-- The rescaling factor exp(old max − new max). -/
def stepA (mprev : EReal) (s : Fin 512 → EReal) : EReal := Ideal.exp (mprev - stepM mprev s)
/-- One tile's update of the running denominator. -/
def stepL (mprev lprev : EReal) (s : Fin 512 → EReal) : EReal :=
  stepA mprev s * lprev + ∑ c : Fin 512, Ideal.exp (s c - stepM mprev s)
/-- One tile's update of the running weighted sum (one lane). -/
def stepAcc (mprev accprev : EReal) (s v : Fin 512 → EReal) : EReal :=
  stepA mprev s * accprev + ∑ c : Fin 512, Ideal.exp (s c - stepM mprev s) * v c

/-- The running maximum, denominator and weighted sum of (b, head h, query position q, feature j of head h) after the
    first n key tiles, started from (−∞, 0, 0). -/
def onl (Q K V : Arr3) (b : Fin 4) (h : Fin 16) (q : Fin 2048) (j : Fin 1024) : ℕ → EReal × EReal × EReal
  | 0 => (⊥, 0, 0)
  | n + 1 =>
    let p := onl Q K V b h q j n
    if hn : n < 4 then
      let s : Fin 512 → EReal := fun c => tscore Q K b h q (kpos ⟨n, hn⟩ c)
      let v : Fin 512 → EReal := fun c => V b (kpos ⟨n, hn⟩ c) j
      (stepM p.1 s, stepL p.1 p.2.1 s, stepAcc p.1 p.2.2 s v)
    else p

/-- Every entry of an array is a real number. -/
def Fin3 (A : Arr3) : Prop := ∀ b s e, ∃ r : ℝ, A b s e = (r : EReal)
/-- Every entry of a matrix is a real number. -/
def Fin2 (W : Mat) : Prop := ∀ e d, ∃ r : ℝ, W e d = (r : EReal)

/-! ## Arrays as the programs hold them: functions of an index of the literal shape -/

/-- An activation buffer read by coordinates. -/
def arr3 (x : (⟨3, ![4, 2048, 1024]⟩ : Shape).Idx → EReal) : Arr3 := fun b s d => x (ValueIdx.ix3 b s d)
/-- A weight buffer read by coordinates. -/
def mat (w : (⟨2, ![1024, 1024]⟩ : Shape).Idx → EReal) : Mat := fun e d => w (ValueIdx.ix2 e d)
/-- An activation array as a buffer's contents. -/
def toIdx3 (A : Arr3) : (⟨3, ![4, 2048, 1024]⟩ : Shape).Idx → EReal := fun i => A (i 0) (i 1) (i 2)

theorem toIdx3_ix3 (A : Arr3) (b : Fin 4) (s : Fin 2048) (e : Fin 1024) : toIdx3 A (ValueIdx.ix3 b s e) = A b s e := rfl

end Attn

end
-- ==== Proof.Online.lean ====
/-
  The tiled (running-maximum) computation of a softmax-weighted sum equals the plain one: the algebra behind
  `Attn.onl_ctx`.
-/
import proofs.«405825_j40080634807018_3_alg».proof.Proof.Spec

noncomputable section

open scoped BigOperators

namespace Attn

open Idealize.ShloMosaic

/-! ## Sums of real numbers inside the extended reals -/

/-- The coercion ℝ → EReal commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of products of real entries is the real sum of products. -/
theorem sum_coe_mul {ι : Type*} [Fintype ι] {f g : ι → EReal} {a b : ι → ℝ}
    (hf : ∀ i, f i = (a i : EReal)) (hg : ∀ i, g i = (b i : EReal)) :
    ∑ i, f i * g i = ((∑ i, a i * b i : ℝ) : EReal) := by
  rw [coe_sum]
  refine Finset.sum_congr rfl fun i _ => ?_
  rw [hf, hg, EReal.coe_mul]

/-- A projection of real arrays is real. -/
theorem fin3_proj {X : Arr3} {W : Mat} (hX : Fin3 X) (hW : Fin2 W) : Fin3 (proj X W) := by
  intro b s e
  choose x hx using hX
  choose w hw using hW
  exact ⟨∑ d, x b s d * w e d, sum_coe_mul (fun d => hx b s d) (fun d => hw e d)⟩

/-! ## The exponential weight exp(x − M) as a real number, for x real or −∞ -/

/-- exp(x − M) as a real number; it is 0 at x = −∞. -/
def E (x : EReal) (M : ℝ) : ℝ := (Ideal.exp (x - (M : EReal))).toReal

theorem E_bot (M : ℝ) : E ⊥ M = 0 := by
  rw [E, EReal.bot_sub, Ideal.exp_bot, EReal.toReal_zero]

theorem E_coe (r M : ℝ) : E (r : EReal) M = Real.exp (r - M) := by
  rw [E, ← EReal.coe_sub, Ideal.exp_coe, EReal.toReal_coe]

/-- Below +∞ the extended exponential of x − M is the coercion of the real weight. -/
theorem exp_sub_coe {x : EReal} (hx : x ≠ ⊤) (M : ℝ) :
    Ideal.exp (x - (M : EReal)) = ((E x M : ℝ) : EReal) := by
  induction x using EReal.rec with
  | bot => rw [E_bot, EReal.bot_sub, Ideal.exp_bot, EReal.coe_zero]
  | coe r => rw [E_coe, ← EReal.coe_sub, Ideal.exp_coe]
  | top => exact absurd rfl hx

theorem E_nonneg {x : EReal} (hx : x ≠ ⊤) (M : ℝ) : 0 ≤ E x M := by
  induction x using EReal.rec with
  | bot => rw [E_bot]
  | coe r => rw [E_coe]; exact (Real.exp_pos _).le
  | top => exact absurd rfl hx

/-- Changing the reference point from M to M' multiplies every weight by exp(M − M'). -/
theorem E_shift {x : EReal} (hx : x ≠ ⊤) (M M' : ℝ) : E x M' = Real.exp (M - M') * E x M := by
  induction x using EReal.rec with
  | bot => rw [E_bot, E_bot, mul_zero]
  | coe r => rw [E_coe, E_coe, ← Real.exp_add]; congr 1; ring
  | top => exact absurd rfl hx

/-! ## Finite suprema of families with values in ℝ ∪ {−∞} -/

theorem sup_ne_top {ι : Type*} (t : Finset ι) {f : ι → EReal} (hf : ∀ i, f i ≠ ⊤) : t.sup f ≠ ⊤ :=
  ne_of_lt ((Finset.sup_lt_iff bot_lt_top).2 fun i _ => lt_top_iff_ne_top.2 (hf i))

theorem sup_ne_bot {ι : Type*} {t : Finset ι} {f : ι → EReal} {i : ι} (hi : i ∈ t) (h : f i ≠ ⊥) :
    t.sup f ≠ ⊥ := by
  intro h'
  have := Finset.le_sup (f := f) hi
  rw [h'] at this
  exact h (le_bot_iff.1 this)

/-- A tile's new running maximum is real as soon as the old one or some entry of the tile is. -/
theorem stepM_real {m : EReal} {s : Fin 512 → EReal} (hm : m ≠ ⊤) (hs : ∀ c, s c ≠ ⊤)
    (h : m ≠ ⊥ ∨ ∃ c, s c ≠ ⊥) : ∃ M' : ℝ, stepM m s = (M' : EReal) := by
  have h1 : stepM m s ≠ ⊤ :=
    ne_of_lt (max_lt (lt_top_iff_ne_top.2 hm) (lt_top_iff_ne_top.2 (sup_ne_top _ hs)))
  have h2 : stepM m s ≠ ⊥ := by
    intro h'
    rcases h with h | ⟨c, hc⟩
    · have := le_max_left m (Finset.univ.sup s)
      rw [show max m (Finset.univ.sup s) = ⊥ from h'] at this
      exact h (le_bot_iff.1 this)
    · have := le_max_right m (Finset.univ.sup s)
      rw [show max m (Finset.univ.sup s) = ⊥ from h'] at this
      exact sup_ne_bot (Finset.mem_univ c) hc (le_bot_iff.1 this)
  exact ⟨_, (EReal.coe_toReal h1 h2).symm⟩

/-! ## One tile's update, in real numbers -/

theorem stepA_coe {m : EReal} {s : Fin 512 → EReal} {M' : ℝ} (hm : m ≠ ⊤)
    (hM' : stepM m s = (M' : EReal)) : stepA m s = ((E m M' : ℝ) : EReal) := by
  rw [stepA, hM', exp_sub_coe hm]

/-- The update of a weighted running sum whose old value and weights are real. -/
theorem stepAcc_coe {m : EReal} {s v : Fin 512 → EReal} {M' : ℝ} (hm : m ≠ ⊤) (hs : ∀ c, s c ≠ ⊤)
    (hM' : stepM m s = (M' : EReal)) (A : ℝ) {w : Fin 512 → ℝ} (hv : ∀ c, v c = (w c : EReal)) :
    stepAcc m (A : EReal) s v = ((E m M' * A + ∑ c, E (s c) M' * w c : ℝ) : EReal) := by
  rw [stepAcc, stepA_coe hm hM', hM', EReal.coe_add, EReal.coe_mul]
  congr 1
  exact sum_coe_mul (fun c => exp_sub_coe (hs c) M') hv

/-- The denominator's update is the weighted update with all weights 1. -/
theorem stepL_eq_stepAcc (m l : EReal) (s : Fin 512 → EReal) :
    stepL m l s = stepAcc m l s (fun _ => ((1 : ℝ) : EReal)) := by
  rw [stepL, stepAcc]
  congr 1
  exact Finset.sum_congr rfl fun c _ => by rw [EReal.coe_one, mul_one]

/-! ## The running computation over an abstract score row and value column -/

/-- The running state over a score row s and a value column v of 2048 key positions. -/
def onlG (s v : Fin 2048 → EReal) : ℕ → EReal × EReal × EReal
  | 0 => (⊥, 0, 0)
  | n + 1 =>
    if hn : n < 4 then
      (stepM (onlG s v n).1 (fun c => s (kpos ⟨n, hn⟩ c)),
        stepL (onlG s v n).1 (onlG s v n).2.1 (fun c => s (kpos ⟨n, hn⟩ c)),
        stepAcc (onlG s v n).1 (onlG s v n).2.2 (fun c => s (kpos ⟨n, hn⟩ c)) (fun c => v (kpos ⟨n, hn⟩ c)))
    else onlG s v n

theorem onl_eq_onlG (Q K V : Arr3) (b : Fin 4) (h : Fin 16) (q : Fin 2048) (j : Fin 1024) (n : ℕ) :
    onl Q K V b h q j n = onlG (tscore Q K b h q) (fun k => V b k j) n := by
  induction n with
  | zero => rfl
  | succ n ih => simp only [onl, onlG, ih]

theorem onlG_succ (s v : Fin 2048 → EReal) {n : ℕ} (hn : n < 4) :
    onlG s v (n + 1) =
      (stepM (onlG s v n).1 (fun c => s (kpos ⟨n, hn⟩ c)),
        stepL (onlG s v n).1 (onlG s v n).2.1 (fun c => s (kpos ⟨n, hn⟩ c)),
        stepAcc (onlG s v n).1 (onlG s v n).2.2 (fun c => s (kpos ⟨n, hn⟩ c)) (fun c => v (kpos ⟨n, hn⟩ c))) := by
  rw [onlG, dif_pos hn]

/-! ## Partial sums over the first n tiles -/

/-- One tile's weighted sum of the real weights exp(s − M). -/
def tileA (s : Fin 2048 → EReal) (w : Fin 2048 → ℝ) (M : ℝ) (i : Fin 4) : ℝ :=
  ∑ c : Fin 512, E (s (kpos i c)) M * w (kpos i c)

/-- The weighted sum over the first n tiles. -/
def partA (s : Fin 2048 → EReal) (w : Fin 2048 → ℝ) (M : ℝ) (n : ℕ) : ℝ :=
  ∑ i : Fin 4, if i.val < n then tileA s w M i else 0

theorem partA_zero (s : Fin 2048 → EReal) (w : Fin 2048 → ℝ) (M : ℝ) : partA s w M 0 = 0 := by
  simp [partA]

theorem partA_succ (s : Fin 2048 → EReal) (w : Fin 2048 → ℝ) (M : ℝ) {n : ℕ} (hn : n < 4) :
    partA s w M (n + 1) = partA s w M n + tileA s w M ⟨n, hn⟩ := by
  have h : ∀ i : Fin 4, (if i.val < n + 1 then tileA s w M i else 0)
      = (if i.val < n then tileA s w M i else 0) + (if i = ⟨n, hn⟩ then tileA s w M i else 0) := by
    intro i
    by_cases h1 : i.val < n
    · have h2 : i ≠ ⟨n, hn⟩ := fun e => by rw [e] at h1; exact lt_irrefl _ h1
      rw [if_pos h1, if_pos (Nat.lt_succ_of_lt h1), if_neg h2, add_zero]
    · by_cases h2 : i = ⟨n, hn⟩
      · have h3 : i.val < n + 1 := by rw [h2]; exact Nat.lt_succ_self n
        rw [if_neg h1, if_pos h3, if_pos h2, zero_add]
      · have h3 : ¬ i.val < n + 1 := fun h3 => h2 (Fin.ext (by show i.val = n; omega))
        rw [if_neg h1, if_neg h3, if_neg h2, add_zero]
  rw [partA, partA, Finset.sum_congr rfl (fun i _ => h i), Finset.sum_add_distrib, Finset.sum_ite_eq',
    if_pos (Finset.mem_univ _)]

/-- Moving the reference point rescales a partial sum. -/
theorem partA_shift {s : Fin 2048 → EReal} (hs : ∀ k, s k ≠ ⊤) (w : Fin 2048 → ℝ) (M M' : ℝ) (n : ℕ) :
    partA s w M' n = Real.exp (M - M') * partA s w M n := by
  rw [partA, partA, Finset.mul_sum]
  refine Finset.sum_congr rfl fun i _ => ?_
  by_cases h : i.val < n
  · rw [if_pos h, if_pos h, tileA, tileA, Finset.mul_sum]
    refine Finset.sum_congr rfl fun c _ => ?_
    rw [E_shift (hs _) M M', mul_assoc]
  · rw [if_neg h, if_neg h, mul_zero]

/-! ## The state after n + 1 tiles -/

/-- After n + 1 tiles (n < 4) of a row that has no +∞ and whose first entry is real, the running maximum is a
    real number M, and the running denominator and weighted sum are the partial sums of exp(s − M) and of
    exp(s − M) · w over the first n + 1 tiles. -/
theorem onlG_inv {s : Fin 2048 → EReal} (hs : ∀ k, s k ≠ ⊤) (h0 : s 0 ≠ ⊥) {v : Fin 2048 → EReal}
    {w : Fin 2048 → ℝ} (hv : ∀ k, v k = (w k : EReal)) (n : ℕ) (hn : n < 4) :
    ∃ M : ℝ, (onlG s v (n + 1)).1 = (M : EReal)
      ∧ (onlG s v (n + 1)).2.1 = ((partA s (fun _ => 1) M (n + 1) : ℝ) : EReal)
      ∧ (onlG s v (n + 1)).2.2 = ((partA s w M (n + 1) : ℝ) : EReal) := by
  induction n with
  | zero =>
    have hk : kpos ⟨0, hn⟩ 0 = 0 := rfl
    obtain ⟨M', hM'⟩ := stepM_real (m := ⊥) (s := fun c => s (kpos ⟨0, hn⟩ c)) bot_ne_top (fun c => hs _)
      (Or.inr ⟨0, by show s (kpos ⟨0, hn⟩ 0) ≠ ⊥; rw [hk]; exact h0⟩)
    refine ⟨M', ?_, ?_, ?_⟩
    · rw [onlG_succ s v hn]; exact hM'
    · rw [onlG_succ s v hn]
      show stepL ⊥ 0 _ = _
      rw [stepL_eq_stepAcc, ← EReal.coe_zero, stepAcc_coe bot_ne_top (fun c => hs _) hM' 0 (fun c => rfl),
        partA_succ _ _ _ hn, partA_zero, E_bot, mul_zero, tileA]
    · rw [onlG_succ s v hn]
      show stepAcc ⊥ 0 _ _ = _
      rw [← EReal.coe_zero, stepAcc_coe bot_ne_top (fun c => hs _) hM' 0 (fun c => hv _),
        partA_succ _ _ _ hn, partA_zero, E_bot, mul_zero, tileA]
  | succ n ih =>
    obtain ⟨M, hM, hL, hA⟩ := ih (Nat.lt_of_succ_lt hn)
    obtain ⟨M', hM'⟩ := stepM_real (m := (M : EReal)) (s := fun c => s (kpos ⟨n + 1, hn⟩ c))
      (EReal.coe_ne_top M) (fun c => hs _) (Or.inl (EReal.coe_ne_bot M))
    refine ⟨M', ?_, ?_, ?_⟩
    · rw [onlG_succ s v hn, hM]; exact hM'
    · rw [onlG_succ s v hn, hM, hL]
      show stepL _ _ _ = _
      rw [stepL_eq_stepAcc, stepAcc_coe (EReal.coe_ne_top M) (fun c => hs _) hM' _ (fun c => rfl),
        partA_succ _ _ _ hn, partA_shift hs _ M M' (n + 1), E_coe, tileA]
    · rw [onlG_succ s v hn, hM, hA]
      show stepAcc _ _ _ _ = _
      rw [stepAcc_coe (EReal.coe_ne_top M) (fun c => hs _) hM' _ (fun c => hv _),
        partA_succ _ _ _ hn, partA_shift hs _ M M' (n + 1), E_coe, tileA]

/-! ## All key positions as four tiles of 512 -/

theorem sum_tiles (g : Fin 2048 → ℝ) : ∑ i : Fin 4, ∑ c : Fin 512, g (kpos i c) = ∑ k, g k := by
  rw [← Fintype.sum_prod_type' (fun i c => g (kpos i c))]
  refine Fintype.sum_equiv (finProdFinEquiv (m := 4) (n := 512)) _ _ fun p => ?_
  congr 1
  ext
  simp only [kpos, finProdFinEquiv_apply_val]
  ring

/-- When the tiles after qi are wholly masked, the partial sum over tiles 0 … qi is the sum over all key
    positions. -/
theorem partA_full {s : Fin 2048 → EReal} (w : Fin 2048 → ℝ) (M : ℝ) {q : Fin 2048} {qi : Fin 4}
    (hq : q.val < 512 * (qi.val + 1)) (hmask : ∀ k : Fin 2048, ¬ k.val ≤ q.val → s k = ⊥) :
    partA s w M (qi.val + 1) = ∑ k, E (s k) M * w k := by
  rw [← sum_tiles (fun k => E (s k) M * w k), partA]
  refine Finset.sum_congr rfl fun i _ => ?_
  by_cases h : i.val < qi.val + 1
  · rw [if_pos h, tileA]
  · rw [if_neg h]
    symm
    refine Finset.sum_eq_zero fun c _ => ?_
    have hk : s (kpos i c) = ⊥ := hmask _ (by show ¬ (i.val * 512 + c.val ≤ q.val); omega)
    rw [hk, E_bot, zero_mul]

/-! ## The plain softmax-weighted sum, in real numbers -/

/-- The plain softmax-weighted sum over a score row s and a value column v. -/
def ctxG (s v : Fin 2048 → EReal) : EReal :=
  ∑ k, Ideal.div (Ideal.exp (s k - Finset.univ.sup s)) (∑ k', Ideal.exp (s k' - Finset.univ.sup s)) * v k

theorem ctxG_coe {s : Fin 2048 → EReal} (hs : ∀ k, s k ≠ ⊤) {R : ℝ} (hR : Finset.univ.sup s = (R : EReal))
    (hD : ∑ k, E (s k) R ≠ 0) {v : Fin 2048 → EReal} {w : Fin 2048 → ℝ} (hv : ∀ k, v k = (w k : EReal)) :
    ctxG s v = ((∑ k, E (s k) R / (∑ k', E (s k') R) * w k : ℝ) : EReal) := by
  have hden : ∑ k', Ideal.exp (s k' - (R : EReal)) = ((∑ k', E (s k') R : ℝ) : EReal) := by
    rw [coe_sum]; exact Finset.sum_congr rfl fun k _ => exp_sub_coe (hs k) R
  rw [ctxG, hR, hden]
  refine sum_coe_mul (fun k => ?_) hv
  rw [Ideal.div_coe hD, exp_sub_coe (hs k), ← EReal.coe_mul]
  congr 1
  ring

theorem mul_div_one_coe (A : ℝ) {L : ℝ} (hL : L ≠ 0) :
    (A : EReal) * Ideal.div 1 (L : EReal) = ((A * (1 / L) : ℝ) : EReal) := by
  rw [Ideal.div_coe hL, one_mul, EReal.coe_mul]

/-- A common positive factor cancels between a weighted sum and its normaliser. -/
theorem ratio_eq {ι : Type*} [Fintype ι] (a w : ι → ℝ) (c : ℝ) (hc : c ≠ 0) (hD : ∑ k, a k ≠ 0) :
    (∑ k, c * a k * w k) * (1 / ∑ k, c * a k * 1) = ∑ k, a k / (∑ k', a k') * w k := by
  have h1 : ∑ k, c * a k * w k = c * ∑ k, a k * w k := by
    rw [Finset.mul_sum]; exact Finset.sum_congr rfl fun _ _ => mul_assoc _ _ _
  have h2 : ∑ k, c * a k * 1 = c * ∑ k, a k := by
    rw [Finset.mul_sum]; exact Finset.sum_congr rfl fun _ _ => mul_one _
  have h3 : ∑ k, a k / (∑ k', a k') * w k = (∑ k, a k * w k) / ∑ k', a k' := by
    rw [Finset.sum_div]; exact Finset.sum_congr rfl fun _ _ => div_mul_eq_mul_div _ _ _
  rw [h1, h2, h3]
  field_simp

/-- The running computation stopped after the tile that holds the diagonal gives the plain softmax-weighted sum:
    for a row that is real up to position q and −∞ beyond it, and a real value column. -/
theorem onlG_ctxG {s v : Fin 2048 → EReal} {w : Fin 2048 → ℝ} (hv : ∀ k, v k = (w k : EReal))
    {q : Fin 2048} {qi : Fin 4} (hq : q.val < 512 * (qi.val + 1))
    (hvis : ∀ k : Fin 2048, k.val ≤ q.val → ∃ r : ℝ, s k = (r : EReal))
    (hmask : ∀ k : Fin 2048, ¬ k.val ≤ q.val → s k = ⊥) :
    (onlG s v (qi.val + 1)).2.2 * Ideal.div 1 (onlG s v (qi.val + 1)).2.1 = ctxG s v := by
  have hs : ∀ k, s k ≠ ⊤ := fun k => by
    by_cases h : k.val ≤ q.val
    · obtain ⟨r, hr⟩ := hvis k h; rw [hr]; exact EReal.coe_ne_top r
    · rw [hmask k h]; exact bot_ne_top
  obtain ⟨r0, hr0⟩ := hvis 0 (Nat.zero_le _)
  have h0 : s 0 ≠ ⊥ := by rw [hr0]; exact EReal.coe_ne_bot r0
  obtain ⟨M, -, hL, hA⟩ := onlG_inv hs h0 hv qi.val qi.isLt
  obtain ⟨R, hR⟩ : ∃ R : ℝ, Finset.univ.sup s = (R : EReal) :=
    ⟨_, (EReal.coe_toReal (sup_ne_top _ hs) (sup_ne_bot (Finset.mem_univ 0) h0)).symm⟩
  have hpos : 0 < ∑ k, E (s k) R := by
    refine Finset.sum_pos' (fun k _ => E_nonneg (hs k) R) ⟨0, Finset.mem_univ 0, ?_⟩
    rw [hr0, E_coe]; exact Real.exp_pos _
  have hsh : ∀ k, E (s k) M = Real.exp (R - M) * E (s k) R := fun k => E_shift (hs k) R M
  have hLne : (∑ k, Real.exp (R - M) * E (s k) R * (1 : ℝ)) ≠ 0 := by
    have h2 : ∑ k, Real.exp (R - M) * E (s k) R * (1 : ℝ) = Real.exp (R - M) * ∑ k, E (s k) R := by
      rw [Finset.mul_sum]; exact Finset.sum_congr rfl fun _ _ => mul_one _
    rw [h2]; exact mul_ne_zero (Real.exp_pos _).ne' hpos.ne'
  rw [hL, hA, partA_full _ M hq hmask, partA_full _ M hq hmask, ctxG_coe hs hR hpos.ne' hv]
  simp only [hsh]
  rw [mul_div_one_coe _ hLne, ratio_eq _ _ _ (Real.exp_pos _).ne' hpos.ne']

/-! ## The attention scores -/

/-- On and below the diagonal the tiled score of real arrays is a real number. -/
theorem tscore_vis {Q K : Arr3} (hQ : Fin3 Q) (hK : Fin3 K) (b : Fin 4) (h : Fin 16) (q k : Fin 2048)
    (hk : k.val ≤ q.val) : ∃ r : ℝ, tscore Q K b h q k = (r : EReal) := by
  choose a ha using hQ
  choose c hc using hK
  refine ⟨∑ d : Fin 64, a b q (hcol h d) * (1 / 8) * c b k (hcol h d), ?_⟩
  rw [tscore, if_pos hk]
  exact sum_coe_mul (fun d => by rw [ha, ← EReal.coe_mul]) (fun d => hc b k (hcol h d))

/-- Scaling the query row by 1/8 before the product is scaling the product: the two scores agree. -/
theorem score_eq_tscore {Q K : Arr3} (hQ : Fin3 Q) (hK : Fin3 K) (b : Fin 4) (h : Fin 16) (q k : Fin 2048) :
    score Q K b h q k = tscore Q K b h q k := by
  by_cases hk : k.val ≤ q.val
  · choose a ha using hQ
    choose c hc using hK
    rw [score, tscore, if_pos hk, if_pos hk, qk,
      sum_coe_mul (fun d => ha b q (hcol h d)) (fun d => hc b k (hcol h d)), ← EReal.coe_mul,
      sum_coe_mul (a := fun d => a b q (hcol h d) * (1 / 8)) (fun d => by rw [ha, ← EReal.coe_mul])
        (fun d => hc b k (hcol h d))]
    congr 1
    rw [Finset.sum_mul]
    exact Finset.sum_congr rfl fun d _ => by ring
  · rw [score, tscore, if_neg hk, if_neg hk]

theorem ctx_eq_ctxG (Q K V : Arr3) (b : Fin 4) (q : Fin 2048) (j : Fin 1024) :
    ctx Q K V b q j = ctxG (score Q K b (headOf j) q) (fun k => V b k j) := by
  unfold ctx ctxG wt den rowMax
  rfl

/-- THE TILED COMPUTATION IS THE SOFTMAX. For real Q, K, V, a query position in tile-row qi, and any feature j:
    after the tiles 0 … qi the running weighted sum times the reciprocal of the running denominator is the
    context entry. (The tiles after qi lie wholly above the diagonal and are never visited.) -/
theorem onl_ctx {Q K V : Arr3} (hQ : Fin3 Q) (hK : Fin3 K) (hV : Fin3 V) (b : Fin 4) (qi : Fin 4) (r : Fin 512) (j : Fin 1024) :
    (onl Q K V b (headOf j) (qpos qi r) j (qi.val + 1)).2.2
        * Ideal.div 1 (onl Q K V b (headOf j) (qpos qi r) j (qi.val + 1)).2.1
      = ctx Q K V b (qpos qi r) j := by
  have hsc : score Q K b (headOf j) (qpos qi r) = tscore Q K b (headOf j) (qpos qi r) :=
    funext fun k => score_eq_tscore hQ hK b (headOf j) (qpos qi r) k
  rw [onl_eq_onlG, ctx_eq_ctxG, hsc]
  choose vr hvr using hV
  exact onlG_ctxG (w := fun k => vr b k j) (fun k => hvr b k j) (q := qpos qi r) (qi := qi)
    (by show qi.val * 512 + r.val < 512 * (qi.val + 1); have := r.isLt; omega)
    (fun k hk => tscore_vis hQ hK b (headOf j) (qpos qi r) k hk)
    (fun k hk => if_neg hk)

theorem onlG_succ_of_not (s v : Fin 2048 → EReal) {n : ℕ} (hn : ¬ n < 4) : onlG s v (n + 1) = onlG s v n := by
  rw [onlG, dif_neg hn]

/-- The running maximum and denominator never read the value column. -/
theorem onlG_ml (s v v' : Fin 2048 → EReal) (n : ℕ) :
    (onlG s v n).1 = (onlG s v' n).1 ∧ (onlG s v n).2.1 = (onlG s v' n).2.1 := by
  induction n with
  | zero => exact ⟨rfl, rfl⟩
  | succ n ih =>
    by_cases hn : n < 4
    · rw [onlG_succ s v hn, onlG_succ s v' hn]
      exact ⟨by rw [ih.1], by rw [ih.1, ih.2]⟩
    · rw [onlG_succ_of_not s v hn, onlG_succ_of_not s v' hn]
      exact ih

/-- The running maximum and denominator do not depend on the lane: they are per (head, row). -/
theorem onl_ml_lane (Q K V : Arr3) (b : Fin 4) (h : Fin 16) (q : Fin 2048) (j j' : Fin 1024) (n : ℕ) :
    (onl Q K V b h q j n).1 = (onl Q K V b h q j' n).1 ∧ (onl Q K V b h q j n).2.1 = (onl Q K V b h q j' n).2.1 := by
  rw [onl_eq_onlG, onl_eq_onlG]
  exact onlG_ml _ _ _ n

end Attn

end
-- ==== Proof.R0Value.lean ====
/- What the result array of the first region holds when the region ends, at the extended reals: row r of the
   activations times the rows of the three weight matrices laid side by side,
       out[r, j] = Σ_d x[r, d] · W_{j / 1024}[j mod 1024, d].
   The body's payload is read at an index (a concatenation along the columns of three products into zero
   accumulators; the changes of float format are the identity here); each input block is read as rows of its array
   (block t of the activations is rows 256 t … 256 t + 255, the weight blocks are whole); every row of the result lies
   in the block of exactly the point r / 256; hence the array. -/
import proofs.«405825_j40080634807018_3_alg».proof.Proof.R0
import proofs.«405825_j40080634807018_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## One product of the body at an index -/

/-- The left operand's index of the product at output row-coordinate and contraction coordinate: the output's row. -/
theorem lhs_qkv_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
/-- and the contraction coordinate on its second axis. -/
theorem lhs_qkv_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
/-- The right operand's index: the output's column picks the weight matrix's ROW, -/
theorem rhs_qkv_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
/-- and the contraction coordinate its column: the product is x · Wᵀ. -/
theorem rhs_qkv_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- A block product into the zero accumulator, at row p and column e: Σ_d x[p, d] · w[e, d]. -/
theorem mm_apply (x : FVec Ideal S256x1024 .bf16) (w : FVec Ideal S1024x1024 .bf16) (p : Fin 256) (e : Fin 1024) :
    matmul dot_S256x1024_S1024x1024_S256x1024_1_1_0_0_n_n none x w (constant (F := Ideal) S256x1024 .f32 0x00000000#32) (ix2 p e)
      = ∑ d : Fin 1024, x (ix2 p d) * w (ix2 e d) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p e) ((contrEquiv1 dot_S256x1024_S1024x1024_S256x1024_1_1_0_0_n_n 1024 rfl rfl).symm k) = ix2 p k := funext fun a => Fin.ext (by
    match a with
    | ⟨0, _⟩ => exact lhs_qkv_0 _ _
    | ⟨1, _⟩ => exact (lhs_qkv_1 _ _).trans hk)
  have er : dot_S256x1024_S1024x1024_S256x1024_1_1_0_0_n_n.rhsIdx (ix2 p e) ((contrEquiv1 dot_S256x1024_S1024x1024_S256x1024_1_1_0_0_n_n 1024 rfl rfl).symm k) = ix2 e k := funext fun a => Fin.ext (by
    match a with
    | ⟨0, _⟩ => exact rhs_qkv_0 _ _
    | ⟨1, _⟩ => exact (rhs_qkv_1 _ _).trans hk)
  rw [el, er]

/-! ## The body's payload at an index -/

/-- The payload at an index is the three products laid side by side along the columns, at that index (the last change
    of float format is the identity at the extended reals). -/
theorem pay_unfold (x0 : Vec Ideal S256x1024 .f32) (x1 x2 x3 : Vec Ideal S1024x1024 .f32) (j : S256x3072.Idx) :
    k0_pay1 (F := Ideal) x0 x1 x2 x3 j = concatenate S256x3072 1
      [⟨S256x1024, matmul dot_S256x1024_S1024x1024_S256x1024_1_1_0_0_n_n none (truncf .bf16 (shapeCast S256x1024 x0 shapeCasts_S256x1024_S256x1024) bitsLt_bf16_f32) (truncf .bf16 x1 bitsLt_bf16_f32) (constant (F := Ideal) S256x1024 .f32 0x00000000#32)⟩,
       ⟨S256x1024, matmul dot_S256x1024_S1024x1024_S256x1024_1_1_0_0_n_n none (truncf .bf16 (shapeCast S256x1024 x0 shapeCasts_S256x1024_S256x1024) bitsLt_bf16_f32) (truncf .bf16 x2 bitsLt_bf16_f32) (constant (F := Ideal) S256x1024 .f32 0x00000000#32)⟩,
       ⟨S256x1024, matmul dot_S256x1024_S1024x1024_S256x1024_1_1_0_0_n_n none (truncf .bf16 (shapeCast S256x1024 x0 shapeCasts_S256x1024_S256x1024) bitsLt_bf16_f32) (truncf .bf16 x3 bitsLt_bf16_f32) (constant (F := Ideal) S256x1024 .f32 0x00000000#32)⟩]
      concatenates_S256x1024_S256x1024_S256x1024_S256x3072_d1 j := rfl

/-- The operands of a product, read at an index, are the loaded blocks' entries. -/
theorem operands_apply (x0 : Vec Ideal S256x1024 .f32) (w : Vec Ideal S1024x1024 .f32) (p : Fin 256) (e d : Fin 1024) :
    (truncf .bf16 (shapeCast S256x1024 x0 shapeCasts_S256x1024_S256x1024) bitsLt_bf16_f32 : FVec Ideal S256x1024 .bf16) (ix2 p d)
        * (truncf .bf16 w bitsLt_bf16_f32 : FVec Ideal S1024x1024 .bf16) (ix2 e d)
      = x0 (ix2 p d) * w (ix2 e d) := by
  rw [shapeCast_self]; rfl

/-- Columns below 1024 are the first product's. -/
theorem pay_apply_q (x0 : Vec Ideal S256x1024 .f32) (x1 x2 x3 : Vec Ideal S1024x1024 .f32) (p : Fin 256) (q : Fin 3072)
    (e : Fin 1024) (hq : q.val = e.val) :
    k0_pay1 (F := Ideal) x0 x1 x2 x3 (ix2 p q) = ∑ d : Fin 1024, x0 (ix2 p d) * x1 (ix2 e d) := by
  refine (pay_unfold x0 x1 x2 x3 (ix2 p q)).trans ?_
  refine (concatenate_apply_piece (t := S256x3072) 1 _ _ (ix2 p q)
    0 ?_ S256x1024 _ ?_ rfl 0 ?_ (ix2 p e) ?_ ?_).trans ((mm_apply _ _ p e).trans (Finset.sum_congr rfl fun d _ => operands_apply x0 x1 p e d))
  · show (0 : Nat) < 3
    decide
  · rfl
  · rfl
  · intro b hb
    match b with
    | ⟨0, _⟩ => rfl
    | ⟨1, _⟩ => exact absurd rfl hb
  · show 0 + e.val = q.val
    omega

/-- Columns from 1024 to 2047 are the second product's. -/
theorem pay_apply_k (x0 : Vec Ideal S256x1024 .f32) (x1 x2 x3 : Vec Ideal S1024x1024 .f32) (p : Fin 256) (q : Fin 3072)
    (e : Fin 1024) (hq : q.val = 1024 + e.val) :
    k0_pay1 (F := Ideal) x0 x1 x2 x3 (ix2 p q) = ∑ d : Fin 1024, x0 (ix2 p d) * x2 (ix2 e d) := by
  refine (pay_unfold x0 x1 x2 x3 (ix2 p q)).trans ?_
  refine (concatenate_apply_piece (t := S256x3072) 1 _ _ (ix2 p q)
    1 ?_ S256x1024 _ ?_ rfl 1024 ?_ (ix2 p e) ?_ ?_).trans ((mm_apply _ _ p e).trans (Finset.sum_congr rfl fun d _ => operands_apply x0 x2 p e d))
  · show (1 : Nat) < 3
    decide
  · rfl
  · rfl
  · intro b hb
    match b with
    | ⟨0, _⟩ => rfl
    | ⟨1, _⟩ => exact absurd rfl hb
  · show 1024 + e.val = q.val
    omega

/-- Columns from 2048 on are the third product's. -/
theorem pay_apply_v (x0 : Vec Ideal S256x1024 .f32) (x1 x2 x3 : Vec Ideal S1024x1024 .f32) (p : Fin 256) (q : Fin 3072)
    (e : Fin 1024) (hq : q.val = 2048 + e.val) :
    k0_pay1 (F := Ideal) x0 x1 x2 x3 (ix2 p q) = ∑ d : Fin 1024, x0 (ix2 p d) * x3 (ix2 e d) := by
  refine (pay_unfold x0 x1 x2 x3 (ix2 p q)).trans ?_
  refine (concatenate_apply_piece (t := S256x3072) 1 _ _ (ix2 p q)
    2 ?_ S256x1024 _ ?_ rfl 2048 ?_ (ix2 p e) ?_ ?_).trans ((mm_apply _ _ p e).trans (Finset.sum_congr rfl fun d _ => operands_apply x0 x3 p e d))
  · show (2 : Nat) < 3
    decide
  · rfl
  · rfl
  · intro b hb
    match b with
    | ⟨0, _⟩ => rfl
    | ⟨1, _⟩ => exact absurd rfl hb
  · show 2048 + e.val = q.val
    omega

/-! ## The result as one function of the arrays -/

/-- Column j of the three weight matrices laid side by side: row j mod 1024 of the first for j < 1024, of the second
    for 1024 ≤ j < 2048, of the third from 2048 on. -/
def wselF (W1 W2 W3 : S1024x1024.Idx → EReal) (j : Fin 3072) (d : Fin 1024) : EReal :=
  if j.val < 1024 then W1 (ix2 ⟨j.val % 1024, Nat.mod_lt _ (by decide)⟩ d)
  else if j.val < 2048 then W2 (ix2 ⟨j.val % 1024, Nat.mod_lt _ (by decide)⟩ d)
  else W3 (ix2 ⟨j.val % 1024, Nat.mod_lt _ (by decide)⟩ d)

/-- Entry (r, j) of the result: row r of the activations against that column. -/
def rowsum (A0 : S8192x1024.Idx → EReal) (W1 W2 W3 : S1024x1024.Idx → EReal) (r : Fin 8192) (j : Fin 3072) : EReal :=
  ∑ d : Fin 1024, A0 (ix2 r d) * wselF W1 W2 W3 j d

/-- What the body computes at a point whose activation block is rows 256 tv … of the activations and whose weight
    blocks are the whole matrices: entry (p, q) of its result is entry (256 tv + p, q) of the whole result. -/
theorem point_value (A0 : S8192x1024.Idx → EReal) (W1 W2 W3 : S1024x1024.Idx → EReal)
    (x0 : Vec Ideal S256x1024 .f32) (x1 x2 x3 : Vec Ideal S1024x1024 .f32) (tv : Nat)
    (h0 : ∀ (p : Fin 256) (d : Fin 1024) (r : Fin 8192), r.val = tv * 256 + p.val → x0 (ix2 p d) = A0 (ix2 r d))
    (h1 : ∀ e d : Fin 1024, x1 (ix2 e d) = W1 (ix2 e d))
    (h2 : ∀ e d : Fin 1024, x2 (ix2 e d) = W2 (ix2 e d))
    (h3 : ∀ e d : Fin 1024, x3 (ix2 e d) = W3 (ix2 e d))
    (p : Fin 256) (q : Fin 3072) (r : Fin 8192) (hr : r.val = tv * 256 + p.val) :
    k0_pay1 (F := Ideal) x0 x1 x2 x3 (ix2 p q) = rowsum A0 W1 W2 W3 r q := by
  have hq3 : q.val < 3072 := q.isLt
  unfold rowsum
  by_cases c1 : q.val < 1024
  · refine (pay_apply_q x0 x1 x2 x3 p q ⟨q.val % 1024, Nat.mod_lt _ (by decide)⟩ (by show q.val = q.val % 1024; omega)).trans ?_
    refine Finset.sum_congr rfl fun d _ => ?_
    unfold wselF
    rw [if_pos c1, h0 p d r hr, h1]
  · by_cases c2 : q.val < 2048
    · refine (pay_apply_k x0 x1 x2 x3 p q ⟨q.val % 1024, Nat.mod_lt _ (by decide)⟩ (by show q.val = 1024 + q.val % 1024; omega)).trans ?_
      refine Finset.sum_congr rfl fun d _ => ?_
      unfold wselF
      rw [if_neg c1, if_pos c2, h0 p d r hr, h2]
    · refine (pay_apply_v x0 x1 x2 x3 p q ⟨q.val % 1024, Nat.mod_lt _ (by decide)⟩ (by show q.val = 2048 + q.val % 1024; omega)).trans ?_
      refine Finset.sum_congr rfl fun d _ => ?_
      unfold wselF
      rw [if_neg c1, if_neg c2, h0 p d r hr, h3]

section Region
variable (V : (c : Dev nD) → (b : Ref sig .tc) → Buf (Elt Ideal) ((c : Thread nD τ).loc b))

/-- Column j of the region's three weight arrays side by side. -/
def wsel (c : Dev nD) (j : Fin 3072) (d : Fin 1024) : EReal :=
  wselF (V c main_arg1) (V c main_arg2) (V c main_arg3) j d

/-- The whole result array as a function of the arrays the region finds. -/
def G (c : Dev nD) : S8192x3072.Idx → EReal := fun i =>
  rowsum (V c main_v0) (V c main_arg1) (V c main_arg2) (V c main_arg3) ⟨(i 0).val, idx2_lt0 i⟩ ⟨(i 1).val, idx2_lt1 i⟩

/-! ## The blocks at a point, as entries of the arrays -/

theorem hz : (![0, 0] : Fin 2 → Nat) = fun _ => 0 := funext fun a => by fin_cases a <;> rfl

/-- The printed index maps over the grid: the activations' and the result's block index is the point itself on the
    rows and 0 on the columns; the weights' is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The activation block at point t is rows 256 t … 256 t + 255 of the activations. -/
theorem xblk_apply (c : Dev nD) (t : Fin cfg0.N) (p : Fin 256) (d : Fin 1024) (r : Fin 8192) (hr : r.val = t.val * 256 + p.val) :
    (iblk0 (F := Ideal) V c 0 t : Vec Ideal S256x1024 .f32) (ix2 p d) = (V c main_v0 : S8192x1024.Idx → EReal) (ix2 r d) := by
  obtain ⟨e0, e1, -⟩ := idx_facts t
  unfold iblk0
  rw [View.read_apply]
  show V c main_v0 _ = V c main_v0 _
  refine congrArg _ ?_
  funext a
  apply Fin.ext
  match a with
  | ⟨0, _⟩ => show win0_0.index t (0 : Fin 2) * 256 + 1 * p.val = r.val; rw [e0, hr]; omega
  | ⟨1, _⟩ => show win0_0.index t (1 : Fin 2) * 1024 + 1 * d.val = d.val; rw [e1]; omega

/-- The first weight block at any point is the whole matrix. -/
theorem w1blk_apply (c : Dev nD) (t : Fin cfg0.N) (e d : Fin 1024) :
    (iblk0 (F := Ideal) V c 1 t : Vec Ideal S1024x1024 .f32) (ix2 e d) = (V c main_arg1 : S1024x1024.Idx → EReal) (ix2 e d) := by
  obtain ⟨-, -, e0, e1, -⟩ := idx_facts t
  unfold iblk0
  rw [View.read_apply]
  show V c main_arg1 _ = V c main_arg1 _
  refine congrArg _ ?_
  funext a
  apply Fin.ext
  match a with
  | ⟨0, _⟩ => show win0_1.index t (0 : Fin 2) * 1024 + 1 * e.val = e.val; rw [e0]; omega
  | ⟨1, _⟩ => show win0_1.index t (1 : Fin 2) * 1024 + 1 * d.val = d.val; rw [e1]; omega

/-- The second weight block, likewise. -/
theorem w2blk_apply (c : Dev nD) (t : Fin cfg0.N) (e d : Fin 1024) :
    (iblk0 (F := Ideal) V c 2 t : Vec Ideal S1024x1024 .f32) (ix2 e d) = (V c main_arg2 : S1024x1024.Idx → EReal) (ix2 e d) := by
  obtain ⟨-, -, -, -, e0, e1, -⟩ := idx_facts t
  unfold iblk0
  rw [View.read_apply]
  show V c main_arg2 _ = V c main_arg2 _
  refine congrArg _ ?_
  funext a
  apply Fin.ext
  match a with
  | ⟨0, _⟩ => show win0_2.index t (0 : Fin 2) * 1024 + 1 * e.val = e.val; rw [e0]; omega
  | ⟨1, _⟩ => show win0_2.index t (1 : Fin 2) * 1024 + 1 * d.val = d.val; rw [e1]; omega

/-- The third weight block, likewise. -/
theorem w3blk_apply (c : Dev nD) (t : Fin cfg0.N) (e d : Fin 1024) :
    (iblk0 (F := Ideal) V c 3 t : Vec Ideal S1024x1024 .f32) (ix2 e d) = (V c main_arg3 : S1024x1024.Idx → EReal) (ix2 e d) := by
  obtain ⟨-, -, -, -, -, -, e0, e1, -⟩ := idx_facts t
  unfold iblk0
  rw [View.read_apply]
  show V c main_arg3 _ = V c main_arg3 _
  refine congrArg _ ?_
  funext a
  apply Fin.ext
  match a with
  | ⟨0, _⟩ => show win0_3.index t (0 : Fin 2) * 1024 + 1 * e.val = e.val; rw [e0]; omega
  | ⟨1, _⟩ => show win0_3.index t (1 : Fin 2) * 1024 + 1 * d.val = d.val; rw [e1]; omega

/-! ## What a point writes back, the cover, the array -/

/-- What point t writes back is block t of the result function: entry (p, q) of the body's result is entry
    (256 t + p, q) of the whole result, which is where the block's entry (p, q) sits in the array. -/
theorem flushed_eq (c : Dev nD) (t : Fin cfg0.N) :
    (dat0 (F := Ideal) V c).flushed 4 t = ((cfg0.win 4).blk t).view.read (Elt Ideal) (G V c) := by
  show (cfg0.win 4).cut (grid0.coords t) ((dat0 (F := Ideal) V c).after 4 t) = _
  rw [after0_4]
  unfold out0_4
  rw [View.canon_unit_zero hz]
  simp only [View.ld_unit_zero (S := S256x1024) hz, View.ld_unit_zero (S := S1024x1024) hz]
  obtain ⟨-, -, -, -, -, -, -, -, e0, e1⟩ := idx_facts t
  funext y
  have hy0 : (y 0).val < 256 := (y 0).isLt
  have hy1 : (y 1).val < 3072 := (y 1).isLt
  have ht : t.val < 32 := lt_of_lt_of_eq t.isLt N_0
  have hx : (win0 4).xinj (grid0.coords t) y = ix2 (⟨(y 0).val, hy0⟩ : Fin 256) (⟨(y 1).val, hy1⟩ : Fin 3072) :=
    funext fun a => by match a with | ⟨0, _⟩ => rfl | ⟨1, _⟩ => rfl
  rw [View.read_apply]
  show k0_pay1 (F := Ideal) (iblk0 V c 0 t) (iblk0 V c 1 t) (iblk0 V c 2 t) (iblk0 V c 3 t) ((win0 4).xinj (grid0.coords t) y) = _
  rw [hx]
  refine (point_value (V c main_v0) (V c main_arg1) (V c main_arg2) (V c main_arg3)
    (iblk0 V c 0 t) (iblk0 V c 1 t) (iblk0 V c 2 t) (iblk0 V c 3 t) t.val
    (fun p d r hr => xblk_apply V c t p d r hr) (fun e d => w1blk_apply V c t e d) (fun e d => w2blk_apply V c t e d)
    (fun e d => w3blk_apply V c t e d) ⟨(y 0).val, hy0⟩ ⟨(y 1).val, hy1⟩ ⟨t.val * 256 + (y 0).val, by omega⟩ rfl).trans ?_
  unfold G
  refine congrArg₂ (rowsum (V c main_v0) (V c main_arg1) (V c main_arg2) (V c main_arg3)) (Fin.ext ?_) (Fin.ext ?_)
  · show t.val * 256 + (y 0).val = win0_4.index t (0 : Fin 2) * 256 + 1 * (y 0).val
    rw [e0]; omega
  · show (y 1).val = win0_4.index t (1 : Fin 2) * 3072 + 1 * (y 1).val
    rw [e1]; omega

/-- An index of the result array is in point t's block iff each coordinate is in the block's range on its axis. -/
theorem mem_blk (t : Fin cfg0.N) (i : S8192x3072.Idx) :
    i ∈ ((cfg0.win 4).blk t).view.set ↔ ∀ a : Fin 2, win0_4.index t a * S256x3072.size a ≤ (i a).val ∧ (i a).val < win0_4.index t a * S256x3072.size a + S256x3072.size a := by
  show i ∈ ((View.whole main_v1).slice (win0_4.rect t)).set ↔ _
  rw [View.set_slice_whole, Rect.mem_set_unit]
  exact Iff.rfl

/-- Row r of the result lies in the block of the point r / 256, which is written back. -/
theorem cover (i : S8192x3072.Idx) :
    ∃ t : Fin cfg0.N, (cfg0.win 4).flush t = true ∧ i ∈ ((cfg0.win 4).blk t).view.set := by
  have hi0 : (i 0).val < 8192 := idx2_lt0 i
  have hi1 : (i 1).val < 3072 := idx2_lt1 i
  obtain ⟨t, ht⟩ : ∃ t : Fin cfg0.N, t.val = (i 0).val / 256 :=
    ⟨⟨(i 0).val / 256, lt_of_lt_of_eq (show (i 0).val / 256 < 32 by omega) N_0.symm⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 3072 ≤ (i 1).val ∧ (i 1).val < win0_4.index t (1 : Fin 2) * 3072 + 3072
    rw [e1]; omega

/-- The result array when the region ends: the result function everywhere. -/
theorem final (c : Dev nD) : (dat0 (F := Ideal) V c).arrAt 4 cfg0.N = G V c :=
  (dat0 (F := Ideal) V c).arrAt_eq_of_cover 4 (G V c) (fun t _ => flushed_eq V c t) (cover)

/-- The activations as the region finds them, read at an index of the literal shape (so that an entry is an extended
    real to the elaborator). -/
abbrev xarr (c : Dev nD) : S8192x1024.Idx → EReal := V c main_v0
/-- The result array when the region ends, read at an index of the literal shape. -/
abbrev oarr (c : Dev nD) : S8192x3072.Idx → EReal := (dat0 (F := Ideal) V c).arrAt 4 cfg0.N

/-- The result function at coordinates. -/
theorem G_apply (c : Dev nD) (r : Fin 8192) (j : Fin 3072) :
    G V c (ix2 r j) = ∑ d : Fin 1024, xarr V c (ix2 r d) * wsel V c j d := rfl

/-- Entry (r, j) of the result array when the region ends: row r of the activations against column j of the three
    weight matrices side by side. -/
theorem r0_value (c : Dev nD) (r : Fin 8192) (j : Fin 3072) :
    oarr V c (ix2 r j) = ∑ d : Fin 1024, xarr V c (ix2 r d) * wsel V c j d :=
  (congrFun (final V c) (ix2 r j)).trans (G_apply V c r j)

end Region

end Cert.KernelIdeal.HandValue

end
-- ==== Proof.R1Step.lean ====
/-
  One key tile's update of the running maximum, denominator and weighted sum of the tiled attention, as the second
  kernel's body forms it from its loaded blocks, and the closing projection of a finished row; each read at one entry.
-/
import proofs.«405825_j40080634807018_3_alg».proof.Proof.Gen.KernelIdeal.Skeleton
import proofs.«405825_j40080634807018_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.Affine

noncomputable section

namespace Cert.KernelIdeal.HandValue

open Cert.KernelIdeal Cert.KernelIdeal.Gen Idealize.ShloMosaic Idealize.ShloMosaic.ValueIdx
open scoped BigOperators

/-! ## One head's share of a tile, for any head -/

section Generic

variable {F : FTy → Type} [FloatOps F] [Named F]

/-- The 64 lanes of head h lie inside the 1024 features. -/
theorem slices_head (h : Fin 16) : S512x1024.Slices ![0, 64 * h.val] S512x64 :=
  ⟨rfl, fun a => match a with
    | ⟨0, _⟩ => by show 0 + 512 ≤ 512; omega
    | ⟨1, _⟩ => by have := h.isLt; show 64 * h.val + 64 ≤ 1024; omega⟩

/-- Column h lies inside the 16 columns of a row statistic. -/
theorem slices_col (h : Fin 16) : S512x16.Slices ![0, h.val] S512x1 :=
  ⟨rfl, fun a => match a with
    | ⟨0, _⟩ => by show 0 + 512 ≤ 512; omega
    | ⟨1, _⟩ => by have := h.isLt; show h.val + 1 ≤ 16; omega⟩

/-- The 64 lanes of head h of a [512, 1024] block. -/
def headSl (v : FVec F S512x1024 .bf16) (h : Fin 16) : FVec F S512x64 .bf16 :=
  extractStridedSlice S512x64 ![0, 64 * h.val] v (slices_head h)

/-- Column h of a [512, 16] row statistic. -/
def colSl (m : Vec F S512x16 .f32) (h : Fin 16) : FVec F S512x1 .f32 :=
  extractStridedSlice S512x1 ![0, h.val] m (slices_col h)

/-- Head h's masked scores of the tile: the product of the query lanes with the key lanes where the mask holds, the
    fill value elsewhere. -/
def headS (v10 v16 : FVec F S512x1024 .bf16) (v25 : IVec S512x512 1) (h : Fin 16) : FVec F S512x512 .f32 :=
  select v25
    (matmul dot_S512x64_S512x64_S512x512_1_1_0_0_n_n none (headSl v16 h) (headSl v10 h) (constant S512x512 .f32 0x00000000#32))
    (broadcast S512x512 (Named.named κ "neg_big" 0xF149F2CA#32 : F .f32))

/-- The new running maximum of head h: the old one against the row maximum of the scores. -/
def headM (m0 : Vec F S512x16 .f32) (S : FVec F S512x512 .f32) (h : Fin 16) : FVec F S512x1 .f32 :=
  maximumf (colSl m0 h)
    (shapeCast S512x1 (multiReduction .maximumf [1] S512 S 0xFF800000#32 reduces_S512x512_S512 (.inl rfl) rfl) shapeCasts_S512_S512x1)

/-- The rescaling factor exp(old maximum − new maximum). -/
def headA (m0 : Vec F S512x16 .f32) (S : FVec F S512x512 .f32) (h : Fin 16) : FVec F S512x1 .f32 :=
  exp (subf (colSl m0 h) (headM m0 S h))

/-- The weights exp(score − new maximum). -/
def headP (m0 : Vec F S512x16 .f32) (S : FVec F S512x512 .f32) (h : Fin 16) : FVec F S512x512 .f32 :=
  exp (subf S (broadcastTo S512x512 (headM m0 S h) broadcasts_S512x1_S512x512))

/-- The row sums of the weights. -/
def headLadd (m0 : Vec F S512x16 .f32) (S : FVec F S512x512 .f32) (h : Fin 16) : FVec F S512x1 .f32 :=
  shapeCast S512x1 (multiReduction .add [1] S512 (headP m0 S h) 0x00000000#32 reduces_S512x512_S512 (.inl rfl) rfl) shapeCasts_S512_S512x1

/-- The weights against the value lanes vh of the head. -/
def headPV (m0 : Vec F S512x16 .f32) (S : FVec F S512x512 .f32) (vh : FVec F S512x64 .bf16) (h : Fin 16) : FVec F S512x64 .f32 :=
  matmul dot_S512x512_S512x64_S512x64_1_0_0_1_n_n none (truncf .bf16 (headP m0 S h) bitsLt_bf16_f32) vh (constant S512x64 .f32 0x00000000#32)

/-- Head h's scores from the loaded words and blocks. -/
def sOf (wq wk : Elt F .i32) (xq xk : Vec F S1x512x1024 .bf16) (h : Fin 16) : FVec F S512x512 .f32 :=
  headS (k1_pay13 xk) (k1_pay15 xq) (k1_pay16 wq wk) h

/-! ## What the body stores -/

/-- The running maximum the body stores: the heads' new maxima side by side. -/
def newM (wq wk : Elt F .i32) (xq xk : Vec F S1x512x1024 .bf16) (m0 : Vec F S512x16 .f32) : FVec F S512x16 .f32 :=
  let v10 := k1_pay13 xk
  let v16 := k1_pay15 xq
  let v25 := k1_pay16 wq wk
  k1_pay7 (k1_pay20 m0 (k1_pay18 wq wk xq xk)) (k1_pay27 v10 v16 v25 m0) (k1_pay35 v10 v16 v25 m0) (k1_pay43 v10 v16 v25 m0)
    (k1_pay50 v10 v16 v25 m0) (k1_pay58 m0 (k1_pay56 v10 v16 v25)) (k1_pay65 v10 v16 v25 m0) (k1_pay73 v10 v16 v25 m0)
    (k1_pay81 v10 v16 v25 m0) (k1_pay88 v10 v16 v25 m0) (k1_pay96 m0 (k1_pay94 v10 v16 v25)) (k1_pay103 v10 v16 v25 m0)
    (k1_pay111 v10 v16 v25 m0) (k1_pay119 v10 v16 v25 m0) (k1_pay126 v10 v16 v25 m0)
    (k1_pay1 (k1_pay132 v10 v16 v25) (extractStridedSlice S512x1 ![0, 15] m0 slices_S512x16_o0_15_S512x1))

/-- The rescaling factors of the heads side by side (the body's value %334). -/
def alphaAll (wq wk : Elt F .i32) (xq xk : Vec F S1x512x1024 .bf16) (m0 : Vec F S512x16 .f32) : FVec F S512x16 .f32 :=
  let v10 := k1_pay13 xk
  let v16 := k1_pay15 xq
  let v25 := k1_pay16 wq wk
  let v320 : FVec F S512x1 .f32 := extractStridedSlice S512x1 ![0, 15] m0 slices_S512x16_o0_15_S512x1
  k1_pay4 (k1_pay21 m0 (k1_pay18 wq wk xq xk)) (k1_pay28 v10 v16 v25 m0) (k1_pay36 v10 v16 v25 m0) (k1_pay44 v10 v16 v25 m0)
    (k1_pay51 v10 v16 v25 m0) (k1_pay59 m0 (k1_pay56 v10 v16 v25)) (k1_pay66 v10 v16 v25 m0) (k1_pay74 v10 v16 v25 m0)
    (k1_pay82 v10 v16 v25 m0) (k1_pay89 v10 v16 v25 m0) (k1_pay97 m0 (k1_pay94 v10 v16 v25)) (k1_pay104 v10 v16 v25 m0)
    (k1_pay112 v10 v16 v25 m0) (k1_pay120 v10 v16 v25 m0) (k1_pay127 v10 v16 v25 m0)
    (subf v320 (k1_pay1 (k1_pay132 v10 v16 v25) v320))

/-- The row sums of the weights of the heads side by side (the body's value %335). -/
def laddAll (wq wk : Elt F .i32) (xq xk : Vec F S1x512x1024 .bf16) (m0 : Vec F S512x16 .f32) : FVec F S512x16 .f32 :=
  let v10 := k1_pay13 xk
  let v16 := k1_pay15 xq
  let v25 := k1_pay16 wq wk
  let v320 : FVec F S512x1 .f32 := extractStridedSlice S512x1 ![0, 15] m0 slices_S512x16_o0_15_S512x1
  let v319 := k1_pay132 v10 v16 v25
  k1_pay5 (k1_pay23 m0 (k1_pay18 wq wk xq xk)) (k1_pay30 v10 v16 v25 m0) (k1_pay39 (k1_pay38 v10 v16 v25 m0)) (k1_pay46 v10 v16 v25 m0)
    (k1_pay53 v10 v16 v25 m0) (k1_pay61 m0 (k1_pay56 v10 v16 v25)) (k1_pay68 v10 v16 v25 m0) (k1_pay77 (k1_pay76 v10 v16 v25 m0))
    (k1_pay84 v10 v16 v25 m0) (k1_pay91 v10 v16 v25 m0) (k1_pay99 m0 (k1_pay94 v10 v16 v25)) (k1_pay106 v10 v16 v25 m0)
    (k1_pay115 (k1_pay114 v10 v16 v25 m0)) (k1_pay122 v10 v16 v25 m0) (k1_pay129 v10 v16 v25 m0)
    (k1_pay2 v319 (k1_pay1 v319 v320))

/-- The heads' weighted value sums side by side (the body's value %336). -/
def pvAll (wq wk : Elt F .i32) (xq xk xv : Vec F S1x512x1024 .bf16) (m0 : Vec F S512x16 .f32) : FVec F S512x1024 .f32 :=
  let v10 := k1_pay13 xk
  let v12 := k1_pay14 xv
  let v16 := k1_pay15 xq
  let v25 := k1_pay16 wq wk
  let v320 : FVec F S512x1 .f32 := extractStridedSlice S512x1 ![0, 15] m0 slices_S512x16_o0_15_S512x1
  let v319 := k1_pay132 v10 v16 v25
  concatenate S512x1024 1
    [⟨S512x64, k1_pay24 m0 (k1_pay17 xv) (k1_pay18 wq wk xq xk)⟩, ⟨S512x64, k1_pay31 v10 v12 v16 v25 m0⟩,
     ⟨S512x64, k1_pay40 (k1_pay32 v12) (k1_pay37 v10 v16 v25 m0)⟩, ⟨S512x64, k1_pay47 v10 v12 v16 v25 m0⟩,
     ⟨S512x64, k1_pay54 v10 v12 v16 v25 m0⟩, ⟨S512x64, k1_pay62 m0 (k1_pay55 v12) (k1_pay56 v10 v16 v25)⟩,
     ⟨S512x64, k1_pay69 v10 v12 v16 v25 m0⟩, ⟨S512x64, k1_pay78 (k1_pay70 v12) (k1_pay75 v10 v16 v25 m0)⟩,
     ⟨S512x64, k1_pay85 v10 v12 v16 v25 m0⟩, ⟨S512x64, k1_pay92 v10 v12 v16 v25 m0⟩,
     ⟨S512x64, k1_pay100 m0 (k1_pay93 v12) (k1_pay94 v10 v16 v25)⟩, ⟨S512x64, k1_pay107 v10 v12 v16 v25 m0⟩,
     ⟨S512x64, k1_pay116 (k1_pay108 v12) (k1_pay113 v10 v16 v25 m0)⟩, ⟨S512x64, k1_pay123 v10 v12 v16 v25 m0⟩,
     ⟨S512x64, k1_pay130 v10 v12 v16 v25 m0⟩, ⟨S512x64, k1_pay3 (k1_pay131 v12) (k1_pay2 v319 (k1_pay1 v319 v320))⟩]
    concatenates_S512x64_S512x64_S512x64_S512x64_S512x64_S512x64_S512x64_S512x64_S512x64_S512x64_S512x64_S512x64_S512x64_S512x64_S512x64_S512x64_S512x1024_d1

/-- The running denominator the body stores. -/
def newL (wq wk : Elt F .i32) (xq xk : Vec F S1x512x1024 .bf16) (m0 l0 : Vec F S512x16 .f32) : FVec F S512x16 .f32 :=
  k1_pay8 l0 (alphaAll wq wk xq xk m0) (laddAll wq wk xq xk m0)

/-- The running weighted sum the body stores. -/
def newAcc (wq wk : Elt F .i32) (xq xk xv : Vec F S1x512x1024 .bf16) (m0 : Vec F S512x16 .f32) (a0 : Vec F S512x1024 .f32) :
    FVec F S512x1024 .f32 :=
  k1_pay6 a0 (alphaAll wq wk xq xk m0) (pvAll wq wk xq xk xv m0)

/-- The output block the body stores after a row's last tile. -/
def outBlk (l1 : Vec F S512x16 .f32) (a1 : Vec F S512x1024 .f32) (wo : Vec F S1024x1024 .f32) : FVec F S1x512x1024 .f32 :=
  k1_pay9 l1 a1 wo

end Generic

/-! ## The stored values by head -/

section Pieces

variable {F : FTy → Type} [FloatOps F] [Named F]

/-- Head h's new maximum, rescaling factor, weight row sums and weighted value sum, from the loaded words and blocks. -/
def mPiece (wq wk : Elt F .i32) (xq xk : Vec F S1x512x1024 .bf16) (m0 : Vec F S512x16 .f32) (h : Fin 16) : FVec F S512x1 .f32 :=
  headM m0 (sOf wq wk xq xk h) h
def aPiece (wq wk : Elt F .i32) (xq xk : Vec F S1x512x1024 .bf16) (m0 : Vec F S512x16 .f32) (h : Fin 16) : FVec F S512x1 .f32 :=
  headA m0 (sOf wq wk xq xk h) h
def lPiece (wq wk : Elt F .i32) (xq xk : Vec F S1x512x1024 .bf16) (m0 : Vec F S512x16 .f32) (h : Fin 16) : FVec F S512x1 .f32 :=
  headLadd m0 (sOf wq wk xq xk h) h
def pvPiece (wq wk : Elt F .i32) (xq xk xv : Vec F S1x512x1024 .bf16) (m0 : Vec F S512x16 .f32) (h : Fin 16) : FVec F S512x64 .f32 :=
  headPV m0 (sOf wq wk xq xk h) (headSl (k1_pay14 xv) h) h

/-- Sixteen columns side by side. -/
abbrev cols16 (f : Fin 16 → FVec F S512x1 .f32) : FVec F S512x16 .f32 :=
  concatenate S512x16 1 (List.ofFn fun h : Fin 16 => (⟨S512x1, f h⟩ : (s : Shape) × (s.Idx → F .f32)))
    concatenates_S512x1_S512x1_S512x1_S512x1_S512x1_S512x1_S512x1_S512x1_S512x1_S512x1_S512x1_S512x1_S512x1_S512x1_S512x1_S512x1_S512x16_d1

/-- Sixteen blocks of 64 lanes side by side. -/
abbrev lanes16 (f : Fin 16 → FVec F S512x64 .f32) : FVec F S512x1024 .f32 :=
  concatenate S512x1024 1 (List.ofFn fun h : Fin 16 => (⟨S512x64, f h⟩ : (s : Shape) × (s.Idx → F .f32)))
    concatenates_S512x64_S512x64_S512x64_S512x64_S512x64_S512x64_S512x64_S512x64_S512x64_S512x64_S512x64_S512x64_S512x64_S512x64_S512x64_S512x64_S512x1024_d1

theorem newM_eq (wq wk : Elt F .i32) (xq xk : Vec F S1x512x1024 .bf16) (m0 : Vec F S512x16 .f32) :
    newM wq wk xq xk m0 = shapeCast S512x16 (cols16 (mPiece wq wk xq xk m0)) shapeCasts_S512x16_S512x16 := rfl

theorem alphaAll_eq (wq wk : Elt F .i32) (xq xk : Vec F S1x512x1024 .bf16) (m0 : Vec F S512x16 .f32) :
    alphaAll wq wk xq xk m0 = cols16 (aPiece wq wk xq xk m0) := rfl

theorem laddAll_eq (wq wk : Elt F .i32) (xq xk : Vec F S1x512x1024 .bf16) (m0 : Vec F S512x16 .f32) :
    laddAll wq wk xq xk m0 = cols16 (lPiece wq wk xq xk m0) := rfl

theorem pvAll_eq (wq wk : Elt F .i32) (xq xk xv : Vec F S1x512x1024 .bf16) (m0 : Vec F S512x16 .f32) :
    pvAll wq wk xq xk xv m0 = lanes16 (pvPiece wq wk xq xk xv m0) := rfl

end Pieces

/-! ## Reading the layout operations at an entry -/

section Layout

variable {F : FTy → Type} [FloatOps F]

/-- Sixteen columns side by side, at (r, h): column h's entry of row r. -/
theorem cols16_apply (f : Fin 16 → FVec F S512x1 .f32) (r : Fin 512) (h : Fin 16) :
    cols16 f (ix2 r h) = f h (ix2 r (0 : Fin 1)) :=
  concatenate_ofFn_unit_apply (1 : Fin S512x16.rank) f _ rfl rfl (ix2 r h) h rfl (ix2 r (0 : Fin 1)) (fun b hb => match b with
    | ⟨0, _⟩ => rfl
    | ⟨1, _⟩ => absurd rfl hb)

/-- Sixteen blocks of 64 lanes side by side, at (r, j): block j / 64's entry (r, j mod 64). -/
theorem lanes16_apply (f : Fin 16 → FVec F S512x64 .f32) (r : Fin 512) (j : Fin 1024) :
    lanes16 f (ix2 r j) = f (Attn.headOf j) (ix2 r (⟨j.val % 64, Nat.mod_lt _ (by decide)⟩ : Fin 64)) :=
  concatenate_ofFn_apply (1 : Fin S512x1024.rank) f _ rfl 64 rfl (ix2 r j) (Attn.headOf j) rfl
    (ix2 r (⟨j.val % 64, Nat.mod_lt _ (by decide)⟩ : Fin 64)) rfl (fun b hb => match b with
    | ⟨0, _⟩ => rfl
    | ⟨1, _⟩ => absurd rfl hb)

/-- Lane d of head h is feature 64·h + d. -/
theorem headSl_apply (v : FVec F S512x1024 .bf16) (h : Fin 16) (r : Fin 512) (d : Fin 64) :
    headSl v h (ix2 r d) = v (ix2 r (Attn.hcol h d)) := by
  unfold headSl extractStridedSlice
  refine congrArg v (funext fun a => Fin.ext ?_)
  match a with
  | ⟨0, _⟩ => show 0 + r.val = r.val; omega
  | ⟨1, _⟩ => show 64 * h.val + d.val = h.val * 64 + d.val; omega

/-- Column h of a row statistic at row r. -/
theorem colSl_apply (m : Vec F S512x16 .f32) (h : Fin 16) (r : Fin 512) : colSl m h (ix2 r (0 : Fin 1)) = m (ix2 r h) := by
  unfold colSl extractStridedSlice
  refine congrArg m (funext fun a => Fin.ext ?_)
  match a with
  | ⟨0, _⟩ => show 0 + r.val = r.val; omega
  | ⟨1, _⟩ => show h.val + 0 = h.val; omega

/-- A column read as a [512, 1] array. -/
theorem col_cast_apply {α : Type} (v : S512.Idx → α) (r : Fin 512) :
    shapeCast S512x1 v shapeCasts_S512_S512x1 (ix2 r (0 : Fin 1)) = v (ValueIdx.ix1 r) :=
  shapeCast_apply v shapeCasts_S512_S512x1 (ix2 r (0 : Fin 1)) (ValueIdx.ix1 r) (by
    rw [Shape.rowMajor_val_one, Shape.rowMajor_val_two]; show r.val = r.val * 1 + 0; omega)

/-- A [512, 1] column broadcast along the key axis. -/
theorem col_bcast_apply {α : Type} (m : S512x1.Idx → α) (r c : Fin 512) :
    broadcastTo S512x512 m broadcasts_S512x1_S512x512 (ix2 r c) = m (ix2 r (0 : Fin 1)) :=
  broadcastTo_apply m broadcasts_S512x1_S512x512 (ix2 r c) (ix2 r (0 : Fin 1)) (fun a => match a with
    | ⟨0, _⟩ => by show r.val = if (512 : Nat) = 1 then 0 else r.val; rw [if_neg (by decide)]
    | ⟨1, _⟩ => by show 0 = if (1 : Nat) = 1 then 0 else c.val; rw [if_pos rfl])

/-- A [1, 512, 1024] block read as [512, 1024]. -/
theorem blk_cast_apply {α : Type} (x : S1x512x1024.Idx → α) (r : Fin 512) (j : Fin 1024) :
    shapeCast S512x1024 x shapeCasts_S1x512x1024_S512x1024 (ix2 r j) = x (ix3 (0 : Fin 1) r j) :=
  shapeCast_apply x shapeCasts_S1x512x1024_S512x1024 (ix2 r j) (ix3 (0 : Fin 1) r j) (by
    rw [Shape.rowMajor_val_three, Shape.rowMajor_val_two]; show (0 * 512 + r.val) * 1024 + j.val = r.val * 1024 + j.val; omega)

end Layout

/-! ## At the extended reals -/

/-- The masked, scaled score of query row r against key column c of the tile pair (wq, wk), head h. -/
def tileS (wq wk : BitVec 32) (xq xk : S1x512x1024.Idx → EReal) (h : Fin 16) (r c : Fin 512) : EReal :=
  if wk.toNat * 512 + c.val ≤ wq.toNat * 512 + r.val then
    ∑ d : Fin 64, (xq (ix3 (0 : Fin 1) r (Attn.hcol h d)) * (((1 / 8 : ℝ) : ℝ) : EReal)) * xk (ix3 (0 : Fin 1) c (Attn.hcol h d))
  else ⊥

/-! ## The constants, the reductions, the score product and the mask at the extended reals -/

/-- The word of 0.125 denotes 1/8. -/
theorem ofBits_eighth : Ideal.ofBits .f32 0x3E000000#32 = (((1 / 8 : ℝ) : ℝ) : EReal) := by
  simp [Ideal.ofBits, Ideal.ieee, -EReal.coe_mul]; norm_num

/-- The word 0xFF800000 denotes −∞. -/
theorem ofBits_neg_inf : Ideal.ofBits .f32 0xFF800000#32 = (⊥ : EReal) := by
  simp [Ideal.ofBits, Ideal.ieee]

/-- The fill value of masked scores is −∞. -/
theorem neg_big : Named.named (F := Ideal) κ "neg_big" (φ := .f32) 0xF149F2CA#32 = (⊥ : EReal) :=
  IdealRules.named_const.ideal_named_scalar _ _ _ _ rfl

/-- A row's maximum from −∞ over the key axis is the supremum of the row. -/
theorem rowmax_apply (S : FVec Ideal S512x512 .f32) (hφ : FKind.Formats .f32)
    (hacc : (0xFF800000#32 : BitVec 32) = FKind.maximumf.neutral .f32 hφ) (r : Fin 512) :
    multiReduction .maximumf [1] S512 S 0xFF800000#32 reduces_S512x512_S512 hφ hacc (ValueIdx.ix1 r)
      = Finset.univ.sup fun c : Fin 512 => S (ix2 r c) := by
  refine (Ideal.multiReduction_maximumf_single S 0xFF800000#32 reduces_S512x512_S512 hφ hacc (ValueIdx.ix1 r)).trans ?_
  rw [Ideal.ofBits_def, ofBits_neg_inf]
  have hf : (S ∘ reduces_S512x512_S512.lift (ValueIdx.ix1 r)) = fun c : Fin 512 => S (ix2 r c) :=
    funext fun c => congrArg S (funext fun a => Fin.ext (by match a with | ⟨0, _⟩ => rfl | ⟨1, _⟩ => rfl))
  rw [hf]
  rfl

/-- A row's sum over the key axis. -/
theorem rowsum_apply (P : FVec Ideal S512x512 .f32) (hφ : FKind.Formats .f32)
    (hacc : (0x00000000#32 : BitVec 32) = FKind.add.neutral .f32 hφ) (r : Fin 512) :
    multiReduction .add [1] S512 P 0x00000000#32 reduces_S512x512_S512 hφ hacc (ValueIdx.ix1 r) = ∑ c : Fin 512, P (ix2 r c) := by
  refine (Ideal.multiReduction_add_single P 0x00000000#32 reduces_S512x512_S512 hφ hacc (ValueIdx.ix1 r)).trans ?_
  exact Finset.sum_congr rfl fun c _ => congrArg P (funext fun a => Fin.ext (by match a with | ⟨0, _⟩ => rfl | ⟨1, _⟩ => rfl))

theorem qk_lhs_0 (j : S512x512.Idx) (q : dot_S512x64_S512x64_S512x512_1_1_0_0_n_n.contr.Idx) : (dot_S512x64_S512x64_S512x512_1_1_0_0_n_n.lhsIdx j q 0).val = (j 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem qk_lhs_1 (j : S512x512.Idx) (q : dot_S512x64_S512x64_S512x512_1_1_0_0_n_n.contr.Idx) : (dot_S512x64_S512x64_S512x512_1_1_0_0_n_n.lhsIdx j q 1).val = (q ⟨0, by decide⟩).val :=
  dot_S512x64_S512x64_S512x512_1_1_0_0_n_n.lhsIdx_val_of_single rfl j q
theorem qk_rhs_0 (j : S512x512.Idx) (q : dot_S512x64_S512x64_S512x512_1_1_0_0_n_n.contr.Idx) : (dot_S512x64_S512x64_S512x512_1_1_0_0_n_n.rhsIdx j q 0).val = (j 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem qk_rhs_1 (j : S512x512.Idx) (q : dot_S512x64_S512x64_S512x512_1_1_0_0_n_n.contr.Idx) : (dot_S512x64_S512x64_S512x512_1_1_0_0_n_n.rhsIdx j q 1).val = (q ⟨0, by decide⟩).val :=
  dot_S512x64_S512x64_S512x512_1_1_0_0_n_n.rhsIdx_val_of_single rfl j q

/-- The score product into a zero accumulator: Σ_d A[r,d] · B[c,d]. -/
theorem qk_apply (A B : FVec Ideal S512x64 .bf16) (r c : Fin 512) :
    matmul dot_S512x64_S512x64_S512x512_1_1_0_0_n_n none A B (constant (F := Ideal) S512x512 .f32 0x00000000#32) (ix2 r c) = ∑ d : Fin 64, A (ix2 r d) * B (ix2 c d) := by
  simp only [matmul]
  rw [Ideal.matmul_constant_zero_apply, ← Equiv.sum_comp (contrEquiv1 dot_S512x64_S512x64_S512x512_1_1_0_0_n_n 64 rfl rfl).symm]
  refine Finset.sum_congr rfl fun k _ => ?_
  have hk := contrEquiv1_symm_val dot_S512x64_S512x64_S512x512_1_1_0_0_n_n 64 rfl rfl k
  have el : dot_S512x64_S512x64_S512x512_1_1_0_0_n_n.lhsIdx (ix2 r c) ((contrEquiv1 dot_S512x64_S512x64_S512x512_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S512x64_S512x64_S512x512_1_1_0_0_n_n.rhsIdx (ix2 r c) ((contrEquiv1 dot_S512x64_S512x64_S512x512_1_1_0_0_n_n 64 rfl rfl).symm k) = ix2 c k := funext fun a => Fin.ext (by
    match a with
    | ⟨0, _⟩ => exact qk_rhs_0 _ _
    | ⟨1, _⟩ => exact (qk_rhs_1 _ _).trans hk)
  rw [el, er]

/-- A tile index below 4 times 512 plus a position below 512, as a 32-bit word, reads signed as itself. -/
theorem pos_toInt (w : BitVec 32) (hw : w.toNat < 4) (n : Nat) (hn : n < 512) :
    (IntOp.addi (Scalar.muli w 512#32) (BitVec.ofNat 32 n)).toInt = ((w.toNat * 512 + n : Nat) : Int) := by
  have h1 : (IntOp.addi (Scalar.muli w 512#32) (BitVec.ofNat 32 n)).toNat = w.toNat * 512 + n := by
    show (w * 512#32 + BitVec.ofNat 32 n).toNat = _
    rw [BitVec.toNat_add, BitVec.toNat_mul, BitVec.toNat_ofNat, BitVec.toNat_ofNat]
    omega
  rw [BitVec.toInt_eq_toNat_of_lt (by rw [h1]; omega), h1]

/-- The tile's causal mask: the bit at (r, c) says key position wk·512 + c is not after query position wq·512 + r. -/
theorem mask_apply (wq wk : BitVec 32) (hq : wq.toNat < 4) (hk : wk.toNat < 4) (r c : Fin 512) :
    k1_pay16 (F := Ideal) wq wk (ix2 r c) = if wk.toNat * 512 + c.val ≤ wq.toNat * 512 + r.val then 1#1 else 0#1 := by
  unfold k1_pay16
  show IntOp.cmpi .sge (IntOp.addi (Scalar.muli wq 512#32) (iota .tc S512x512 32 [0] iota_S512x512_d0_w32 (ix2 r c)))
        (IntOp.addi (Scalar.muli wk 512#32) (iota .tc S512x512 32 [1] iota_S512x512_d1_w32 (ix2 r c))) = _
  rw [iota_single_apply, iota_single_apply]
  show IntOp.cmpi .sge (IntOp.addi (Scalar.muli wq 512#32) (BitVec.ofNat 32 r.val))
        (IntOp.addi (Scalar.muli wk 512#32) (BitVec.ofNat 32 c.val)) = _
  by_cases hm : wk.toNat * 512 + c.val ≤ wq.toNat * 512 + r.val
  · rw [if_pos hm, IntOp.cmpi_sge.mpr (by rw [pos_toInt wq hq _ r.isLt, pos_toInt wk hk _ c.isLt]; exact_mod_cast hm)]
  · have hne : ¬IntOp.cmpi .sge (IntOp.addi (Scalar.muli wq 512#32) (BitVec.ofNat 32 r.val))
        (IntOp.addi (Scalar.muli wk 512#32) (BitVec.ofNat 32 c.val)) = 1#1 := fun hc => hm (by
      have := IntOp.cmpi_sge.mp hc
      rw [pos_toInt wq hq _ r.isLt, pos_toInt wk hk _ c.isLt] at this
      exact_mod_cast this)
    rw [if_neg hm, eq_zero_of_ne_one hne]

/-- The scaled query block at (r, j). -/
theorem q_apply (xq : Vec Ideal S1x512x1024 .bf16) (r : Fin 512) (j : Fin 1024) :
    k1_pay15 (F := Ideal) xq (ix2 r j) = xq (ix3 (0 : Fin 1) r j) * (((1 / 8 : ℝ) : ℝ) : EReal) := by
  unfold k1_pay15
  show shapeCast S512x1024 xq shapeCasts_S1x512x1024_S512x1024 (ix2 r j) * Ideal.ofBits .f32 0x3E000000#32 = _
  rw [blk_cast_apply, ofBits_eighth]

/-- The key block at (r, j). -/
theorem k_apply (xk : Vec Ideal S1x512x1024 .bf16) (r : Fin 512) (j : Fin 1024) :
    k1_pay13 (F := Ideal) xk (ix2 r j) = xk (ix3 (0 : Fin 1) r j) := by
  unfold k1_pay13
  exact blk_cast_apply xk r j

/-- Head h's scores of the tile are the masked, scaled scores. -/
theorem sOf_apply (wq wk : BitVec 32) (hq : wq.toNat < 4) (hk : wk.toNat < 4) (xq xk : Vec Ideal S1x512x1024 .bf16)
    (h : Fin 16) (r c : Fin 512) :
    sOf (F := Ideal) wq wk xq xk h (ix2 r c) = tileS wq wk xq xk h r c := by
  unfold sOf headS tileS
  rw [select_apply, mask_apply wq wk hq hk, qk_apply]
  by_cases hm : wk.toNat * 512 + c.val ≤ wq.toNat * 512 + r.val
  · rw [if_pos hm, if_pos hm, select_one]
    refine Finset.sum_congr rfl fun d _ => ?_
    rw [headSl_apply, headSl_apply, q_apply, k_apply]
  · rw [if_neg hm, if_neg hm, select_zero]
    exact neg_big

/-! ## One head's statistics at an entry -/

section HeadStats

variable (m0 : Vec Ideal S512x16 .f32) (S : FVec Ideal S512x512 .f32) (h : Fin 16) (r : Fin 512)

/-- The new maximum of row r: the old one against the row's supremum. -/
theorem headM_apply :
    headM (F := Ideal) m0 S h (ix2 r (0 : Fin 1)) = Attn.stepM (m0 (ix2 r h)) (fun c => S (ix2 r c)) := by
  unfold headM Attn.stepM
  rw [maximumf_apply]
  exact congrArg₂ max (colSl_apply m0 h r) ((col_cast_apply _ r).trans (rowmax_apply S _ _ r))

/-- The rescaling factor of row r. -/
theorem headA_apply :
    headA (F := Ideal) m0 S h (ix2 r (0 : Fin 1)) = Attn.stepA (m0 (ix2 r h)) (fun c => S (ix2 r c)) := by
  unfold headA Attn.stepA
  show Ideal.exp (colSl m0 h (ix2 r (0 : Fin 1)) - headM m0 S h (ix2 r (0 : Fin 1))) = _
  rw [colSl_apply, headM_apply]

/-- The weight at (r, c). -/
theorem headP_apply (c : Fin 512) :
    headP (F := Ideal) m0 S h (ix2 r c) = Ideal.exp (S (ix2 r c) - Attn.stepM (m0 (ix2 r h)) (fun c => S (ix2 r c))) := by
  unfold headP
  show Ideal.exp (S (ix2 r c) - broadcastTo S512x512 (headM m0 S h) broadcasts_S512x1_S512x512 (ix2 r c)) = _
  rw [col_bcast_apply, headM_apply]

/-- The row sum of the weights of row r. -/
theorem headLadd_apply :
    headLadd (F := Ideal) m0 S h (ix2 r (0 : Fin 1))
      = ∑ c : Fin 512, Ideal.exp (S (ix2 r c) - Attn.stepM (m0 (ix2 r h)) (fun c => S (ix2 r c))) := by
  unfold headLadd
  refine ((col_cast_apply _ r).trans (rowsum_apply (headP m0 S h) _ _ r)).trans ?_
  exact Finset.sum_congr rfl fun c _ => headP_apply m0 S h r c

end HeadStats

/-! ## The weighted value sum and the per-head factor spread over the lanes -/

theorem pv_lhs_0 (j : S512x64.Idx) (q : dot_S512x512_S512x64_S512x64_1_0_0_1_n_n.contr.Idx) : (dot_S512x512_S512x64_S512x64_1_0_0_1_n_n.lhsIdx j q 0).val = (j 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem pv_lhs_1 (j : S512x64.Idx) (q : dot_S512x512_S512x64_S512x64_1_0_0_1_n_n.contr.Idx) : (dot_S512x512_S512x64_S512x64_1_0_0_1_n_n.lhsIdx j q 1).val = (q ⟨0, by decide⟩).val :=
  dot_S512x512_S512x64_S512x64_1_0_0_1_n_n.lhsIdx_val_of_single rfl j q
theorem pv_rhs_0 (j : S512x64.Idx) (q : dot_S512x512_S512x64_S512x64_1_0_0_1_n_n.contr.Idx) : (dot_S512x512_S512x64_S512x64_1_0_0_1_n_n.rhsIdx j q 0).val = (q ⟨0, by decide⟩).val :=
  dot_S512x512_S512x64_S512x64_1_0_0_1_n_n.rhsIdx_val_of_single rfl j q
theorem pv_rhs_1 (j : S512x64.Idx) (q : dot_S512x512_S512x64_S512x64_1_0_0_1_n_n.contr.Idx) : (dot_S512x512_S512x64_S512x64_1_0_0_1_n_n.rhsIdx j q 1).val = (j 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The weights against the value lanes into a zero accumulator: Σ_c P[r,c] · V[c,d]. -/
theorem pv_apply (P : FVec Ideal S512x512 .bf16) (V : FVec Ideal S512x64 .bf16) (r : Fin 512) (d : Fin 64) :
    matmul dot_S512x512_S512x64_S512x64_1_0_0_1_n_n none P V (constant (F := Ideal) S512x64 .f32 0x00000000#32) (ix2 r d) = ∑ c : Fin 512, P (ix2 r c) * V (ix2 c d) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r d) ((contrEquiv1 dot_S512x512_S512x64_S512x64_1_0_0_1_n_n 512 rfl rfl).symm k) = ix2 r k := funext fun a => Fin.ext (by
    match a with
    | ⟨0, _⟩ => exact pv_lhs_0 _ _
    | ⟨1, _⟩ => exact (pv_lhs_1 _ _).trans hk)
  have er : dot_S512x512_S512x64_S512x64_1_0_0_1_n_n.rhsIdx (ix2 r d) ((contrEquiv1 dot_S512x512_S512x64_S512x64_1_0_0_1_n_n 512 rfl rfl).symm k) = ix2 k d := funext fun a => Fin.ext (by
    match a with
    | ⟨0, _⟩ => exact (pv_rhs_0 _ _).trans hk
    | ⟨1, _⟩ => exact pv_rhs_1 _ _)
  rw [el, er]

/-- The value block at (c, j). -/
theorem v_apply (xv : Vec Ideal S1x512x1024 .bf16) (c : Fin 512) (j : Fin 1024) :
    k1_pay14 (F := Ideal) xv (ix2 c j) = xv (ix3 (0 : Fin 1) c j) := by
  unfold k1_pay14
  exact blk_cast_apply xv c j

/-- A feature is lane (j mod 64) of its own head. -/
theorem hcol_headOf (j : Fin 1024) : Attn.hcol (Attn.headOf j) (⟨j.val % 64, Nat.mod_lt _ (by decide)⟩ : Fin 64) = j := by
  refine Fin.ext ?_
  show j.val / 64 * 64 + j.val % 64 = j.val
  omega

/-- Head h's weighted value sum at (r, d). -/
theorem headPV_apply (m0 : Vec Ideal S512x16 .f32) (S : FVec Ideal S512x512 .f32) (vh : FVec Ideal S512x64 .bf16) (h : Fin 16)
    (r : Fin 512) (d : Fin 64) :
    headPV (F := Ideal) m0 S vh h (ix2 r d)
      = ∑ c : Fin 512, Ideal.exp (S (ix2 r c) - Attn.stepM (m0 (ix2 r h)) (fun c => S (ix2 r c))) * vh (ix2 c d) := by
  unfold headPV
  rw [pv_apply]
  refine Finset.sum_congr rfl fun c _ => ?_
  show headP m0 S h (ix2 r c) * vh (ix2 c d) = _
  rw [headP_apply]

/-- A per-head row statistic spread over the 64 lanes of each head, at feature j: the statistic of head j / 64. -/
theorem spread_apply {α : Type} (v : S512x16.Idx → α) (r : Fin 512) (j : Fin 1024) :
    shapeCast S512x1024
        (broadcastTo S512x16x64
          (shapeCast S512x16x1 (shapeCast S512x16x1 v shapeCasts_S512x16_S512x16x1) shapeCasts_S512x16x1_S512x16x1)
          broadcasts_S512x16x1_S512x16x64)
        shapeCasts_S512x16x64_S512x1024 (ix2 r j)
      = v (ix2 r (Attn.headOf j)) := by
  have hj := j.isLt
  refine (shapeCast_apply _ shapeCasts_S512x16x64_S512x1024 (ix2 r j)
    (ix3 r (Attn.headOf j) (⟨j.val % 64, Nat.mod_lt _ (by decide)⟩ : Fin 64)) (by
      rw [Shape.rowMajor_val_three, Shape.rowMajor_val_two]
      show (r.val * 16 + j.val / 64) * 64 + j.val % 64 = r.val * 1024 + j.val
      omega)).trans ?_
  refine (broadcastTo_apply _ broadcasts_S512x16x1_S512x16x64 _ (ix3 r (Attn.headOf j) (0 : Fin 1)) (fun a => match a with
    | ⟨0, _⟩ => by show r.val = if (512 : Nat) = 1 then 0 else r.val; rw [if_neg (by decide)]
    | ⟨1, _⟩ => by show j.val / 64 = if (16 : Nat) = 1 then 0 else j.val / 64; rw [if_neg (by decide)]
    | ⟨2, _⟩ => by show 0 = if (1 : Nat) = 1 then 0 else j.val % 64; rw [if_pos rfl])).trans ?_
  rw [shapeCast_self]
  exact shapeCast_apply v shapeCasts_S512x16_S512x16x1 (ix3 r (Attn.headOf j) (0 : Fin 1)) (ix2 r (Attn.headOf j)) (by
    rw [Shape.rowMajor_val_two, Shape.rowMajor_val_three]
    show r.val * 16 + j.val / 64 = (r.val * 16 + j.val / 64) * 1 + 0
    omega)

/-! ## The stored values at an entry -/

theorem newM_apply (wq wk : BitVec 32) (hq : wq.toNat < 4) (hk : wk.toNat < 4) (xq xk : Vec Ideal S1x512x1024 .bf16)
    (m0 : Vec Ideal S512x16 .f32) (r : Fin 512) (h : Fin 16) :
    newM (F := Ideal) wq wk xq xk m0 (ix2 r h) = Attn.stepM (m0 (ix2 r h)) (fun c => tileS wq wk xq xk h r c) := by
  rw [newM_eq, shapeCast_self, cols16_apply]
  unfold mPiece
  rw [headM_apply]
  exact congrArg (Attn.stepM (m0 (ix2 r h))) (funext fun c => sOf_apply wq wk hq hk xq xk h r c)

theorem newL_apply (wq wk : BitVec 32) (hq : wq.toNat < 4) (hk : wk.toNat < 4) (xq xk : Vec Ideal S1x512x1024 .bf16)
    (m0 l0 : Vec Ideal S512x16 .f32) (r : Fin 512) (h : Fin 16) :
    newL (F := Ideal) wq wk xq xk m0 l0 (ix2 r h)
      = Attn.stepL (m0 (ix2 r h)) (l0 (ix2 r h)) (fun c => tileS wq wk xq xk h r c) := by
  unfold newL k1_pay8
  rw [shapeCast_self, alphaAll_eq, laddAll_eq]
  show cols16 (aPiece wq wk xq xk m0) (ix2 r h) * l0 (ix2 r h) + cols16 (lPiece wq wk xq xk m0) (ix2 r h) = _
  rw [cols16_apply, cols16_apply]
  unfold aPiece lPiece Attn.stepL
  rw [headA_apply, headLadd_apply]
  have hs : (fun c : Fin 512 => sOf (F := Ideal) wq wk xq xk h (ix2 r c)) = fun c => tileS wq wk xq xk h r c :=
    funext fun c => sOf_apply wq wk hq hk xq xk h r c
  rw [hs]
  refine congrArg (_ + ·) (Finset.sum_congr rfl fun c _ => ?_)
  rw [sOf_apply wq wk hq hk]

theorem resetM_apply (r : Fin 512) (h : Fin 16) : k1_pay10 (F := Ideal) (ix2 r h) = (⊥ : EReal) := by
  unfold k1_pay10
  rw [shapeCast_self]
  exact ofBits_neg_inf

theorem resetL_apply (r : Fin 512) (h : Fin 16) : k1_pay11 (F := Ideal) (ix2 r h) = (0 : EReal) := by
  unfold k1_pay11
  rw [shapeCast_self]
  exact Ideal.ofBits_zero_f32

theorem resetAcc_apply (r : Fin 512) (j : Fin 1024) : k1_pay12 (F := Ideal) (ix2 r j) = (0 : EReal) := by
  unfold k1_pay12
  rw [shapeCast_self]
  exact Ideal.ofBits_zero_f32

theorem newAcc_apply (wq wk : BitVec 32) (hq : wq.toNat < 4) (hk : wk.toNat < 4) (xq xk xv : Vec Ideal S1x512x1024 .bf16)
    (m0 : Vec Ideal S512x16 .f32) (a0 : Vec Ideal S512x1024 .f32) (r : Fin 512) (j : Fin 1024) :
    newAcc (F := Ideal) wq wk xq xk xv m0 a0 (ix2 r j)
      = Attn.stepAcc (m0 (ix2 r (Attn.headOf j))) (a0 (ix2 r j)) (fun c => tileS wq wk xq xk (Attn.headOf j) r c)
          (fun c => xv (ix3 (0 : Fin 1) c j)) := by
  unfold newAcc k1_pay6
  rw [shapeCast_self, alphaAll_eq, pvAll_eq]
  show shapeCast S512x1024
        (broadcastTo S512x16x64
          (shapeCast S512x16x1 (shapeCast S512x16x1 (cols16 (aPiece wq wk xq xk m0)) shapeCasts_S512x16_S512x16x1) shapeCasts_S512x16x1_S512x16x1)
          broadcasts_S512x16x1_S512x16x64)
        shapeCasts_S512x16x64_S512x1024 (ix2 r j) * a0 (ix2 r j)
      + lanes16 (pvPiece wq wk xq xk xv m0) (ix2 r j) = _
  rw [spread_apply, cols16_apply, lanes16_apply]
  unfold aPiece pvPiece Attn.stepAcc
  rw [headA_apply, headPV_apply]
  have hs : (fun c : Fin 512 => sOf (F := Ideal) wq wk xq xk (Attn.headOf j) (ix2 r c)) = fun c => tileS wq wk xq xk (Attn.headOf j) r c :=
    funext fun c => sOf_apply wq wk hq hk xq xk (Attn.headOf j) r c
  rw [hs]
  refine congrArg (_ + ·) (Finset.sum_congr rfl fun c _ => ?_)
  rw [sOf_apply wq wk hq hk, headSl_apply, hcol_headOf, v_apply]

end Cert.KernelIdeal.HandValue

end
-- ==== Proof.R1StepAcc.lean ====
/-
  The running weighted sum one key tile leaves, and the closing projection of a finished row, each read at one entry
  of what the second kernel's body stores.
-/
import proofs.«405825_j40080634807018_3_alg».proof.Proof.R1Step
import Idealize.ShloMosaic.Lib.IdealHost

noncomputable section

namespace Cert.KernelIdeal.HandValue

open Cert.KernelIdeal Cert.KernelIdeal.Gen Idealize.ShloMosaic Idealize.ShloMosaic.ValueIdx
open scoped BigOperators

/-! ## The closing projection: a product contracting the 1024 features of both operands -/

theorem lhs_wo_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_wo_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_wo_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_wo_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product x · wᵀ onto a zero accumulator, at (r, e): Σ_k x[r, k] · w[e, k]. -/
theorem matmul_wo_apply (x : FVec Ideal S512x1024 .bf16) (w : FVec Ideal S1024x1024 .bf16) (r : Fin 512) (e : Fin 1024) :
    matmul dot_S512x1024_S1024x1024_S512x1024_1_1_0_0_n_n none x w (constant S512x1024 .f32 0x00000000#32) (ix2 r e)
      = ∑ k : Fin 1024, x (ix2 r k) * w (ix2 e k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r e) ((contrEquiv1 dot_S512x1024_S1024x1024_S512x1024_1_1_0_0_n_n 1024 rfl rfl).symm k) = ix2 r k := funext fun a => Fin.ext (by
    match a with
    | ⟨0, _⟩ => exact lhs_wo_0 _ _
    | ⟨1, _⟩ => exact (lhs_wo_1 _ _).trans hk)
  have er : dot_S512x1024_S1024x1024_S512x1024_1_1_0_0_n_n.rhsIdx (ix2 r e) ((contrEquiv1 dot_S512x1024_S1024x1024_S512x1024_1_1_0_0_n_n 1024 rfl rfl).symm k) = ix2 e k := funext fun a => Fin.ext (by
    match a with
    | ⟨0, _⟩ => exact rhs_wo_0 _ _
    | ⟨1, _⟩ => exact (rhs_wo_1 _ _).trans hk)
  rw [el, er]

/-- The output block at (0, r, e): the finished row's weighted sums, each divided by its head's denominator, against
    row e of the output weights. -/
theorem outBlk_apply' (l1 : Vec Ideal S512x16 .f32) (a1 : Vec Ideal S512x1024 .f32) (wo : Vec Ideal S1024x1024 .f32)
    (r : Fin 512) (e : Fin 1024) :
    outBlk (F := Ideal) l1 a1 wo (ix3 (0 : Fin 1) r e)
      = ∑ j : Fin 1024, (a1 (ix2 r j) * Ideal.div 1 (l1 (ix2 r (Attn.headOf j)))) * wo (ix2 e j) := by
  unfold outBlk k1_pay9
  rw [shapeCast_ab_1ab_apply, matmul_wo_apply]
  refine Finset.sum_congr rfl fun j _ => ?_
  rw [truncf_apply, truncf_apply, mulf_apply, spread_apply, divf_apply, broadcast_apply]
  show a1 (ix2 r j) * Ideal.div (Ideal.ofBits .f32 0x3F800000#32) (l1 (ix2 r (Attn.headOf j))) * wo (ix2 e j) = _
  rw [Ideal.ofBits_one_f32]

end Cert.KernelIdeal.HandValue

end
-- ==== Proof.R1Bridge.lean ====
/-
  What each case of the second kernel's body leaves in the three running buffers and in the output block, identified
  with the per-tile update and the closing projection written as compositions of the body's pure values.
-/
import proofs.«405825_j40080634807018_3_alg».proof.Proof.R1Dat
import proofs.«405825_j40080634807018_3_alg».proof.Proof.R1Step
import Idealize.ShloMosaic.Lib.Tactic

set_option maxRecDepth 16384

noncomputable section

namespace Cert.KernelIdeal.Hand

open Cert.KernelIdeal Cert.KernelIdeal.Gen Cert.KernelIdeal.HandValue
open Idealize.ShloMosaic Idealize.ShloMosaic.TcCoe Idealize.ShloMosaic.Tactic
open Idealize.SL Idealize.SL.Sem

/-- The zero offsets of a whole-buffer load or store, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Case C (the point ends a row: the update of what the point before left), running maximum. -/
theorem soutC_0_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) :
    soutC_0 c i arg4 harg4 arg5 harg5 arg6 harg6 arg7 harg7 arg8 harg8 arg9 harg9 arg10 harg10 arg11 harg11 x0 x1 x2 x3 xt0 xt1 xs0 xs1 xs2 hcR hcF = newM (wAt c i tbM1_0 xt0) (wAt c i tbM1_1 xt1) x0 x1 xs0 := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  have e9 : View.readAt (Elt FI) arg9.view (Rect.unit ![0, 0] S512x16.size inb_S512x16_S512x16_0_0).toLoadRect (harg9.unread xs0) = xs0 := by
    rw [View.readAt_eq_ld, harg9.read_unread]; exact View.ld_unit_zero (S := S512x16) hz2 _ _
  have e10 : View.readAt (Elt FI) arg10.view (Rect.unit ![0, 0] S512x16.size inb_S512x16_S512x16_0_0).toLoadRect (harg10.unread xs1) = xs1 := by
    rw [View.readAt_eq_ld, harg10.read_unread]; exact View.ld_unit_zero (S := S512x16) hz2 _ _
  have e11 : View.readAt (Elt FI) arg11.view (Rect.unit ![0, 0] S512x1024.size inb_S512x1024_S512x1024_0_0).toLoadRect (harg11.unread xs2) = xs2 := by
    rw [View.readAt_eq_ld, harg11.read_unread]; exact View.ld_unit_zero (S := S512x1024) hz2 _ _
  unfold soutC_0
  rw [View.read_writes_eq_canon _ _ _ (scoverC_0 c i arg4 harg4 arg5 harg5 arg6 harg6 arg7 harg7 arg8 harg8 arg9 harg9 arg10 harg10 arg11 harg11 x0 x1 x2 x3 xt0 xt1 xs0 xs1 xs2 hcR hcF)]
  unfold kernelRun1_C
  dsimp only
  sl_unfold_words
  first
    | rw [View.canon_unit_zero hz2]
    | rw [View.canon_cons_unit_zero (S := S512x16) hz2]
  repeat rw [View.readCov_cons_toLoadRect]
  try rw [e4]
  try rw [e5]
  try rw [e6]
  try rw [e7]
  try rw [e9]
  try rw [e10]
  try rw [e11]
  rfl

/-- Case C (the point ends a row: the update of what the point before left), running denominator. -/
theorem soutC_1_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) :
    soutC_1 c i arg4 harg4 arg5 harg5 arg6 harg6 arg7 harg7 arg8 harg8 arg9 harg9 arg10 harg10 arg11 harg11 x0 x1 x2 x3 xt0 xt1 xs0 xs1 xs2 hcR hcF = newL (wAt c i tbM1_0 xt0) (wAt c i tbM1_1 xt1) x0 x1 xs0 xs1 := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  have e9 : View.readAt (Elt FI) arg9.view (Rect.unit ![0, 0] S512x16.size inb_S512x16_S512x16_0_0).toLoadRect (harg9.unread xs0) = xs0 := by
    rw [View.readAt_eq_ld, harg9.read_unread]; exact View.ld_unit_zero (S := S512x16) hz2 _ _
  have e10 : View.readAt (Elt FI) arg10.view (Rect.unit ![0, 0] S512x16.size inb_S512x16_S512x16_0_0).toLoadRect (harg10.unread xs1) = xs1 := by
    rw [View.readAt_eq_ld, harg10.read_unread]; exact View.ld_unit_zero (S := S512x16) hz2 _ _
  have e11 : View.readAt (Elt FI) arg11.view (Rect.unit ![0, 0] S512x1024.size inb_S512x1024_S512x1024_0_0).toLoadRect (harg11.unread xs2) = xs2 := by
    rw [View.readAt_eq_ld, harg11.read_unread]; exact View.ld_unit_zero (S := S512x1024) hz2 _ _
  unfold soutC_1
  rw [View.read_writes_eq_canon _ _ _ (scoverC_1 c i arg4 harg4 arg5 harg5 arg6 harg6 arg7 harg7 arg8 harg8 arg9 harg9 arg10 harg10 arg11 harg11 x0 x1 x2 x3 xt0 xt1 xs0 xs1 xs2 hcR hcF)]
  unfold kernelRun1_C
  dsimp only
  sl_unfold_words
  first
    | rw [View.canon_unit_zero hz2]
    | rw [View.canon_cons_unit_zero (S := S512x16) hz2]
  repeat rw [View.readCov_cons_toLoadRect]
  try rw [e4]
  try rw [e5]
  try rw [e6]
  try rw [e7]
  try rw [e9]
  try rw [e10]
  try rw [e11]
  rfl

/-- Case C (the point ends a row: the update of what the point before left), running weighted sum. -/
theorem soutC_2_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) :
    soutC_2 c i arg4 harg4 arg5 harg5 arg6 harg6 arg7 harg7 arg8 harg8 arg9 harg9 arg10 harg10 arg11 harg11 x0 x1 x2 x3 xt0 xt1 xs0 xs1 xs2 hcR hcF = newAcc (wAt c i tbM1_0 xt0) (wAt c i tbM1_1 xt1) x0 x1 x2 xs0 xs2 := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  have e9 : View.readAt (Elt FI) arg9.view (Rect.unit ![0, 0] S512x16.size inb_S512x16_S512x16_0_0).toLoadRect (harg9.unread xs0) = xs0 := by
    rw [View.readAt_eq_ld, harg9.read_unread]; exact View.ld_unit_zero (S := S512x16) hz2 _ _
  have e10 : View.readAt (Elt FI) arg10.view (Rect.unit ![0, 0] S512x16.size inb_S512x16_S512x16_0_0).toLoadRect (harg10.unread xs1) = xs1 := by
    rw [View.readAt_eq_ld, harg10.read_unread]; exact View.ld_unit_zero (S := S512x16) hz2 _ _
  have e11 : View.readAt (Elt FI) arg11.view (Rect.unit ![0, 0] S512x1024.size inb_S512x1024_S512x1024_0_0).toLoadRect (harg11.unread xs2) = xs2 := by
    rw [View.readAt_eq_ld, harg11.read_unread]; exact View.ld_unit_zero (S := S512x1024) hz2 _ _
  unfold soutC_2
  rw [View.read_writes_eq_canon _ _ _ (scoverC_2 c i arg4 harg4 arg5 harg5 arg6 harg6 arg7 harg7 arg8 harg8 arg9 harg9 arg10 harg10 arg11 harg11 x0 x1 x2 x3 xt0 xt1 xs0 xs1 xs2 hcR hcF)]
  unfold kernelRun1_C
  dsimp only
  sl_unfold_words
  first
    | rw [View.canon_unit_zero hz2]
    | rw [View.canon_cons_unit_zero (S := S512x1024) hz2]
  repeat rw [View.readCov_cons_toLoadRect]
  try rw [e4]
  try rw [e5]
  try rw [e6]
  try rw [e7]
  try rw [e9]
  try rw [e10]
  try rw [e11]
  rfl

/-- Case C (the point ends a row: the update of what the point before left), output block: the closing projection of the row's final denominator and weighted sum. -/
theorem outC_4_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : condF (wAt c i tbM1_0 xt0) (wAt c i tbM1_1 xt1)) :
    outC_4 c i arg4 harg4 arg5 harg5 arg6 harg6 arg7 harg7 arg8 harg8 arg9 harg9 arg10 harg10 arg11 harg11 x0 x1 x2 x3 xt0 xt1 xs0 xs1 xs2 hcR hcF = outBlk (newL (wAt c i tbM1_0 xt0) (wAt c i tbM1_1 xt1) x0 x1 xs0 xs1) (newAcc (wAt c i tbM1_0 xt0) (wAt c i tbM1_1 xt1) x0 x1 x2 xs0 xs2) x3 := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  have e9 : View.readAt (Elt FI) arg9.view (Rect.unit ![0, 0] S512x16.size inb_S512x16_S512x16_0_0).toLoadRect (harg9.unread xs0) = xs0 := by
    rw [View.readAt_eq_ld, harg9.read_unread]; exact View.ld_unit_zero (S := S512x16) hz2 _ _
  have e10 : View.readAt (Elt FI) arg10.view (Rect.unit ![0, 0] S512x16.size inb_S512x16_S512x16_0_0).toLoadRect (harg10.unread xs1) = xs1 := by
    rw [View.readAt_eq_ld, harg10.read_unread]; exact View.ld_unit_zero (S := S512x16) hz2 _ _
  have e11 : View.readAt (Elt FI) arg11.view (Rect.unit ![0, 0] S512x1024.size inb_S512x1024_S512x1024_0_0).toLoadRect (harg11.unread xs2) = xs2 := by
    rw [View.readAt_eq_ld, harg11.read_unread]; exact View.ld_unit_zero (S := S512x1024) hz2 _ _
  unfold outC_4
  rw [View.read_writes_eq_canon _ _ _ (coverC_4 c i arg4 harg4 arg5 harg5 arg6 harg6 arg7 harg7 arg8 harg8 arg9 harg9 arg10 harg10 arg11 harg11 x0 x1 x2 x3 xt0 xt1 xs0 xs1 xs2 hcR hcF)]
  unfold kernelRun1_C
  dsimp only
  sl_unfold_words
  first
    | rw [View.canon_unit_zero hz3]
    | rw [View.canon_cons_unit_zero (S := S1x512x1024) hz3]
  repeat rw [View.readCov_cons_toLoadRect]
  try rw [e4]
  try rw [e5]
  try rw [e6]
  try rw [e7]
  try rw [e9]
  try rw [e10]
  try rw [e11]
  rfl

/-- Case D (the update of what the point before left), running maximum. -/
theorem soutD_0_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : ¬condF (wAt c i tbM1_0 xt0) (wAt c i tbM1_1 xt1)) :
    soutD_0 c i arg4 harg4 arg5 harg5 arg6 harg6 arg7 harg7 arg8 harg8 arg9 harg9 arg10 harg10 arg11 harg11 x0 x1 x2 x3 x4 xt0 xt1 xs0 xs1 xs2 hcR hcF = newM (wAt c i tbM1_0 xt0) (wAt c i tbM1_1 xt1) x0 x1 xs0 := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  have e9 : View.readAt (Elt FI) arg9.view (Rect.unit ![0, 0] S512x16.size inb_S512x16_S512x16_0_0).toLoadRect (harg9.unread xs0) = xs0 := by
    rw [View.readAt_eq_ld, harg9.read_unread]; exact View.ld_unit_zero (S := S512x16) hz2 _ _
  have e10 : View.readAt (Elt FI) arg10.view (Rect.unit ![0, 0] S512x16.size inb_S512x16_S512x16_0_0).toLoadRect (harg10.unread xs1) = xs1 := by
    rw [View.readAt_eq_ld, harg10.read_unread]; exact View.ld_unit_zero (S := S512x16) hz2 _ _
  have e11 : View.readAt (Elt FI) arg11.view (Rect.unit ![0, 0] S512x1024.size inb_S512x1024_S512x1024_0_0).toLoadRect (harg11.unread xs2) = xs2 := by
    rw [View.readAt_eq_ld, harg11.read_unread]; exact View.ld_unit_zero (S := S512x1024) hz2 _ _
  unfold soutD_0
  rw [View.read_writes_eq_canon _ _ _ (scoverD_0 c i arg4 harg4 arg5 harg5 arg6 harg6 arg7 harg7 arg8 harg8 arg9 harg9 arg10 harg10 arg11 harg11 x0 x1 x2 x3 x4 xt0 xt1 xs0 xs1 xs2 hcR hcF)]
  unfold kernelRun1_D
  dsimp only
  sl_unfold_words
  first
    | rw [View.canon_unit_zero hz2]
    | rw [View.canon_cons_unit_zero (S := S512x16) hz2]
  repeat rw [View.readCov_cons_toLoadRect]
  try rw [e4]
  try rw [e5]
  try rw [e6]
  try rw [e7]
  try rw [e9]
  try rw [e10]
  try rw [e11]
  rfl

/-- Case D (the update of what the point before left), running denominator. -/
theorem soutD_1_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : ¬condF (wAt c i tbM1_0 xt0) (wAt c i tbM1_1 xt1)) :
    soutD_1 c i arg4 harg4 arg5 harg5 arg6 harg6 arg7 harg7 arg8 harg8 arg9 harg9 arg10 harg10 arg11 harg11 x0 x1 x2 x3 x4 xt0 xt1 xs0 xs1 xs2 hcR hcF = newL (wAt c i tbM1_0 xt0) (wAt c i tbM1_1 xt1) x0 x1 xs0 xs1 := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  have e9 : View.readAt (Elt FI) arg9.view (Rect.unit ![0, 0] S512x16.size inb_S512x16_S512x16_0_0).toLoadRect (harg9.unread xs0) = xs0 := by
    rw [View.readAt_eq_ld, harg9.read_unread]; exact View.ld_unit_zero (S := S512x16) hz2 _ _
  have e10 : View.readAt (Elt FI) arg10.view (Rect.unit ![0, 0] S512x16.size inb_S512x16_S512x16_0_0).toLoadRect (harg10.unread xs1) = xs1 := by
    rw [View.readAt_eq_ld, harg10.read_unread]; exact View.ld_unit_zero (S := S512x16) hz2 _ _
  have e11 : View.readAt (Elt FI) arg11.view (Rect.unit ![0, 0] S512x1024.size inb_S512x1024_S512x1024_0_0).toLoadRect (harg11.unread xs2) = xs2 := by
    rw [View.readAt_eq_ld, harg11.read_unread]; exact View.ld_unit_zero (S := S512x1024) hz2 _ _
  unfold soutD_1
  rw [View.read_writes_eq_canon _ _ _ (scoverD_1 c i arg4 harg4 arg5 harg5 arg6 harg6 arg7 harg7 arg8 harg8 arg9 harg9 arg10 harg10 arg11 harg11 x0 x1 x2 x3 x4 xt0 xt1 xs0 xs1 xs2 hcR hcF)]
  unfold kernelRun1_D
  dsimp only
  sl_unfold_words
  first
    | rw [View.canon_unit_zero hz2]
    | rw [View.canon_cons_unit_zero (S := S512x16) hz2]
  repeat rw [View.readCov_cons_toLoadRect]
  try rw [e4]
  try rw [e5]
  try rw [e6]
  try rw [e7]
  try rw [e9]
  try rw [e10]
  try rw [e11]
  rfl

/-- Case D (the update of what the point before left), running weighted sum. -/
theorem soutD_2_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (xs0 xs1 : Vec FI S512x16 .f32) (xs2 : Vec FI S512x1024 .f32) (hcR : ¬condR (wAt c i tbM1_1 xt1)) (hcF : ¬condF (wAt c i tbM1_0 xt0) (wAt c i tbM1_1 xt1)) :
    soutD_2 c i arg4 harg4 arg5 harg5 arg6 harg6 arg7 harg7 arg8 harg8 arg9 harg9 arg10 harg10 arg11 harg11 x0 x1 x2 x3 x4 xt0 xt1 xs0 xs1 xs2 hcR hcF = newAcc (wAt c i tbM1_0 xt0) (wAt c i tbM1_1 xt1) x0 x1 x2 xs0 xs2 := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  have e9 : View.readAt (Elt FI) arg9.view (Rect.unit ![0, 0] S512x16.size inb_S512x16_S512x16_0_0).toLoadRect (harg9.unread xs0) = xs0 := by
    rw [View.readAt_eq_ld, harg9.read_unread]; exact View.ld_unit_zero (S := S512x16) hz2 _ _
  have e10 : View.readAt (Elt FI) arg10.view (Rect.unit ![0, 0] S512x16.size inb_S512x16_S512x16_0_0).toLoadRect (harg10.unread xs1) = xs1 := by
    rw [View.readAt_eq_ld, harg10.read_unread]; exact View.ld_unit_zero (S := S512x16) hz2 _ _
  have e11 : View.readAt (Elt FI) arg11.view (Rect.unit ![0, 0] S512x1024.size inb_S512x1024_S512x1024_0_0).toLoadRect (harg11.unread xs2) = xs2 := by
    rw [View.readAt_eq_ld, harg11.read_unread]; exact View.ld_unit_zero (S := S512x1024) hz2 _ _
  unfold soutD_2
  rw [View.read_writes_eq_canon _ _ _ (scoverD_2 c i arg4 harg4 arg5 harg5 arg6 harg6 arg7 harg7 arg8 harg8 arg9 harg9 arg10 harg10 arg11 harg11 x0 x1 x2 x3 x4 xt0 xt1 xs0 xs1 xs2 hcR hcF)]
  unfold kernelRun1_D
  dsimp only
  sl_unfold_words
  first
    | rw [View.canon_unit_zero hz2]
    | rw [View.canon_cons_unit_zero (S := S512x1024) hz2]
  repeat rw [View.readCov_cons_toLoadRect]
  try rw [e4]
  try rw [e5]
  try rw [e6]
  try rw [e7]
  try rw [e9]
  try rw [e10]
  try rw [e11]
  rfl

/-- Case A (the point starts and ends a row: the update of the reset values), running maximum. -/
theorem soutA_0_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) :
    soutA_0 c i arg4 harg4 arg5 harg5 arg6 harg6 arg7 harg7 arg8 harg8 arg9 harg9 arg10 harg10 arg11 harg11 x0 x1 x2 x3 xt0 xt1 hcR hcF = newM (wAt c i tbM1_0 xt0) (wAt c i tbM1_1 xt1) x0 x1 (k1_pay10 (F := FI)) := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  unfold soutA_0
  rw [View.read_writes_eq_canon _ _ _ (scoverA_0 c i arg4 harg4 arg5 harg5 arg6 harg6 arg7 harg7 arg8 harg8 arg9 harg9 arg10 harg10 arg11 harg11 x0 x1 x2 x3 xt0 xt1 hcR hcF)]
  unfold kernelRun1_A
  dsimp only
  sl_unfold_words
  first
    | rw [View.canon_unit_zero hz2]
    | rw [View.canon_cons_unit_zero (S := S512x16) hz2]
  repeat rw [View.readCov_cons_toLoadRect]
  try rw [e4]
  try rw [e5]
  try rw [e6]
  try rw [e7]
  rfl

/-- Case A (the point starts and ends a row: the update of the reset values), running denominator. -/
theorem soutA_1_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) :
    soutA_1 c i arg4 harg4 arg5 harg5 arg6 harg6 arg7 harg7 arg8 harg8 arg9 harg9 arg10 harg10 arg11 harg11 x0 x1 x2 x3 xt0 xt1 hcR hcF = newL (wAt c i tbM1_0 xt0) (wAt c i tbM1_1 xt1) x0 x1 (k1_pay10 (F := FI)) (k1_pay11 (F := FI)) := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  unfold soutA_1
  rw [View.read_writes_eq_canon _ _ _ (scoverA_1 c i arg4 harg4 arg5 harg5 arg6 harg6 arg7 harg7 arg8 harg8 arg9 harg9 arg10 harg10 arg11 harg11 x0 x1 x2 x3 xt0 xt1 hcR hcF)]
  unfold kernelRun1_A
  dsimp only
  sl_unfold_words
  first
    | rw [View.canon_unit_zero hz2]
    | rw [View.canon_cons_unit_zero (S := S512x16) hz2]
  repeat rw [View.readCov_cons_toLoadRect]
  try rw [e4]
  try rw [e5]
  try rw [e6]
  try rw [e7]
  rfl

/-- Case A (the point starts and ends a row: the update of the reset values), running weighted sum. -/
theorem soutA_2_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) :
    soutA_2 c i arg4 harg4 arg5 harg5 arg6 harg6 arg7 harg7 arg8 harg8 arg9 harg9 arg10 harg10 arg11 harg11 x0 x1 x2 x3 xt0 xt1 hcR hcF = newAcc (wAt c i tbM1_0 xt0) (wAt c i tbM1_1 xt1) x0 x1 x2 (k1_pay10 (F := FI)) (k1_pay12 (F := FI)) := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  unfold soutA_2
  rw [View.read_writes_eq_canon _ _ _ (scoverA_2 c i arg4 harg4 arg5 harg5 arg6 harg6 arg7 harg7 arg8 harg8 arg9 harg9 arg10 harg10 arg11 harg11 x0 x1 x2 x3 xt0 xt1 hcR hcF)]
  unfold kernelRun1_A
  dsimp only
  sl_unfold_words
  first
    | rw [View.canon_unit_zero hz2]
    | rw [View.canon_cons_unit_zero (S := S512x1024) hz2]
  repeat rw [View.readCov_cons_toLoadRect]
  try rw [e4]
  try rw [e5]
  try rw [e6]
  try rw [e7]
  rfl

/-- Case A (the point starts and ends a row: the update of the reset values), output block: the closing projection of the row's final denominator and weighted sum. -/
theorem outA_4_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (xt0 : TbBuf1 (F := FI) c tbM1_0) (xt1 : TbBuf1 (F := FI) c tbM1_1) (hcR : condR (wAt c i tbM1_1 xt1)) (hcF : condF (wAt c i tbM1_0 xt0) (wAt c i tbM1_1 xt1)) :
    outA_4 c i arg4 harg4 arg5 harg5 arg6 harg6 arg7 harg7 arg8 harg8 arg9 harg9 arg10 harg10 arg11 harg11 x0 x1 x2 x3 xt0 xt1 hcR hcF = outBlk (newL (wAt c i tbM1_0 xt0) (wAt c i tbM1_1 xt1) x0 x1 (k1_pay10 (F := FI)) (k1_pay11 (F := FI))) (newAcc (wAt c i tbM1_0 xt0) (wAt c i tbM1_1 xt1) x0 x1 x2 (k1_pay10 (F := FI)) (k1_pay12 (F := FI))) x3 := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  unfold outA_4
  rw [View.read_writes_eq_canon _ _ _ (coverA_4 c i arg4 harg4 arg5 harg5 arg6 harg6 arg7 harg7 arg8 harg8 arg9 harg9 arg10 harg10 arg11 harg11 x0 x1 x2 x3 xt0 xt1 hcR hcF)]
  unfold kernelRun1_A
  dsimp only
  sl_unfold_words
  first
    | rw [View.canon_unit_zero hz3]
    | rw [View.canon_cons_unit_zero (S := S1x512x1024) hz3]
  repeat rw [View.readCov_cons_toLoadRect]
  try rw [e4]
  try rw [e5]
  try rw [e6]
  try rw [e7]
  rfl

/-- Case B (the point starts a row: the update of the reset values), running maximum. -/
theorem soutB_0_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (hcR : condR (wAt c i tbM1_1 xt1)) (hcF : ¬condF (wAt c i tbM1_0 xt0) (wAt c i tbM1_1 xt1)) :
    soutB_0 c i arg4 harg4 arg5 harg5 arg6 harg6 arg7 harg7 arg8 harg8 arg9 harg9 arg10 harg10 arg11 harg11 x0 x1 x2 x3 x4 xt0 xt1 hcR hcF = newM (wAt c i tbM1_0 xt0) (wAt c i tbM1_1 xt1) x0 x1 (k1_pay10 (F := FI)) := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  unfold soutB_0
  rw [View.read_writes_eq_canon _ _ _ (scoverB_0 c i arg4 harg4 arg5 harg5 arg6 harg6 arg7 harg7 arg8 harg8 arg9 harg9 arg10 harg10 arg11 harg11 x0 x1 x2 x3 x4 xt0 xt1 hcR hcF)]
  unfold kernelRun1_B
  dsimp only
  sl_unfold_words
  first
    | rw [View.canon_unit_zero hz2]
    | rw [View.canon_cons_unit_zero (S := S512x16) hz2]
  repeat rw [View.readCov_cons_toLoadRect]
  try rw [e4]
  try rw [e5]
  try rw [e6]
  try rw [e7]
  rfl

/-- Case B (the point starts a row: the update of the reset values), running denominator. -/
theorem soutB_1_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (hcR : condR (wAt c i tbM1_1 xt1)) (hcF : ¬condF (wAt c i tbM1_0 xt0) (wAt c i tbM1_1 xt1)) :
    soutB_1 c i arg4 harg4 arg5 harg5 arg6 harg6 arg7 harg7 arg8 harg8 arg9 harg9 arg10 harg10 arg11 harg11 x0 x1 x2 x3 x4 xt0 xt1 hcR hcF = newL (wAt c i tbM1_0 xt0) (wAt c i tbM1_1 xt1) x0 x1 (k1_pay10 (F := FI)) (k1_pay11 (F := FI)) := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  unfold soutB_1
  rw [View.read_writes_eq_canon _ _ _ (scoverB_1 c i arg4 harg4 arg5 harg5 arg6 harg6 arg7 harg7 arg8 harg8 arg9 harg9 arg10 harg10 arg11 harg11 x0 x1 x2 x3 x4 xt0 xt1 hcR hcF)]
  unfold kernelRun1_B
  dsimp only
  sl_unfold_words
  first
    | rw [View.canon_unit_zero hz2]
    | rw [View.canon_cons_unit_zero (S := S512x16) hz2]
  repeat rw [View.readCov_cons_toLoadRect]
  try rw [e4]
  try rw [e5]
  try rw [e6]
  try rw [e7]
  rfl

/-- Case B (the point starts a row: the update of the reset values), running weighted sum. -/
theorem soutB_2_eq (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .f32) (harg7 : arg7.IsWhole) (arg8 : Memref sig .tc .vmem S1x512x1024 .f32) (harg8 : arg8.IsWhole) (arg9 : Memref sig .tc .vmem S512x16 .f32) (harg9 : arg9.IsWhole) (arg10 : Memref sig .tc .vmem S512x16 .f32) (harg10 : arg10.IsWhole) (arg11 : Memref sig .tc .vmem S512x1024 .f32) (harg11 : arg11.IsWhole)
    (x0 x1 x2 : Vec FI S1x512x1024 .bf16) (x3 : Vec FI S1024x1024 .f32) (x4 : Vec FI S1x512x1024 .f32) (xt0 : TbBuf1 (F := FI) c tbM1_0) (xt1 : TbBuf1 (F := FI) c tbM1_1) (hcR : condR (wAt c i tbM1_1 xt1)) (hcF : ¬condF (wAt c i tbM1_0 xt0) (wAt c i tbM1_1 xt1)) :
    soutB_2 c i arg4 harg4 arg5 harg5 arg6 harg6 arg7 harg7 arg8 harg8 arg9 harg9 arg10 harg10 arg11 harg11 x0 x1 x2 x3 x4 xt0 xt1 hcR hcF = newAcc (wAt c i tbM1_0 xt0) (wAt c i tbM1_1 xt1) x0 x1 x2 (k1_pay10 (F := FI)) (k1_pay12 (F := FI)) := by
  have e4 : View.readAt (Elt FI) arg4.view (Rect.unit ![0, 0, 0] S1x512x1024.size inb_S1x512x1024_S1x512x1024_0_0_0).toLoadRect (harg4.unread x0) = x0 := by
    rw [View.readAt_eq_ld, harg4.read_unread]; exact View.ld_unit_zero (S := S1x512x1024) hz3 _ _
  have e5 : View.readAt (Elt FI) arg5.view (Rect.unit ![0, 0, 0] S1x512x1024.size inb_S1x512x1024_S1x512x1024_0_0_0).toLoadRect (harg5.unread x1) = x1 := by
    rw [View.readAt_eq_ld, harg5.read_unread]; exact View.ld_unit_zero (S := S1x512x1024) hz3 _ _
  have e6 : View.readAt (Elt FI) arg6.view (Rect.unit ![0, 0, 0] S1x512x1024.size inb_S1x512x1024_S1x512x1024_0_0_0).toLoadRect (harg6.unread x2) = x2 := by
    rw [View.readAt_eq_ld, harg6.read_unread]; exact View.ld_unit_zero (S := S1x512x1024) hz3 _ _
  have e7 : View.readAt (Elt FI) arg7.view (Rect.unit ![0, 0] S1024x1024.size inb_S1024x1024_S1024x1024_0_0).toLoadRect (harg7.unread x3) = x3 := by
    rw [View.readAt_eq_ld, harg7.read_unread]; exact View.ld_unit_zero (S := S1024x1024) hz2 _ _
  unfold soutB_2
  rw [View.read_writes_eq_canon _ _ _ (scoverB_2 c i arg4 harg4 arg5 harg5 arg6 harg6 arg7 harg7 arg8 harg8 arg9 harg9 arg10 harg10 arg11 harg11 x0 x1 x2 x3 x4 xt0 xt1 hcR hcF)]
  unfold kernelRun1_B
  dsimp only
  sl_unfold_words
  first
    | rw [View.canon_unit_zero hz2]
    | rw [View.canon_cons_unit_zero (S := S512x1024) hz2]
  repeat rw [View.readCov_cons_toLoadRect]
  try rw [e4]
  try rw [e5]
  try rw [e6]
  try rw [e7]
  rfl

end Cert.KernelIdeal.Hand

end
-- ==== Proof.R1Value.lean ====
/-
  The value of the second pallas_call: after the region its result array holds the output projection of the causal
  attention context of the three column blocks (queries, keys, values) of the array the first pallas_call wrote.
-/
import proofs.«405825_j40080634807018_3_alg».proof.Proof.R1Dat
import proofs.«405825_j40080634807018_3_alg».proof.Proof.R1Step
import proofs.«405825_j40080634807018_3_alg».proof.Proof.R1StepAcc
import proofs.«405825_j40080634807018_3_alg».proof.Proof.R1Bridge
import proofs.«405825_j40080634807018_3_alg».proof.Proof.Online
import proofs.«405825_j40080634807018_3_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.HandValue
open Idealize.ShloMosaic Idealize.ShloMosaic.TcCoe Idealize.SL.Sem Idealize.ShloMosaic.ValueIdx
open Idealize.ShloMosaic.Pipeline (Dat)

/-! ## The schedule, position by position -/

/-- The query tile of schedule position s. -/
def qiN (s : ℕ) : ℕ := match s with | 0 => 0 | 1 => 1 | 2 => 1 | 3 => 2 | 4 => 2 | 5 => 2 | _ => 3
/-- The key tile of schedule position s. -/
def kiN (s : ℕ) : ℕ := match s with | 0 => 0 | 1 => 0 | 2 => 1 | 3 => 0 | 4 => 1 | 5 => 2 | 6 => 0 | 7 => 1 | 8 => 2 | _ => 3

theorem qiN_lt (s : ℕ) : qiN s < 4 := by unfold qiN; split <;> decide
theorem kiN_lt (s : ℕ) : kiN s < 4 := by unfold kiN; split <;> decide

/-- The windows' block indices over the 40 points: batch entry t / 10 on the first axis; the query tile (windows 0
    and 4) or the key tile (windows 1 and 2) of position t mod 10 on the second; the column block 0, 1, 2 of the
    query, key and value columns on the third; the output weights whole. -/
theorem idx_facts1 : ∀ t : Fin cfgL.N,
    (cfgL.win 0).index t (0 : Fin 3) = t.val / 10 ∧ (cfgL.win 0).index t (1 : Fin 3) = qiN (t.val % 10) ∧ (cfgL.win 0).index t (2 : Fin 3) = 0
    ∧ (cfgL.win 1).index t (0 : Fin 3) = t.val / 10 ∧ (cfgL.win 1).index t (1 : Fin 3) = kiN (t.val % 10) ∧ (cfgL.win 1).index t (2 : Fin 3) = 1
    ∧ (cfgL.win 2).index t (0 : Fin 3) = t.val / 10 ∧ (cfgL.win 2).index t (1 : Fin 3) = kiN (t.val % 10) ∧ (cfgL.win 2).index t (2 : Fin 3) = 2
    ∧ (cfgL.win 3).index t (0 : Fin 2) = 0 ∧ (cfgL.win 3).index t (1 : Fin 2) = 0
    ∧ (cfgL.win 4).index t (0 : Fin 3) = t.val / 10 ∧ (cfgL.win 4).index t (1 : Fin 3) = qiN (t.val % 10) ∧ (cfgL.win 4).index t (2 : Fin 3) = 0 := by
  decide +kernel

/-- The two words the body reads at a point are the tiles of its position. -/
theorem word_facts : ∀ (c : Dev nD) (t : Fin cfgL.N),
    (wqL c t).toNat = qiN (t.val % 10) ∧ (wkL c t).toNat = kiN (t.val % 10) := by
  decide +kernel

/-! ## The arrays the region finds, by coordinates -/

section Region

variable (V : (c : Dev nD) → (b : Ref sig .tc) → Buf (Elt FI) ((c : Thread nD τ).loc b))

/-- The array of the three projections side by side, read at an index of the literal shape. -/
abbrev qkvArr (c : Dev nD) : S4x2048x3072.Idx → EReal := V c main_v2
/-- The output weights, read at an index of the literal shape. -/
abbrev woArr (c : Dev nD) : S1024x1024.Idx → EReal := V c main_arg4

/-- The queries: columns 0 … 1023. -/
def Qa (c : Dev nD) : Attn.Arr3 := fun b s j => qkvArr V c (ix3 b s (⟨j.val, by have := j.isLt; omega⟩ : Fin 3072))
/-- The keys: columns 1024 … 2047. -/
def Ka (c : Dev nD) : Attn.Arr3 := fun b s j => qkvArr V c (ix3 b s (⟨1024 + j.val, by have := j.isLt; omega⟩ : Fin 3072))
/-- The values: columns 2048 … 3071. -/
def Va (c : Dev nD) : Attn.Arr3 := fun b s j => qkvArr V c (ix3 b s (⟨2048 + j.val, by have := j.isLt; omega⟩ : Fin 3072))
/-- The output weights as a matrix. -/
def Woa (c : Dev nD) : Attn.Mat := Attn.mat (woArr V c)

/-! ## The blocks at a point, as entries of the arrays -/

/-- The query block at point t is rows qi·512 … of batch entry t / 10 of the queries. -/
theorem qblk_apply (c : Dev nD) (t : Fin cfgL.N) (r : Fin 512) (j : Fin 1024) (b : Fin 4) (q : Fin 2048)
    (hb : b.val = t.val / 10) (hq : q.val = qiN (t.val % 10) * 512 + r.val) :
    (iblk1 V c 0 t : Vec FI S1x512x1024 .bf16) (ix3 (0 : Fin 1) r j) = Qa V c b q j := by
  obtain ⟨e0, e1, e2, -⟩ := idx_facts1 t
  unfold iblk1 Qa
  rw [View.read_apply]
  show V c main_v2 _ = V c main_v2 _
  refine congrArg _ ?_
  funext a
  apply Fin.ext
  match a with
  | ⟨0, _⟩ => show (cfgL.win 0).index t (0 : Fin 3) * 1 + 1 * 0 = b.val; rw [e0, hb]; omega
  | ⟨1, _⟩ => show (cfgL.win 0).index t (1 : Fin 3) * 512 + 1 * r.val = q.val; rw [e1, hq]; omega
  | ⟨2, _⟩ => show (cfgL.win 0).index t (2 : Fin 3) * 1024 + 1 * j.val = j.val; rw [e2]; omega

/-- The key block at point t is rows ki·512 … of the keys. -/
theorem kblk_apply (c : Dev nD) (t : Fin cfgL.N) (r : Fin 512) (j : Fin 1024) (b : Fin 4) (k : Fin 2048)
    (hb : b.val = t.val / 10) (hk : k.val = kiN (t.val % 10) * 512 + r.val) :
    (iblk1 V c 1 t : Vec FI S1x512x1024 .bf16) (ix3 (0 : Fin 1) r j) = Ka V c b k j := by
  obtain ⟨-, -, -, e0, e1, e2, -⟩ := idx_facts1 t
  unfold iblk1 Ka
  rw [View.read_apply]
  show V c main_v2 _ = V c main_v2 _
  refine congrArg _ ?_
  funext a
  apply Fin.ext
  match a with
  | ⟨0, _⟩ => show (cfgL.win 1).index t (0 : Fin 3) * 1 + 1 * 0 = b.val; rw [e0, hb]; omega
  | ⟨1, _⟩ => show (cfgL.win 1).index t (1 : Fin 3) * 512 + 1 * r.val = k.val; rw [e1, hk]; omega
  | ⟨2, _⟩ => show (cfgL.win 1).index t (2 : Fin 3) * 1024 + 1 * j.val = 1024 + j.val; rw [e2]; omega

/-- The value block at point t is rows ki·512 … of the values. -/
theorem vblk_apply (c : Dev nD) (t : Fin cfgL.N) (r : Fin 512) (j : Fin 1024) (b : Fin 4) (k : Fin 2048)
    (hb : b.val = t.val / 10) (hk : k.val = kiN (t.val % 10) * 512 + r.val) :
    (iblk1 V c 2 t : Vec FI S1x512x1024 .bf16) (ix3 (0 : Fin 1) r j) = Va V c b k j := by
  obtain ⟨-, -, -, -, -, -, e0, e1, e2, -⟩ := idx_facts1 t
  unfold iblk1 Va
  rw [View.read_apply]
  show V c main_v2 _ = V c main_v2 _
  refine congrArg _ ?_
  funext a
  apply Fin.ext
  match a with
  | ⟨0, _⟩ => show (cfgL.win 2).index t (0 : Fin 3) * 1 + 1 * 0 = b.val; rw [e0, hb]; omega
  | ⟨1, _⟩ => show (cfgL.win 2).index t (1 : Fin 3) * 512 + 1 * r.val = k.val; rw [e1, hk]; omega
  | ⟨2, _⟩ => show (cfgL.win 2).index t (2 : Fin 3) * 1024 + 1 * j.val = 2048 + j.val; rw [e2]; omega

/-- The output-weight block at any point is the whole matrix. -/
theorem woblk_apply (c : Dev nD) (t : Fin cfgL.N) (e d : Fin 1024) :
    (iblk1 V c 3 t : Vec FI S1024x1024 .f32) (ix2 e d) = Woa V c e d := by
  obtain ⟨-, -, -, -, -, -, -, -, -, e0, e1, -⟩ := idx_facts1 t
  unfold iblk1 Woa Attn.mat
  rw [View.read_apply]
  show V c main_arg4 _ = V c main_arg4 _
  refine congrArg _ ?_
  funext a
  apply Fin.ext
  match a with
  | ⟨0, _⟩ => show (cfgL.win 3).index t (0 : Fin 2) * 1024 + 1 * e.val = e.val; rw [e0]; omega
  | ⟨1, _⟩ => show (cfgL.win 3).index t (1 : Fin 2) * 1024 + 1 * d.val = d.val; rw [e1]; omega

/-! ## The tile scores at a point -/

/-- The batch entry, the query tile and the key tile of a point. -/
def bOf (t : Fin cfgL.N) : Fin 4 := ⟨t.val / 10, by have := lt_of_lt_of_eq t.isLt N_L; omega⟩
def qiOf (t : Fin cfgL.N) : Fin 4 := ⟨qiN (t.val % 10), qiN_lt _⟩
def kiOf (t : Fin cfgL.N) : Fin 4 := ⟨kiN (t.val % 10), kiN_lt _⟩

/-- The masked, scaled scores the body forms at a point are the tiled scores of the point's query and key tiles. -/
theorem tile_scores (c : Dev nD) (t : Fin cfgL.N) (h : Fin 16) (r cc : Fin 512) :
    tileS (wqL c t) (wkL c t) (iblk1 V c 0 t) (iblk1 V c 1 t) h r cc
      = Attn.tscore (Qa V c) (Ka V c) (bOf t) h (Attn.qpos (qiOf t) r) (Attn.kpos (kiOf t) cc) := by
  obtain ⟨hwq, hwk⟩ := word_facts c t
  unfold tileS Attn.tscore
  rw [hwq, hwk]
  by_cases hm : kiN (t.val % 10) * 512 + cc.val ≤ qiN (t.val % 10) * 512 + r.val
  · rw [if_pos hm, if_pos (show (Attn.kpos (kiOf t) cc).val ≤ (Attn.qpos (qiOf t) r).val from hm)]
    refine Finset.sum_congr rfl fun d _ => ?_
    rw [qblk_apply V c t r (Attn.hcol h d) (bOf t) (Attn.qpos (qiOf t) r) rfl rfl,
      kblk_apply V c t cc (Attn.hcol h d) (bOf t) (Attn.kpos (kiOf t) cc) rfl rfl]
  · rw [if_neg hm, if_neg (show ¬(Attn.kpos (kiOf t) cc).val ≤ (Attn.qpos (qiOf t) r).val from hm)]

/-! ## What a point leaves, as the tile update of what it starts from -/

/-- What the running buffers hold when the body's update starts at point t: the reset values where a row starts, what
    the point before left elsewhere. -/
def scrIn (c : Dev nD) (t : Fin cfgL.N) : Scr1 :=
  if condR (wkL c t) then (k1_pay10 (F := FI), k1_pay11 (F := FI), k1_pay12 (F := FI)) else scrBefore V c t

theorem scrIn_pos (c : Dev nD) (t : Fin cfgL.N) (hR : condR (wkL c t)) :
    scrIn V c t = (k1_pay10 (F := FI), k1_pay11 (F := FI), k1_pay12 (F := FI)) := if_pos hR
theorem scrIn_neg (c : Dev nD) (t : Fin cfgL.N) (hR : ¬condR (wkL c t)) : scrIn V c t = scrBefore V c t := if_neg hR

/-- After point t the running buffers hold the tile update of what the point started from. -/
theorem scrAfter_new (c : Dev nD) (t : Fin cfgL.N) :
    scrAfter V c t.val t.isLt
      = (newM (wqL c t) (wkL c t) (iblk1 V c 0 t) (iblk1 V c 1 t) (scrIn V c t).1,
         newL (wqL c t) (wkL c t) (iblk1 V c 0 t) (iblk1 V c 1 t) (scrIn V c t).1 (scrIn V c t).2.1,
         newAcc (wqL c t) (wkL c t) (iblk1 V c 0 t) (iblk1 V c 1 t) (iblk1 V c 2 t) (scrIn V c t).1 (scrIn V c t).2.2) := by
  rw [scrAfter_eq]
  by_cases hR : condR (wkL c t)
  · rw [scrIn_pos V c t hR]
    by_cases hF : condF (wqL c t) (wkL c t)
    · rw [scrAt_A V c t _ hR hF]
      exact congrArg₂ Prod.mk (soutA_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF)
        (congrArg₂ Prod.mk (soutA_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF) (soutA_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF))
    · rw [scrAt_B V c t _ hR hF]
      exact congrArg₂ Prod.mk (soutB_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) hR hF)
        (congrArg₂ Prod.mk (soutB_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) hR hF) (soutB_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) hR hF))
  · rw [scrIn_neg V c t hR]
    by_cases hF : condF (wqL c t) (wkL c t)
    · rw [scrAt_C V c t _ hR hF]
      exact congrArg₂ Prod.mk (soutC_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrBefore V c t).1 (scrBefore V c t).2.1 (scrBefore V c t).2.2 hR hF)
        (congrArg₂ Prod.mk (soutC_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrBefore V c t).1 (scrBefore V c t).2.1 (scrBefore V c t).2.2 hR hF) (soutC_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrBefore V c t).1 (scrBefore V c t).2.1 (scrBefore V c t).2.2 hR hF))
    · rw [scrAt_D V c t _ hR hF]
      exact congrArg₂ Prod.mk (soutD_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) (scrBefore V c t).1 (scrBefore V c t).2.1 (scrBefore V c t).2.2 hR hF)
        (congrArg₂ Prod.mk (soutD_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) (scrBefore V c t).1 (scrBefore V c t).2.1 (scrBefore V c t).2.2 hR hF) (soutD_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (VO1_4.read (Elt FI) VO1_4.junk) (tblL 0) (tblL 1) (scrBefore V c t).1 (scrBefore V c t).2.1 (scrBefore V c t).2.2 hR hF))

/-- Where a row ends, the output block is the closing projection of what the running buffers hold after the point. -/
theorem outAt_new (c : Dev nD) (t : Fin cfgL.N) (hF : condF (wqL c t) (wkL c t)) :
    outAt V c t = outBlk (scrAfter V c t.val t.isLt).2.1 (scrAfter V c t.val t.isLt).2.2 (iblk1 V c 3 t) := by
  rw [scrAfter_new]
  by_cases hR : condR (wkL c t)
  · rw [scrIn_pos V c t hR, outAt_A V c t hR hF]
    exact outA_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) hR hF
  · rw [scrIn_neg V c t hR, outAt_C V c t hR hF]
    exact outC_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t) (tblL 0) (tblL 1) (scrBefore V c t).1 (scrBefore V c t).2.1 (scrBefore V c t).2.2 hR hF

/-! ## The recurrence along a row of tiles -/

theorem onl_zero (Q K W : Attn.Arr3) (b : Fin 4) (h : Fin 16) (q : Fin 2048) (j : Fin 1024) :
    Attn.onl Q K W b h q j 0 = (⊥, 0, 0) := rfl

theorem onl_succ (Q K W : Attn.Arr3) (b : Fin 4) (h : Fin 16) (q : Fin 2048) (j : Fin 1024) {n : ℕ} (hn : n < 4) :
    Attn.onl Q K W b h q j (n + 1)
      = (Attn.stepM (Attn.onl Q K W b h q j n).1 (fun c => Attn.tscore Q K b h q (Attn.kpos ⟨n, hn⟩ c)),
         Attn.stepL (Attn.onl Q K W b h q j n).1 (Attn.onl Q K W b h q j n).2.1 (fun c => Attn.tscore Q K b h q (Attn.kpos ⟨n, hn⟩ c)),
         Attn.stepAcc (Attn.onl Q K W b h q j n).1 (Attn.onl Q K W b h q j n).2.2
           (fun c => Attn.tscore Q K b h q (Attn.kpos ⟨n, hn⟩ c)) (fun c => W b (Attn.kpos ⟨n, hn⟩ c) j)) := by
  simp only [Attn.onl, dif_pos hn]

/-- One point: the entries of the running buffers after it are the tile update of the entries it started from. -/
theorem point_step (c : Dev nD) (t : Fin cfgL.N) (r : Fin 512) (j : Fin 1024) :
    ((scrAfter V c t.val t.isLt).1 (ix2 r (Attn.headOf j)), (scrAfter V c t.val t.isLt).2.1 (ix2 r (Attn.headOf j)), (scrAfter V c t.val t.isLt).2.2 (ix2 r j))
      = (Attn.stepM ((scrIn V c t).1 (ix2 r (Attn.headOf j))) (fun cc : Fin 512 => Attn.tscore (Qa V c) (Ka V c) (bOf t) (Attn.headOf j) (Attn.qpos (qiOf t) r) (Attn.kpos (kiOf t) cc)),
         Attn.stepL ((scrIn V c t).1 (ix2 r (Attn.headOf j))) ((scrIn V c t).2.1 (ix2 r (Attn.headOf j))) (fun cc : Fin 512 => Attn.tscore (Qa V c) (Ka V c) (bOf t) (Attn.headOf j) (Attn.qpos (qiOf t) r) (Attn.kpos (kiOf t) cc)),
         Attn.stepAcc ((scrIn V c t).1 (ix2 r (Attn.headOf j))) ((scrIn V c t).2.2 (ix2 r j)) (fun cc : Fin 512 => Attn.tscore (Qa V c) (Ka V c) (bOf t) (Attn.headOf j) (Attn.qpos (qiOf t) r) (Attn.kpos (kiOf t) cc)) (fun cc : Fin 512 => Va V c (bOf t) (Attn.kpos (kiOf t) cc) j)) := by
  obtain ⟨hwq, hwk⟩ := word_facts c t
  have hq : (wqL c t).toNat < 4 := by rw [hwq]; exact qiN_lt _
  have hk : (wkL c t).toNat < 4 := by rw [hwk]; exact kiN_lt _
  have hs : (fun cc : Fin 512 => tileS (wqL c t) (wkL c t) (iblk1 V c 0 t) (iblk1 V c 1 t) (Attn.headOf j) r cc) = (fun cc : Fin 512 => Attn.tscore (Qa V c) (Ka V c) (bOf t) (Attn.headOf j) (Attn.qpos (qiOf t) r) (Attn.kpos (kiOf t) cc)) :=
    funext fun cc => tile_scores V c t (Attn.headOf j) r cc
  have hv : (fun cc : Fin 512 => (iblk1 V c 2 t : Vec FI S1x512x1024 .bf16) (ix3 (0 : Fin 1) cc j)) = (fun cc : Fin 512 => Va V c (bOf t) (Attn.kpos (kiOf t) cc) j) :=
    funext fun cc => vblk_apply V c t cc j (bOf t) (Attn.kpos (kiOf t) cc) rfl rfl
  rw [scrAfter_new]
  refine congrArg₂ Prod.mk ?_ (congrArg₂ Prod.mk ?_ ?_)
  · exact (newM_apply (wqL c t) (wkL c t) hq hk (iblk1 V c 0 t) (iblk1 V c 1 t) (scrIn V c t).1 r (Attn.headOf j)).trans (by rw [hs])
  · exact (newL_apply (wqL c t) (wkL c t) hq hk (iblk1 V c 0 t) (iblk1 V c 1 t) (scrIn V c t).1 (scrIn V c t).2.1 r (Attn.headOf j)).trans (by rw [hs])
  · exact (newAcc_apply (wqL c t) (wkL c t) hq hk (iblk1 V c 0 t) (iblk1 V c 1 t) (iblk1 V c 2 t) (scrIn V c t).1 (scrIn V c t).2.2 r j).trans (by rw [hs, hv])

theorem kiN_zero {s : ℕ} (h : s = 0 ∨ s = 1 ∨ s = 3 ∨ s = 6) : kiN s = 0 := by
  rcases h with h | h | h | h <;> rw [h] <;> rfl

/-- A position that does not start a row continues the row of the position before it, one key tile further. -/
theorem succ_facts : ∀ n < 39, ¬((n + 1) % 10 = 0 ∨ (n + 1) % 10 = 1 ∨ (n + 1) % 10 = 3 ∨ (n + 1) % 10 = 6) →
    (n + 1) / 10 = n / 10 ∧ qiN ((n + 1) % 10) = qiN (n % 10) ∧ kiN ((n + 1) % 10) = kiN (n % 10) + 1 := by
  decide

/-- A point that starts a row: the running entries after it are the running computation after one tile. -/
theorem start_row (c : Dev nD) (t : Fin cfgL.N) (hR : condR (wkL c t)) (r : Fin 512) (j : Fin 1024) :
    ((scrAfter V c t.val t.isLt).1 (ix2 r (Attn.headOf j)), (scrAfter V c t.val t.isLt).2.1 (ix2 r (Attn.headOf j)), (scrAfter V c t.val t.isLt).2.2 (ix2 r j))
      = Attn.onl (Qa V c) (Ka V c) (Va V c) (bOf t) (Attn.headOf j) (Attn.qpos (qiOf t) r) j (kiN (t.val % 10) + 1) := by
  have hk0 : kiN (t.val % 10) = 0 := kiN_zero ((hcondR c t).mp hR)
  have hki : kiOf t = (⟨0, by decide⟩ : Fin 4) := Fin.ext hk0
  refine (point_step V c t r j).trans ?_
  rw [scrIn_pos V c t hR, hk0, onl_succ _ _ _ _ _ _ _ (show 0 < 4 by decide), onl_zero, hki]
  simp only [resetM_apply, resetL_apply, resetAcc_apply]

/-- A point that continues a row: from the running computation after ki tiles to the one after ki + 1. -/
theorem continue_row (c : Dev nD) (n : ℕ) (hn : n + 1 < cfgL.N) (hR : ¬condR (wkL c ⟨n + 1, hn⟩)) (r : Fin 512) (j : Fin 1024)
    (ih : ((scrAfter V c n (Nat.lt_of_succ_lt hn)).1 (ix2 r (Attn.headOf j)), (scrAfter V c n (Nat.lt_of_succ_lt hn)).2.1 (ix2 r (Attn.headOf j)), (scrAfter V c n (Nat.lt_of_succ_lt hn)).2.2 (ix2 r j))
      = Attn.onl (Qa V c) (Ka V c) (Va V c) (bOf ⟨n, Nat.lt_of_succ_lt hn⟩) (Attn.headOf j) (Attn.qpos (qiOf ⟨n, Nat.lt_of_succ_lt hn⟩) r) j (kiN (n % 10) + 1)) :
    ((scrAfter V c (n + 1) hn).1 (ix2 r (Attn.headOf j)), (scrAfter V c (n + 1) hn).2.1 (ix2 r (Attn.headOf j)), (scrAfter V c (n + 1) hn).2.2 (ix2 r j))
      = Attn.onl (Qa V c) (Ka V c) (Va V c) (bOf ⟨n + 1, hn⟩) (Attn.headOf j) (Attn.qpos (qiOf ⟨n + 1, hn⟩) r) j (kiN ((n + 1) % 10) + 1) := by
  have h40 : n + 1 < 40 := lt_of_lt_of_eq hn N_L
  obtain ⟨e1, e2, e3⟩ := succ_facts n (by omega) (fun h => hR ((hcondR c ⟨n + 1, hn⟩).mpr h))
  have hb : bOf ⟨n + 1, hn⟩ = bOf ⟨n, Nat.lt_of_succ_lt hn⟩ := Fin.ext e1
  have hqi : qiOf ⟨n + 1, hn⟩ = qiOf ⟨n, Nat.lt_of_succ_lt hn⟩ := Fin.ext e2
  have hlt : kiN (n % 10) + 1 < 4 := by rw [← e3]; exact kiN_lt _
  have hki : kiOf ⟨n + 1, hn⟩ = (⟨kiN (n % 10) + 1, hlt⟩ : Fin 4) := Fin.ext e3
  refine (point_step V c ⟨n + 1, hn⟩ r j).trans ?_
  rw [scrIn_neg V c _ hR, scrBefore_pos V c ⟨n + 1, hn⟩ (Nat.succ_ne_zero n), e3, onl_succ _ _ _ _ _ _ _ hlt, hb, hqi, hki, ← ih]
  rfl

/-- THE RECURRENCE: after the point at position (qi, ki) of batch entry b, the running maximum, denominator and weighted
    sum at row r (and lane j of its head) are the running computation after the key tiles 0 … ki. -/
theorem recur (c : Dev nD) : ∀ (n : ℕ) (hn : n < cfgL.N) (r : Fin 512) (j : Fin 1024),
    ((scrAfter V c n hn).1 (ix2 r (Attn.headOf j)), (scrAfter V c n hn).2.1 (ix2 r (Attn.headOf j)), (scrAfter V c n hn).2.2 (ix2 r j))
      = Attn.onl (Qa V c) (Ka V c) (Va V c) (bOf ⟨n, hn⟩) (Attn.headOf j) (Attn.qpos (qiOf ⟨n, hn⟩) r) j (kiN (n % 10) + 1) := by
  intro n
  induction n with
  | zero =>
    intro hn r j
    exact start_row V c ⟨0, hn⟩ (condR_zero c ⟨0, hn⟩ rfl) r j
  | succ n ih =>
    intro hn r j
    by_cases hR : condR (wkL c ⟨n + 1, hn⟩)
    · exact start_row V c ⟨n + 1, hn⟩ hR r j
    · exact continue_row V c n hn hR r j (ih (Nat.lt_of_succ_lt hn) r j)

/-! ## The output block where a row ends -/

theorem row_end {s : ℕ} (h : s = 0 ∨ s = 2 ∨ s = 5 ∨ s = 9) : kiN s = qiN s := by
  rcases h with h | h | h | h <;> rw [h] <;> rfl

/-- Where a row ends, the block the body stores is the row's block of the projected attention context. -/
theorem out_value (c : Dev nD) (hQ : Attn.Fin3 (Qa V c)) (hK : Attn.Fin3 (Ka V c)) (hV : Attn.Fin3 (Va V c))
    (t : Fin cfgL.N) (hF : condF (wqL c t) (wkL c t)) (r : Fin 512) (e : Fin 1024) :
    (outAt V c t : Vec FI S1x512x1024 .f32) (ix3 (0 : Fin 1) r e)
      = Attn.proj (Attn.ctx (Qa V c) (Ka V c) (Va V c)) (Woa V c) (bOf t) (Attn.qpos (qiOf t) r) e := by
  have hkq : kiN (t.val % 10) = qiN (t.val % 10) := row_end ((hcondF c t).mp hF)
  rw [outAt_new V c t hF, outBlk_apply']
  unfold Attn.proj
  refine Finset.sum_congr rfl fun j _ => ?_
  have hrec := recur V c t.val t.isLt r j
  have h1 : (scrAfter V c t.val t.isLt).2.1 (ix2 r (Attn.headOf j))
      = (Attn.onl (Qa V c) (Ka V c) (Va V c) (bOf t) (Attn.headOf j) (Attn.qpos (qiOf t) r) j (kiN (t.val % 10) + 1)).2.1 :=
    congrArg (fun p : EReal × EReal × EReal => p.2.1) hrec
  have h2 : (scrAfter V c t.val t.isLt).2.2 (ix2 r j)
      = (Attn.onl (Qa V c) (Ka V c) (Va V c) (bOf t) (Attn.headOf j) (Attn.qpos (qiOf t) r) j (kiN (t.val % 10) + 1)).2.2 :=
    congrArg (fun p : EReal × EReal × EReal => p.2.2) hrec
  rw [h2, h1, woblk_apply, hkq]
  exact congrArg (· * Woa V c e j) (Attn.onl_ctx hQ hK hV (bOf t) (qiOf t) r j)

/-! ## What a point writes back, the cover, the array -/

/-- Where a row ends the output block is written back. -/
theorem flush1_4 : ∀ (c : Dev nD) (t : Fin cfgL.N), condF (wqL c t) (wkL c t) → (cfgL.win 4).flush t = true := by
  decide +kernel

/-- An entry of an array of the attention layout, at equal coordinates. -/
theorem arr3_congr (A : Attn.Arr3) {b b' : Fin 4} {q q' : Fin 2048} {e e' : Fin 1024} (hb : b = b') (hq : q = q') (he : e = e') :
    A b q e = A b' q' e' := by subst hb hq he; rfl

/-- The whole result as a function of the arrays the region finds. -/
def G1 (c : Dev nD) : S4x2048x1024.Idx → EReal :=
  Attn.toIdx3 (Attn.proj (Attn.ctx (Qa V c) (Ka V c) (Va V c)) (Woa V c))

/-- What a point that ends a row writes back is its block of the result function. -/
theorem flushed_eq1 (c : Dev nD) (hQ : Attn.Fin3 (Qa V c)) (hK : Attn.Fin3 (Ka V c)) (hV : Attn.Fin3 (Va V c))
    (t : Fin cfgL.N) (hf : (cfgL.win 4).flush t = true) :
    (dat1 V c).flushed 4 t = ((cfgL.win 4).blk t).view.read (Elt FI) (G1 V c) := by
  have hF : condF (wqL c t) (wkL c t) := by
    by_contra h
    rw [noFlush1_4 c t h] at hf
    exact Bool.noConfusion hf
  show (cfgL.win 4).cut (grid1.coords t) ((dat1 V c).after 4 t) = _
  rw [after1_4]
  obtain ⟨-, -, -, -, -, -, -, -, -, -, -, e0, e1, e2⟩ := idx_facts1 t
  funext y
  have hy0 : (y 0).val < 1 := (y 0).isLt
  have hy1 : (y 1).val < 512 := (y 1).isLt
  have hy2 : (y 2).val < 1024 := (y 2).isLt
  have hx : (cfgL.win 4).xinj (grid1.coords t) y = ix3 (0 : Fin 1) (⟨(y 1).val, hy1⟩ : Fin 512) (⟨(y 2).val, hy2⟩ : Fin 1024) :=
    funext fun a => by
      match a with
      | ⟨0, _⟩ => exact Fin.ext (by show (y 0).val = 0; omega)
      | ⟨1, _⟩ => rfl
      | ⟨2, _⟩ => rfl
  rw [View.read_apply]
  show outAt V c t ((cfgL.win 4).xinj (grid1.coords t) y) = _
  rw [hx]
  refine (out_value V c hQ hK hV t hF ⟨(y 1).val, hy1⟩ ⟨(y 2).val, hy2⟩).trans ?_
  unfold G1 Attn.toIdx3
  refine arr3_congr _ (Fin.ext ?_) (Fin.ext ?_) (Fin.ext ?_)
  · show t.val / 10 = (cfgL.win 4).index t (0 : Fin 3) * 1 + 1 * (y 0).val
    rw [e0]; omega
  · show qiN (t.val % 10) * 512 + (y 1).val = (cfgL.win 4).index t (1 : Fin 3) * 512 + 1 * (y 1).val
    rw [e1]; omega
  · show (y 2).val = (cfgL.win 4).index t (2 : Fin 3) * 1024 + 1 * (y 2).val
    rw [e2]; omega

/-- An index of the result array is in point t's block iff each coordinate is in the block's range on its axis. -/
theorem mem_blk1 (t : Fin cfgL.N) (i : S4x2048x1024.Idx) :
    i ∈ ((cfgL.win 4).blk t).view.set ↔ ∀ a : Fin 3, (cfgL.win 4).index t a * S1x512x1024.size a ≤ (i a).val
      ∧ (i a).val < (cfgL.win 4).index t a * S1x512x1024.size a + S1x512x1024.size a := by
  show i ∈ ((View.whole main_v3).slice ((cfgL.win 4).rect t)).set ↔ _
  rw [View.set_slice_whole, Rect.mem_set_unit]
  exact Iff.rfl

/-- The position that ends the row of query tile qi. -/
def rowEndN (qi : ℕ) : ℕ := match qi with | 0 => 0 | 1 => 2 | 2 => 5 | _ => 9

/-- The point 10·b + (the position that ends row qi) is a point of batch entry b and query tile qi that ends a row. -/
theorem end_facts : ∀ b < 4, ∀ qi < 4, 10 * b + rowEndN qi < 40 ∧ (10 * b + rowEndN qi) / 10 = b
    ∧ qiN ((10 * b + rowEndN qi) % 10) = qi
    ∧ ((10 * b + rowEndN qi) % 10 = 0 ∨ (10 * b + rowEndN qi) % 10 = 2 ∨ (10 * b + rowEndN qi) % 10 = 5 ∨ (10 * b + rowEndN qi) % 10 = 9) := by
  decide

/-- Every entry of the result lies in the block written back at the point that ends its row of tiles. -/
theorem cover1 (c : Dev nD) (i : S4x2048x1024.Idx) :
    ∃ t : Fin cfgL.N, (cfgL.win 4).flush t = true ∧ i ∈ ((cfgL.win 4).blk t).view.set := by
  have hi0 : (i 0).val < 4 := (i 0).isLt
  have hi1 : (i 1).val < 2048 := (i 1).isLt
  have hi2 : (i 2).val < 1024 := (i 2).isLt
  obtain ⟨h40, hb, hqi, hpos⟩ := end_facts (i 0).val hi0 ((i 1).val / 512) (by omega)
  obtain ⟨t, ht⟩ : ∃ t : Fin cfgL.N, t.val = 10 * (i 0).val + rowEndN ((i 1).val / 512) :=
    ⟨⟨10 * (i 0).val + rowEndN ((i 1).val / 512), lt_of_lt_of_eq h40 N_L.symm⟩, rfl⟩
  obtain ⟨-, -, -, -, -, -, -, -, -, -, -, e0, e1, e2⟩ := idx_facts1 t
  refine ⟨t, flush1_4 c t ((hcondF c t).mpr (by rw [ht]; exact hpos)), ?_⟩
  rw [mem_blk1]
  intro a
  match a with
  | ⟨0, _⟩ =>
    show (cfgL.win 4).index t (0 : Fin 3) * 1 ≤ (i 0).val ∧ (i 0).val < (cfgL.win 4).index t (0 : Fin 3) * 1 + 1
    rw [e0, ht, hb]; omega
  | ⟨1, _⟩ =>
    show (cfgL.win 4).index t (1 : Fin 3) * 512 ≤ (i 1).val ∧ (i 1).val < (cfgL.win 4).index t (1 : Fin 3) * 512 + 512
    rw [e1, ht, hqi]; omega
  | ⟨2, _⟩ =>
    show (cfgL.win 4).index t (2 : Fin 3) * 1024 ≤ (i 2).val ∧ (i 2).val < (cfgL.win 4).index t (2 : Fin 3) * 1024 + 1024
    rw [e2]; omega

/-- The result array when the region ends, read at an index of the literal shape. -/
abbrev oarr1 (c : Dev nD) : S4x2048x1024.Idx → EReal := (dat1 V c).arrAt 4 cfgL.N

/-- THE VALUE of the second pallas_call: for real queries, keys and values, its result array ends holding the output
    projection of the causal attention context. -/
theorem r1_value (c : Dev nD) (hQ : Attn.Fin3 (Qa V c)) (hK : Attn.Fin3 (Ka V c)) (hV : Attn.Fin3 (Va V c)) :
    oarr1 V c = Attn.toIdx3 (Attn.proj (Attn.ctx (Qa V c) (Ka V c) (Va V c)) (Woa V c)) :=
  (dat1 V c).arrAt_eq_of_cover 4 (G1 V c) (fun t hf => flushed_eq1 V c hQ hK hV t hf) (cover1 c)

end Region

end Cert.KernelIdeal.Hand

end
-- ==== Proof.Final.lean ====
/-
  The idealized kernel program's result array, as one function of its five argument arrays.

  The program reshapes the activations [4, 2048, 1024] to [8192, 1024] (row 2048·b + s is position s of batch entry b),
  runs the projection kernel, which leaves Σ_d x[r, d] · W_{j / 1024}[j mod 1024, d] at entry (r, j) of an array
  [8192, 3072], reshapes that array to [4, 2048, 3072] and runs the attention kernel on it.  So the three column
  blocks of the reshaped array are the query, key and value projections x · Wqᵀ, x · Wkᵀ, x · Wvᵀ of the
  activations, and what the attention kernel leaves — the output projection of the causal attention context of its
  three column blocks — is the attention layer of the arguments.  The attention kernel's value needs its queries,
  keys and values to be real numbers: they are finite sums of products of the arguments' entries, and the
  precondition says every entry of every argument is finite (its absolute value is below +∞).
-/
import proofs.«405825_j40080634807018_3_alg».proof.Defs
import proofs.«405825_j40080634807018_3_alg».proof.Proof.Gen.KernelIdeal.Regions
import proofs.«405825_j40080634807018_3_alg».proof.Proof.Spec
import proofs.«405825_j40080634807018_3_alg».proof.Proof.Online
import proofs.«405825_j40080634807018_3_alg».proof.Proof.R0Value
import proofs.«405825_j40080634807018_3_alg».proof.Proof.R1Value
import proofs.«405825_j40080634807018_3_alg».proof.Proof.Run
import Idealize.ShloMosaic.Lib.Pipeline.Value
import Idealize.ShloMosaic.Lib.ValueIdx
import Idealize.ShloMosaic.Lib.StableHlo.Run
import Idealize.ShloMosaic.Lib.ReduceAll
import Idealize.ShloMosaic.PureOps.Ideal.Laws

set_option maxRecDepth 16384

noncomputable section

open scoped BigOperators

namespace Cert.KernelIdeal.Hand

open Cert.KernelIdeal Cert.KernelIdeal.Gen Cert.KernelIdeal.HandValue
open Idealize.ShloMosaic Idealize.ShloMosaic.TcCoe Idealize.SL.Sem Idealize.ShloMosaic.ValueIdx

/-! ## Every entry of every argument is a real number -/

section Finite

/-- A scalar has one index. -/
instance subsingleton_scalar_idx : Subsingleton Cert.Pre_finite_inputs.S_.Idx := ⟨fun a b => funext fun d => d.elim0⟩

/-- The pattern the precondition compares against denotes +∞. -/
theorem inf_pattern : Ideal.ofBits .f32 0x7F800000#32 = (⊤ : EReal) := by simp [Ideal.ofBits, Ideal.ieee]

/-- An extended real whose absolute value max(x, −x) is below +∞ is a real number: for x = −∞ and for x = +∞ the
    absolute value is +∞. -/
theorem real_of_abs_lt (x : EReal) (h : Ideal.cmp .olt (max x (-x)) (Ideal.ofBits .f32 0x7F800000#32) = 1#1) :
    ∃ r : ℝ, x = (r : EReal) := by
  rw [inf_pattern] at h
  induction x using EReal.rec with
  | bot => exfalso; simp [Ideal.cmp] at h
  | coe r => exact ⟨r, rfl⟩
  | top => exfalso; simp [Ideal.cmp] at h

/-- The precondition is a conjunction of five "all entries have absolute value below +∞", one per array; each
    conjunct gives that every entry of its array is a real number. -/
theorem fin_of_pre [hP : Cert.Pre_finite_inputs.Facts]
    (a0 : FVec Ideal Cert.Pre_finite_inputs.S4x2048x1024 .f32) (a1 a2 a3 a4 : FVec Ideal Cert.Pre_finite_inputs.S1024x1024 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_abs_lt (a0 i) (Host.reduce_andi_all _ _ _ _ ix0 e0 i),
    fun i => real_of_abs_lt (a1 i) (Host.reduce_andi_all _ _ _ _ ix0 e1 i),
    fun i => real_of_abs_lt (a2 i) (Host.reduce_andi_all _ _ _ _ ix0 e2 i),
    fun i => real_of_abs_lt (a3 i) (Host.reduce_andi_all _ _ _ _ ix0 e3 i),
    fun i => real_of_abs_lt (a4 i) (Host.reduce_andi_all _ _ _ _ ix0 e4 i)⟩

/-- Under the certificate's precondition the activations and the four weight matrices hold real numbers only. -/
theorem fin_inputs [hP : Cert.Pre_finite_inputs.Facts] (m : (ℓ : Loc nD τ sig) → Buf (Elt FI) ℓ) (hpre : Cert.Pre_KernelIdeal m) (c : Dev nD) :
    Attn.Fin3 (Attn.arr3 (m ((c.tc : Thread nD τ).loc main_arg0))) ∧ Attn.Fin2 (Attn.mat (m ((c.tc : Thread nD τ).loc main_arg1)))
      ∧ Attn.Fin2 (Attn.mat (m ((c.tc : Thread nD τ).loc main_arg2))) ∧ Attn.Fin2 (Attn.mat (m ((c.tc : Thread nD τ).loc main_arg3)))
      ∧ Attn.Fin2 (Attn.mat (m ((c.tc : Thread nD τ).loc main_arg4))) := by
  obtain ⟨h0, h1, h2, h3, h4⟩ := fin_of_pre _ _ _ _ _ (hpre c)
  exact ⟨fun b s e => h0 (ix3 b s e), fun e d => h1 (ix2 e d), fun e d => h2 (ix2 e d), fun e d => h3 (ix2 e d), fun e d => h4 (ix2 e d)⟩

end Finite

/-! ## What the two reshapes hold, and the arguments as the regions find them -/

section Host

variable (m : (ℓ : Loc nD τ sig) → Buf (Elt FI) ℓ) (outs : Gen.Outs (F := FI))

/-- Before the first region the flattened activations are the reshape of the first argument. -/
theorem V1_v0 (c : Dev nD) :
    (Gen.V1 m c (Proc.devRef .tc main_v0) : S8192x1024.Idx → EReal)
      = shapeCast S8192x1024 (m ((c.tc : Thread nD τ).loc main_arg0) : S4x2048x1024.Idx → EReal) Facts₀.shapeCasts_S4x2048x1024_S8192x1024 := by
  show StableHlo.after hostOps0 (fun b => m (c, b)) (Proc.devRef .tc main_v0) = _
  after_results
  rfl

/-- Row 2048·b + s of the flattened activations is position s of batch entry b. -/
theorem V1_v0_apply (c : Dev nD) (b : Fin 4) (s : Fin 2048) (d : Fin 1024) (r : Fin 8192) (hr : r.val = 2048 * b.val + s.val) :
    (Gen.V1 m c (Proc.devRef .tc main_v0) : S8192x1024.Idx → EReal) (ix2 r d)
      = (m ((c.tc : Thread nD τ).loc main_arg0) : S4x2048x1024.Idx → EReal) (ix3 b s d) := by
  rw [V1_v0]
  refine shapeCast_apply _ _ (ix2 r d) (ix3 b s d) ?_
  rw [Shape.rowMajor_val_two, Shape.rowMajor_val_three]
  show (b.val * 2048 + s.val) * 1024 + d.val = r.val * 1024 + d.val
  rw [hr]; ring

/-- Before the second region the three-axis array is the reshape of what the first region left in its result array. -/
theorem V3_v2 (c : Dev nD) :
    (Gen.V3 m outs c (Proc.devRef .tc main_v2) : S4x2048x3072.Idx → EReal)
      = shapeCast S4x2048x3072 (outs 2 main_v1 c : S8192x3072.Idx → EReal) Facts₀.shapeCasts_S8192x3072_S4x2048x3072 := by
  show StableHlo.after hostOps1 (Gen.V2 m outs c) (Proc.devRef .tc main_v2) = _
  after_results
  have e : Gen.V2 m outs c (Proc.devRef .tc main_v1) = outs 2 main_v1 c := Function.update_self _ _ _
  rw [e]
  rfl

/-- Its entry (b, s, j) is entry (2048·b + s, j) of the first region's result. -/
theorem V3_v2_apply (c : Dev nD) (b : Fin 4) (s : Fin 2048) (j : Fin 3072) (r : Fin 8192) (hr : r.val = 2048 * b.val + s.val) :
    (Gen.V3 m outs c (Proc.devRef .tc main_v2) : S4x2048x3072.Idx → EReal) (ix3 b s j)
      = (outs 2 main_v1 c : S8192x3072.Idx → EReal) (ix2 r j) := by
  rw [V3_v2]
  refine shapeCast_apply _ _ (ix3 b s j) (ix2 r j) ?_
  rw [Shape.rowMajor_val_two, Shape.rowMajor_val_three]
  show r.val * 3072 + j.val = (b.val * 2048 + s.val) * 3072 + j.val
  rw [hr]; ring

/-- The first region finds the three projection weights as launched; -/
theorem V1_arg1 (c : Dev nD) : Gen.V1 m c (Proc.devRef .tc main_arg1) = m ((c.tc : Thread nD τ).loc main_arg1) :=
  (Gen.V1_of m c main_arg1 (by decide)).trans rfl
theorem V1_arg2 (c : Dev nD) : Gen.V1 m c (Proc.devRef .tc main_arg2) = m ((c.tc : Thread nD τ).loc main_arg2) :=
  (Gen.V1_of m c main_arg2 (by decide)).trans rfl
theorem V1_arg3 (c : Dev nD) : Gen.V1 m c (Proc.devRef .tc main_arg3) = m ((c.tc : Thread nD τ).loc main_arg3) :=
  (Gen.V1_of m c main_arg3 (by decide)).trans rfl
/-- the second region finds the output weights as launched. -/
theorem V3_arg4 (c : Dev nD) : Gen.V3 m outs c (Proc.devRef .tc main_arg4) = m ((c.tc : Thread nD τ).loc main_arg4) :=
  (Gen.V3_of m outs c main_arg4 (by decide)).trans <| (Gen.V2_of m outs c main_arg4 (by decide)).trans <| (Gen.V1_of m c main_arg4 (by decide)).trans rfl

end Host

/-! ## The column of the three weight matrices side by side, third by third -/

section Proj

variable (V : (c : Dev nD) → (b : Ref sig .tc) → Buf (Elt FI) ((c : Thread nD τ).loc b))

/-- A column below 1024 is that row of the first weight matrix. -/
theorem wsel_q (c : Dev nD) (j d : Fin 1024) (j' : Fin 3072) (hj : j'.val = j.val) :
    wsel V c j' d = (V c main_arg1 : S1024x1024.Idx → EReal) (ix2 j d) := by
  have hjl := j.isLt
  unfold wsel wselF
  rw [if_pos (show j'.val < 1024 by omega)]
  refine congrArg (fun e => (V c main_arg1 : S1024x1024.Idx → EReal) (ix2 e d)) (Fin.ext ?_)
  show j'.val % 1024 = j.val
  omega

/-- Column 1024 + j is row j of the second. -/
theorem wsel_k (c : Dev nD) (j d : Fin 1024) (j' : Fin 3072) (hj : j'.val = 1024 + j.val) :
    wsel V c j' d = (V c main_arg2 : S1024x1024.Idx → EReal) (ix2 j d) := by
  have hjl := j.isLt
  unfold wsel wselF
  rw [if_neg (show ¬ j'.val < 1024 by omega), if_pos (show j'.val < 2048 by omega)]
  refine congrArg (fun e => (V c main_arg2 : S1024x1024.Idx → EReal) (ix2 e d)) (Fin.ext ?_)
  show j'.val % 1024 = j.val
  omega

/-- Column 2048 + j is row j of the third. -/
theorem wsel_v (c : Dev nD) (j d : Fin 1024) (j' : Fin 3072) (hj : j'.val = 2048 + j.val) :
    wsel V c j' d = (V c main_arg3 : S1024x1024.Idx → EReal) (ix2 j d) := by
  have hjl := j.isLt
  unfold wsel wselF
  rw [if_neg (show ¬ j'.val < 1024 by omega), if_neg (show ¬ j'.val < 2048 by omega)]
  refine congrArg (fun e => (V c main_arg3 : S1024x1024.Idx → EReal) (ix2 e d)) (Fin.ext ?_)
  show j'.val % 1024 = j.val
  omega

end Proj

/-! ## The first region's result is the three projections of the activations -/

section Entry

variable (m : (ℓ : Loc nD τ sig) → Buf (Elt FI) ℓ)

/-- Entry (2048·b + s, j) of the first region's result, j < 1024: the query projection at (b, s, j). -/
theorem r0_q (c : Dev nD) (b : Fin 4) (s : Fin 2048) (j : Fin 1024) (r : Fin 8192) (hr : r.val = 2048 * b.val + s.val)
    (j' : Fin 3072) (hj : j'.val = j.val) :
    oarr (Vin0 m) c (ix2 r j')
      = Attn.proj (Attn.arr3 (m ((c.tc : Thread nD τ).loc main_arg0))) (Attn.mat (m ((c.tc : Thread nD τ).loc main_arg1))) b s j := by
  rw [r0_value]
  unfold Attn.proj
  refine Finset.sum_congr rfl fun d _ => ?_
  rw [wsel_q _ c j d j' hj]
  have hx : xarr (Vin0 m) c (ix2 r d) = (m ((c.tc : Thread nD τ).loc main_arg0) : S4x2048x1024.Idx → EReal) (ix3 b s d) :=
    V1_v0_apply m c b s d r hr
  have hw : (Vin0 m c main_arg1 : S1024x1024.Idx → EReal) = m ((c.tc : Thread nD τ).loc main_arg1) := V1_arg1 m c
  exact congrArg₂ (· * ·) hx (congrFun hw (ix2 j d))

/-- Entry (2048·b + s, 1024 + j): the key projection at (b, s, j). -/
theorem r0_k (c : Dev nD) (b : Fin 4) (s : Fin 2048) (j : Fin 1024) (r : Fin 8192) (hr : r.val = 2048 * b.val + s.val)
    (j' : Fin 3072) (hj : j'.val = 1024 + j.val) :
    oarr (Vin0 m) c (ix2 r j')
      = Attn.proj (Attn.arr3 (m ((c.tc : Thread nD τ).loc main_arg0))) (Attn.mat (m ((c.tc : Thread nD τ).loc main_arg2))) b s j := by
  rw [r0_value]
  unfold Attn.proj
  refine Finset.sum_congr rfl fun d _ => ?_
  rw [wsel_k _ c j d j' hj]
  have hx : xarr (Vin0 m) c (ix2 r d) = (m ((c.tc : Thread nD τ).loc main_arg0) : S4x2048x1024.Idx → EReal) (ix3 b s d) :=
    V1_v0_apply m c b s d r hr
  have hw : (Vin0 m c main_arg2 : S1024x1024.Idx → EReal) = m ((c.tc : Thread nD τ).loc main_arg2) := V1_arg2 m c
  exact congrArg₂ (· * ·) hx (congrFun hw (ix2 j d))

/-- Entry (2048·b + s, 2048 + j): the value projection at (b, s, j). -/
theorem r0_v (c : Dev nD) (b : Fin 4) (s : Fin 2048) (j : Fin 1024) (r : Fin 8192) (hr : r.val = 2048 * b.val + s.val)
    (j' : Fin 3072) (hj : j'.val = 2048 + j.val) :
    oarr (Vin0 m) c (ix2 r j')
      = Attn.proj (Attn.arr3 (m ((c.tc : Thread nD τ).loc main_arg0))) (Attn.mat (m ((c.tc : Thread nD τ).loc main_arg3))) b s j := by
  rw [r0_value]
  unfold Attn.proj
  refine Finset.sum_congr rfl fun d _ => ?_
  rw [wsel_v _ c j d j' hj]
  have hx : xarr (Vin0 m) c (ix2 r d) = (m ((c.tc : Thread nD τ).loc main_arg0) : S4x2048x1024.Idx → EReal) (ix3 b s d) :=
    V1_v0_apply m c b s d r hr
  have hw : (Vin0 m c main_arg3 : S1024x1024.Idx → EReal) = m ((c.tc : Thread nD τ).loc main_arg3) := V1_arg3 m c
  exact congrArg₂ (· * ·) hx (congrFun hw (ix2 j d))

end Entry

/-! ## The arrays the second region finds, and the result -/

section Assemble

variable (m : (ℓ : Loc nD τ sig) → Buf (Elt FI) ℓ)

/-- What the first region leaves in its result array is its proof data's final array. -/
theorem outs2_v1 (c : Dev nD) : outs2 m 2 main_v1 c = (dat0 (F := FI) (Vin0 m) c).arrAt 4 cfg0.N := by
  unfold outs2
  rw [Function.update_self]

/-- The second region's queries are the query projection of the activations. -/
theorem Qa_eq (c : Dev nD) :
    Qa (Vin1 m) c = Attn.proj (Attn.arr3 (m ((c.tc : Thread nD τ).loc main_arg0))) (Attn.mat (m ((c.tc : Thread nD τ).loc main_arg1))) := by
  funext b s j
  have hs := s.isLt
  have hb := b.isLt
  have h2 : (outs2 m 2 main_v1 c : S8192x3072.Idx → EReal) = oarr (Vin0 m) c := outs2_v1 m c
  refine (V3_v2_apply m (outs2 m) c b s _ ⟨2048 * b.val + s.val, by omega⟩ rfl).trans ?_
  rw [h2]
  exact r0_q m c b s j _ rfl _ rfl

/-- Its keys are the key projection. -/
theorem Ka_eq (c : Dev nD) :
    Ka (Vin1 m) c = Attn.proj (Attn.arr3 (m ((c.tc : Thread nD τ).loc main_arg0))) (Attn.mat (m ((c.tc : Thread nD τ).loc main_arg2))) := by
  funext b s j
  have hs := s.isLt
  have hb := b.isLt
  have h2 : (outs2 m 2 main_v1 c : S8192x3072.Idx → EReal) = oarr (Vin0 m) c := outs2_v1 m c
  refine (V3_v2_apply m (outs2 m) c b s _ ⟨2048 * b.val + s.val, by omega⟩ rfl).trans ?_
  rw [h2]
  exact r0_k m c b s j _ rfl _ rfl

/-- Its values are the value projection. -/
theorem Va_eq (c : Dev nD) :
    Va (Vin1 m) c = Attn.proj (Attn.arr3 (m ((c.tc : Thread nD τ).loc main_arg0))) (Attn.mat (m ((c.tc : Thread nD τ).loc main_arg3))) := by
  funext b s j
  have hs := s.isLt
  have hb := b.isLt
  have h2 : (outs2 m 2 main_v1 c : S8192x3072.Idx → EReal) = oarr (Vin0 m) c := outs2_v1 m c
  refine (V3_v2_apply m (outs2 m) c b s _ ⟨2048 * b.val + s.val, by omega⟩ rfl).trans ?_
  rw [h2]
  exact r0_v m c b s j _ rfl _ rfl

/-- Its output weights are the fifth argument. -/
theorem Woa_eq (c : Dev nD) : Woa (Vin1 m) c = Attn.mat (m ((c.tc : Thread nD τ).loc main_arg4)) := by
  have hw : (Vin1 m c main_arg4 : S1024x1024.Idx → EReal) = m ((c.tc : Thread nD τ).loc main_arg4) := V3_arg4 m (outs2 m) c
  unfold Woa
  exact congrArg Attn.mat hw

/-- THE RESULT. Under the precondition the program's result array ends holding the attention layer of its five
    argument arrays: the three projections of real activations by real weights are real, so the second region's
    value applies, and its queries, keys, values and output weights are the projections and the fifth argument. -/
theorem kernel_out [hP : Cert.Pre_finite_inputs.Facts] (hpre : Cert.Pre_KernelIdeal m) (c : Dev nD) :
    (dat1 (Vin1 m) c).arrAt 4 cfgL.N
      = Attn.toIdx3 (Attn.out (Attn.arr3 (m ((c.tc : Thread nD τ).loc main_arg0))) (Attn.mat (m ((c.tc : Thread nD τ).loc main_arg1)))
          (Attn.mat (m ((c.tc : Thread nD τ).loc main_arg2))) (Attn.mat (m ((c.tc : Thread nD τ).loc main_arg3)))
          (Attn.mat (m ((c.tc : Thread nD τ).loc main_arg4)))) := by
  obtain ⟨f0, f1, f2, f3, f4⟩ := fin_inputs m hpre c
  have hQ := Qa_eq m c
  have hK := Ka_eq m c
  have hV := Va_eq m c
  have hW := Woa_eq m c
  refine (r1_value (Vin1 m) c (hQ ▸ Attn.fin3_proj f0 f1) (hK ▸ Attn.fin3_proj f0 f2) (hV ▸ Attn.fin3_proj f0 f3)).trans ?_
  rw [hQ, hK, hV, hW]
  rfl

end Assemble

end Cert.KernelIdeal.Hand

end
-- ==== Proof.RefBridge.lean ====
/-
  The reference program's result, read one operation at a time, is the attention layer `Attn.out` of its arguments.
-/
import proofs.«405825_j40080634807018_3_alg».proof.Proof.Gen.ReferenceIdeal.Run
import proofs.«405825_j40080634807018_3_alg».proof.Proof.Gen.ReferenceIdeal.Read
import proofs.«405825_j40080634807018_3_alg».proof.Proof.Spec
import Idealize.ShloMosaic.Lib.Affine
import Idealize.ShloMosaic.PureOps.Ideal.Laws
import Idealize.ShloMosaic.PureOps.Reduce
import Mathlib.Analysis.Real.Sqrt
import Mathlib.Data.Finset.Lattice.Fold

noncomputable section

namespace Cert.ReferenceIdeal.Bridge

open Cert.ReferenceIdeal Cert.ReferenceIdeal.Gen Idealize.ShloMosaic Idealize.ShloMosaic.TcCoe Idealize.ShloMosaic.ValueIdx
open scoped BigOperators

/-! ## The three projections, and their split into heads -/

section Proj

variable (x0 : (⟨S4x2048x1024, .f32⟩ : BufTy).Contents (Elt Ideal)) (w : (⟨S1024x1024, .f32⟩ : BufTy).Contents (Elt Ideal))

/-- The left operand of a projection's product at (b, s, ·) is row (b, s) of the activations. -/
theorem lidx_proj (b : Fin 4) (s : Fin 2048) (e k : Fin 1024) : Read.lidx_main_v0 (ix3 b s e) k = ix3 b s k :=
  funext fun a => match a with | ⟨0, _⟩ => rfl | ⟨1, _⟩ => rfl | ⟨2, _⟩ => rfl

/-- The right operand is row e of the weights. -/
theorem ridx_proj (b : Fin 4) (s : Fin 2048) (e k : Fin 1024) : Read.ridx_main_v0 (ix3 b s e) k = ix2 e k :=
  funext fun a => match a with | ⟨0, _⟩ => rfl | ⟨1, _⟩ => rfl

/-- A projection stage at (b, s, e) is Σ_d x[b,s,d] · W[e,d]. -/
theorem v0_at (b : Fin 4) (s : Fin 2048) (e : Fin 1024) :
    Read.val_main_v0 (F := Ideal) x0 w (ix3 b s e) = Attn.proj (Attn.arr3 x0) (Attn.mat w) b s e := by
  rw [Read.val_main_v0_apply]
  show _ = ∑ d : Fin 1024, Attn.arr3 x0 b s d * Attn.mat w e d
  refine Finset.sum_congr rfl fun k _ => ?_
  rw [lidx_proj, ridx_proj]
  rfl

/-- Feature 64·h + d of position s, found from the head-major index (b, h, s, d) through the transpose and the reshape. -/
theorem idx_split (b : Fin 4) (h : Fin 16) (s : Fin 2048) (d : Fin 64) :
    Read.idx_main_v1 (Read.idx_main_v2 (ix4 b h s d)) = ix3 b s (Attn.hcol h d) := by
  have hb := b.isLt; have hh := h.isLt; have hs := s.isLt; have hd := d.isLt
  funext a
  refine Fin.ext ?_
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The head-major view of a projection: entry (b, h, s, d) is feature 64·h + d of position s. -/
theorem v2_at (b : Fin 4) (h : Fin 16) (s : Fin 2048) (d : Fin 64) :
    Read.val_main_v2 (F := Ideal) x0 w (ix4 b h s d) = Attn.proj (Attn.arr3 x0) (Attn.mat w) b s (Attn.hcol h d) := by
  rw [Read.val_main_v2_apply, Read.val_main_v1_apply, idx_split]
  exact v0_at x0 w b s (Attn.hcol h d)

/-- The key and value projections are the same function of their weights as the query projection. -/
theorem v5_eq : Read.val_main_v5 (F := Ideal) x0 w = Read.val_main_v2 (F := Ideal) x0 w := rfl
theorem v8_eq : Read.val_main_v8 (F := Ideal) x0 w = Read.val_main_v2 (F := Ideal) x0 w := rfl

end Proj

/-! ## The scores -/

/-- The word of 64.0 denotes the real 64. -/
theorem ofBits_sixtyfour : Ideal.ofBits .f32 0x42800000#32 = ((64 : ℝ) : EReal) := by
  simp [Ideal.ofBits, Ideal.ieee, -EReal.coe_mul]; norm_num

/-- The word 0xFF800000 denotes −∞. -/
theorem ofBits_neg_inf : Ideal.ofBits .f32 0xFF800000#32 = (⊥ : EReal) := by
  simp [Ideal.ofBits, Ideal.ieee]

/-- The divisor of the scores, √64, is 8 at every index. -/
theorem v11_at (i : S4x16x2048x2048.Idx) : Read.val_main_v11 (F := Ideal) i = ((8 : ℝ) : EReal) := by
  rw [Read.val_main_v11_apply, Read.val_main_v10_apply, Read.val_main_cst_apply]
  simp only [Ideal.hostUnary_sqrt_def, Ideal.ofBits_def, ofBits_sixtyfour, Ideal.sqrt_coe]
  rw [if_neg (by norm_num)]
  refine congrArg (fun r : ℝ => (r : EReal)) ?_
  rw [show (64 : ℝ) = 8 ^ 2 by norm_num]
  exact Real.sqrt_sq (by norm_num)

section Scores

variable (x0 : (⟨S4x2048x1024, .f32⟩ : BufTy).Contents (Elt Ideal)) (x1 x2 : (⟨S1024x1024, .f32⟩ : BufTy).Contents (Elt Ideal))

/-- The query operand of the score product at (b, h, q, k) is lane d of query row q. -/
theorem lidx_qk (b : Fin 4) (h : Fin 16) (q k : Fin 2048) (d : Fin 64) : Read.lidx_main_v9 (ix4 b h q k) d = ix4 b h q d :=
  funext fun a => match a with | ⟨0, _⟩ => rfl | ⟨1, _⟩ => rfl | ⟨2, _⟩ => rfl | ⟨3, _⟩ => rfl

/-- The key operand is lane d of key row k. -/
theorem ridx_qk (b : Fin 4) (h : Fin 16) (q k : Fin 2048) (d : Fin 64) : Read.ridx_main_v9 (ix4 b h q k) d = ix4 b h k d :=
  funext fun a => match a with | ⟨0, _⟩ => rfl | ⟨1, _⟩ => rfl | ⟨2, _⟩ => rfl | ⟨3, _⟩ => rfl

/-- The unscaled product of query row q and key row k within head h. -/
theorem v9_at (b : Fin 4) (h : Fin 16) (q k : Fin 2048) :
    Read.val_main_v9 (F := Ideal) x0 x1 x2 (ix4 b h q k)
      = Attn.qk (Attn.proj (Attn.arr3 x0) (Attn.mat x1)) (Attn.proj (Attn.arr3 x0) (Attn.mat x2)) b h q k := by
  rw [Read.val_main_v9_apply]
  show _ = ∑ d : Fin 64, Attn.proj (Attn.arr3 x0) (Attn.mat x1) b q (Attn.hcol h d) * Attn.proj (Attn.arr3 x0) (Attn.mat x2) b k (Attn.hcol h d)
  refine Finset.sum_congr rfl fun d _ => ?_
  rw [lidx_qk, ridx_qk, v5_eq, v2_at, v2_at]

/-- The scaled product: division by 8 is the product with 1/8. -/
theorem v12_at (b : Fin 4) (h : Fin 16) (q k : Fin 2048) :
    Read.val_main_v12 (F := Ideal) x0 x1 x2 (ix4 b h q k)
      = Attn.qk (Attn.proj (Attn.arr3 x0) (Attn.mat x1)) (Attn.proj (Attn.arr3 x0) (Attn.mat x2)) b h q k * (((1 / 8 : ℝ) : ℝ) : EReal) := by
  rw [Read.val_main_v12_apply, v9_at, v11_at, Ideal.hostDivf_def]
  exact Ideal.div_coe (by norm_num) _

end Scores

/-! ## The causal mask -/

/-- A position below 2048, as a 32-bit word, reads signed as itself. -/
theorem toInt_pos (n : Nat) (hn : n < 2048) : (BitVec.ofNat 32 n).toInt = (n : Int) := by
  have h1 : (BitVec.ofNat 32 n).toNat = n := by rw [BitVec.toNat_ofNat]; omega
  rw [BitVec.toInt_eq_toNat_of_lt (by rw [h1]; omega), h1]

/-- The lower-triangular mask, broadcast over batch and head: the bit at (b, h, q, k) says k ≤ q. -/
theorem mask_at (b : Fin 4) (h : Fin 16) (q k : Fin 2048) :
    Read.val_main_call1_v0 (F := Ideal) (ix4 b h q k) = if k.val ≤ q.val then 1#1 else 0#1 := by
  rw [Read.val_main_call1_v0_apply, Read.val_main_v14_apply, Read.val_main_v13_apply, Read.val_main_c_apply,
    Read.val_main_call0_v5_apply, Read.val_main_call0_c_0_apply, Read.val_main_call0_v4_apply, Read.val_main_call0_v2_apply,
    Read.val_main_call0_v0_apply, Read.val_main_call0_v1_apply, Read.val_main_call0_c_apply, Read.val_main_call0_v3_apply]
  show Scalar.select (IntOp.cmpi .sge (IntOp.addi (BitVec.ofNat 32 q.val) 0#32) (BitVec.ofNat 32 k.val)) 1#1 0#1 = _
  have hz : IntOp.addi (BitVec.ofNat 32 q.val) 0#32 = BitVec.ofNat 32 q.val := BitVec.add_zero _
  rw [hz]
  by_cases hkq : k.val ≤ q.val
  · rw [if_pos hkq, IntOp.cmpi_sge.mpr (by rw [toInt_pos _ q.isLt, toInt_pos _ k.isLt]; omega)]
    exact select_one _ _
  · have hne : ¬IntOp.cmpi .sge (BitVec.ofNat 32 q.val) (BitVec.ofNat 32 k.val) = 1#1 := fun hc => hkq (by
      have := IntOp.cmpi_sge.mp hc
      rw [toInt_pos _ q.isLt, toInt_pos _ k.isLt] at this; omega)
    rw [if_neg hkq, eq_zero_of_ne_one hne]
    exact select_zero _ _

section Masked

variable (x0 : (⟨S4x2048x1024, .f32⟩ : BufTy).Contents (Elt Ideal)) (x1 x2 : (⟨S1024x1024, .f32⟩ : BufTy).Contents (Elt Ideal))

/-- The masked score: the scaled product on and below the diagonal, −∞ above it. -/
theorem v15_at (b : Fin 4) (h : Fin 16) (q k : Fin 2048) :
    Read.val_main_v15 (F := Ideal) x0 x1 x2 (ix4 b h q k)
      = Attn.score (Attn.proj (Attn.arr3 x0) (Attn.mat x1)) (Attn.proj (Attn.arr3 x0) (Attn.mat x2)) b h q k := by
  rw [Read.val_main_v15_apply, mask_at, v12_at, Read.val_main_call1_v1_apply, Read.val_main_cst_0_apply, Ideal.ofBits_def, ofBits_neg_inf]
  unfold Attn.score
  by_cases hkq : k.val ≤ q.val
  · rw [if_pos hkq, if_pos hkq]; exact select_one _ _
  · rw [if_neg hkq, if_neg hkq]; exact select_zero _ _

end Masked

/-! ## The softmax: row maximum, weights, denominator, quotient -/

/-- Inserting key position k into (b, h, q) on the last axis gives (b, h, q, k). -/
theorem lift_row (hR : S4x16x2048x2048.Reduces [3] S4x16x2048) (b : Fin 4) (h : Fin 16) (q k : Fin 2048) :
    hR.lift (ix3 b h q) k = ix4 b h q k :=
  funext fun a => Fin.ext (by match a with | ⟨0, _⟩ => rfl | ⟨1, _⟩ => rfl | ⟨2, _⟩ => rfl | ⟨3, _⟩ => rfl)

/-- A maximum over the key axis started from −∞ is the supremum of the row. -/
theorem rowmax_fold (y : (⟨S4x16x2048x2048, .f32⟩ : BufTy).Contents (Elt Ideal)) (init : (⟨S_, .f32⟩ : BufTy).Contents (Elt Ideal))
    (hinit : init (Shape.Idx.first h_S_) = (⊥ : EReal)) (b : Fin 4) (h : Fin 16) (q : Fin 2048) :
    Host.reduce (FloatOps.maximumf (F := Ideal) (φ := .f32)) y init reducesTo_S4x16x2048x2048_S4x16x2048_d3 h_S_ (ix3 b h q)
      = Finset.univ.sup fun k : Fin 2048 => y (ix4 b h q k) := by
  have hR : S4x16x2048x2048.Reduces [3] S4x16x2048 := by decide
  rw [Host.reduce_eq_fold_single _ y init reducesTo_S4x16x2048x2048_S4x16x2048_d3 hR h_S_ (ix3 b h q), hinit]
  have hf : (y ∘ hR.lift (ix3 b h q)) = fun k : Fin 2048 => y (ix4 b h q k) :=
    funext fun k => congrArg y (lift_row hR b h q k)
  rw [hf]
  rfl

section Softmax

variable (x0 : (⟨S4x2048x1024, .f32⟩ : BufTy).Contents (Elt Ideal)) (x1 x2 : (⟨S1024x1024, .f32⟩ : BufTy).Contents (Elt Ideal))

/-- The row maximum of the masked scores. -/
theorem v16_at (b : Fin 4) (h : Fin 16) (q : Fin 2048) :
    Read.val_main_v16 (F := Ideal) x0 x1 x2 (ix3 b h q)
      = Attn.rowMax (Attn.proj (Attn.arr3 x0) (Attn.mat x1)) (Attn.proj (Attn.arr3 x0) (Attn.mat x2)) b h q := by
  unfold Read.val_main_v16
  rw [rowmax_fold _ _ (by rw [Read.val_main_cst_1_apply, Ideal.ofBits_def, ofBits_neg_inf]) b h q]
  unfold Attn.rowMax
  refine congrArg (Finset.univ.sup) (funext fun k => ?_)
  exact v15_at x0 x1 x2 b h q k

/-- Broadcasting a row statistic along the key axis reads it at (b, h, q). -/
theorem idx_row (b : Fin 4) (h : Fin 16) (q k : Fin 2048) : Read.idx_main_v19 (Read.idx_main_v20 (ix4 b h q k)) = ix3 b h q :=
  funext fun a => match a with | ⟨0, _⟩ => rfl | ⟨1, _⟩ => rfl | ⟨2, _⟩ => rfl
theorem idx_row' (b : Fin 4) (h : Fin 16) (q k : Fin 2048) : Read.idx_main_v24 (Read.idx_main_v25 (ix4 b h q k)) = ix3 b h q :=
  funext fun a => match a with | ⟨0, _⟩ => rfl | ⟨1, _⟩ => rfl | ⟨2, _⟩ => rfl

/-- The maximum with −∞ changes nothing; broadcast along the key axis it is the row maximum at every key position. -/
theorem v20_at (b : Fin 4) (h : Fin 16) (q k : Fin 2048) :
    Read.val_main_v20 (F := Ideal) x0 x1 x2 (ix4 b h q k)
      = Attn.rowMax (Attn.proj (Attn.arr3 x0) (Attn.mat x1)) (Attn.proj (Attn.arr3 x0) (Attn.mat x2)) b h q := by
  rw [Read.val_main_v20_apply, Read.val_main_v19_apply, idx_row, Read.val_main_v18_apply, Read.val_main_v17_apply,
    Read.val_main_cst_2_apply, v16_at, Ideal.maximumf_def, Ideal.ofBits_def, ofBits_neg_inf]
  exact max_bot_left _

/-- The unnormalised weight exp(score − row maximum). -/
theorem v22_at (b : Fin 4) (h : Fin 16) (q k : Fin 2048) :
    Read.val_main_v22 (F := Ideal) x0 x1 x2 (ix4 b h q k)
      = Attn.wt (Attn.proj (Attn.arr3 x0) (Attn.mat x1)) (Attn.proj (Attn.arr3 x0) (Attn.mat x2)) b h q k := by
  rw [Read.val_main_v22_apply, Read.val_main_v21_apply, v15_at, v20_at, Ideal.hostUnary_exp_def, Ideal.subf_def]
  rfl

/-- The operand of the denominator's sum at key position k. -/
theorem idx_den (b : Fin 4) (h : Fin 16) (q k : Fin 2048) : Read.idx_main_v23 (ix3 b h q) k = ix4 b h q k :=
  funext fun a => match a with | ⟨0, _⟩ => rfl | ⟨1, _⟩ => rfl | ⟨2, _⟩ => rfl | ⟨3, _⟩ => rfl

/-- The denominator: zero plus the sum of the weights over the key axis. -/
theorem v23_at (b : Fin 4) (h : Fin 16) (q : Fin 2048) :
    Read.val_main_v23 (F := Ideal) x0 x1 x2 (ix3 b h q)
      = Attn.den (Attn.proj (Attn.arr3 x0) (Attn.mat x1)) (Attn.proj (Attn.arr3 x0) (Attn.mat x2)) b h q := by
  rw [Read.val_main_v23_apply, Read.val_main_cst_3_apply, Ideal.ofBits_def, Ideal.ofBits_zero_f32, zero_add]
  show _ = ∑ k : Fin 2048, Attn.wt (Attn.proj (Attn.arr3 x0) (Attn.mat x1)) (Attn.proj (Attn.arr3 x0) (Attn.mat x2)) b h q k
  refine Finset.sum_congr rfl fun k _ => ?_
  rw [idx_den]
  exact v22_at x0 x1 x2 b h q k

/-- Broadcast along the key axis, the denominator at every key position. -/
theorem v25_at (b : Fin 4) (h : Fin 16) (q k : Fin 2048) :
    Read.val_main_v25 (F := Ideal) x0 x1 x2 (ix4 b h q k)
      = Attn.den (Attn.proj (Attn.arr3 x0) (Attn.mat x1)) (Attn.proj (Attn.arr3 x0) (Attn.mat x2)) b h q := by
  rw [Read.val_main_v25_apply, Read.val_main_v24_apply, idx_row', v23_at]

/-- The softmax weight: the quotient of the weight by the denominator. -/
theorem v26_at (b : Fin 4) (h : Fin 16) (q k : Fin 2048) :
    Read.val_main_v26 (F := Ideal) x0 x1 x2 (ix4 b h q k)
      = Ideal.div (Attn.wt (Attn.proj (Attn.arr3 x0) (Attn.mat x1)) (Attn.proj (Attn.arr3 x0) (Attn.mat x2)) b h q k)
          (Attn.den (Attn.proj (Attn.arr3 x0) (Attn.mat x1)) (Attn.proj (Attn.arr3 x0) (Attn.mat x2)) b h q) := by
  rw [Read.val_main_v26_apply, v22_at, v25_at, Ideal.hostDivf_def]

end Softmax

/-! ## The context, heads side by side, and the last projection -/

section Context

variable (x0 : (⟨S4x2048x1024, .f32⟩ : BufTy).Contents (Elt Ideal)) (x1 x2 x3 : (⟨S1024x1024, .f32⟩ : BufTy).Contents (Elt Ideal))

/-- The weight operand of the context's sum at key position k. -/
theorem lidx_ctx (b : Fin 4) (h : Fin 16) (q : Fin 2048) (d : Fin 64) (k : Fin 2048) : Read.lidx_main_v27 (ix4 b h q d) k = ix4 b h q k :=
  funext fun a => match a with | ⟨0, _⟩ => rfl | ⟨1, _⟩ => rfl | ⟨2, _⟩ => rfl | ⟨3, _⟩ => rfl

/-- The value operand is lane d of value row k. -/
theorem ridx_ctx (b : Fin 4) (h : Fin 16) (q : Fin 2048) (d : Fin 64) (k : Fin 2048) : Read.ridx_main_v27 (ix4 b h q d) k = ix4 b h k d :=
  funext fun a => match a with | ⟨0, _⟩ => rfl | ⟨1, _⟩ => rfl | ⟨2, _⟩ => rfl | ⟨3, _⟩ => rfl

/-- The weighted sum of the value rows within head h, lane d. -/
theorem v27_at (b : Fin 4) (h : Fin 16) (q : Fin 2048) (d : Fin 64) :
    Read.val_main_v27 (F := Ideal) x0 x1 x2 x3 (ix4 b h q d)
      = ∑ k : Fin 2048,
          Ideal.div (Attn.wt (Attn.proj (Attn.arr3 x0) (Attn.mat x1)) (Attn.proj (Attn.arr3 x0) (Attn.mat x2)) b h q k)
              (Attn.den (Attn.proj (Attn.arr3 x0) (Attn.mat x1)) (Attn.proj (Attn.arr3 x0) (Attn.mat x2)) b h q)
            * Attn.proj (Attn.arr3 x0) (Attn.mat x3) b k (Attn.hcol h d) := by
  rw [Read.val_main_v27_apply]
  refine Finset.sum_congr rfl fun k _ => ?_
  rw [lidx_ctx, ridx_ctx, v26_at, v8_eq, v2_at]

/-- Feature j of position q, traced back through the reshape and the transpose: head j / 64, lane j mod 64. -/
theorem idx_merge (b : Fin 4) (q : Fin 2048) (j : Fin 1024) :
    Read.idx_main_v28 (Read.idx_main_v29 (ix3 b q j))
      = ix4 b (Attn.headOf j) q (⟨j.val % 64, Nat.mod_lt _ (by decide)⟩ : Fin 64) := by
  have hb := b.isLt; have hq := q.isLt; have hj := j.isLt
  funext a
  refine Fin.ext ?_
  match a with
  | ⟨0, _⟩ => show ((b.val * 2048 + q.val) * 1024 + j.val) / 2097152 = b.val; omega
  | ⟨1, _⟩ => show ((b.val * 2048 + q.val) * 1024 + j.val) / 64 % 16 = j.val / 64; omega
  | ⟨2, _⟩ => show ((b.val * 2048 + q.val) * 1024 + j.val) / 1024 % 2048 = q.val; omega
  | ⟨3, _⟩ => show ((b.val * 2048 + q.val) * 1024 + j.val) % 64 = j.val % 64; omega

/-- A feature is lane (j mod 64) of its own head. -/
theorem hcol_headOf (j : Fin 1024) : Attn.hcol (Attn.headOf j) (⟨j.val % 64, Nat.mod_lt _ (by decide)⟩ : Fin 64) = j := by
  refine Fin.ext ?_
  show j.val / 64 * 64 + j.val % 64 = j.val
  omega

/-- The context row, heads side by side. -/
theorem v29_at (b : Fin 4) (q : Fin 2048) (j : Fin 1024) :
    Read.val_main_v29 (F := Ideal) x0 x1 x2 x3 (ix3 b q j)
      = Attn.ctx (Attn.proj (Attn.arr3 x0) (Attn.mat x1)) (Attn.proj (Attn.arr3 x0) (Attn.mat x2)) (Attn.proj (Attn.arr3 x0) (Attn.mat x3)) b q j := by
  rw [Read.val_main_v29_apply, Read.val_main_v28_apply, idx_merge, v27_at, hcol_headOf]
  rfl

end Context

/-- The left operand of the last projection at (b, s, ·) is the context row (b, s). -/
theorem lidx_out (b : Fin 4) (s : Fin 2048) (e k : Fin 1024) : Read.lidx_main_v30 (ix3 b s e) k = ix3 b s k :=
  funext fun a => match a with | ⟨0, _⟩ => rfl | ⟨1, _⟩ => rfl | ⟨2, _⟩ => rfl

/-- The right operand is row e of the output weights. -/
theorem ridx_out (b : Fin 4) (s : Fin 2048) (e k : Fin 1024) : Read.ridx_main_v30 (ix3 b s e) k = ix2 e k :=
  funext fun a => match a with | ⟨0, _⟩ => rfl | ⟨1, _⟩ => rfl

/-- The reference's last stage is the attention layer of the argument arrays, entry by entry. -/
theorem ref_out (x0 : (⟨S4x2048x1024, .f32⟩ : BufTy).Contents (Elt Ideal)) (x1 x2 x3 x4 : (⟨S1024x1024, .f32⟩ : BufTy).Contents (Elt Ideal)) :
    Read.val_main_v30 x0 x1 x2 x3 x4 = Attn.toIdx3 (Attn.out (Attn.arr3 x0) (Attn.mat x1) (Attn.mat x2) (Attn.mat x3) (Attn.mat x4)) := by
  funext i
  obtain ⟨b, s, e, rfl⟩ : ∃ (b : Fin 4) (s : Fin 2048) (e : Fin 1024), i = ix3 b s e := ⟨i 0, i 1, i 2, eq_ix3 i⟩
  rw [Read.val_main_v30_apply, Attn.toIdx3_ix3]
  show _ = ∑ j : Fin 1024,
    Attn.ctx (Attn.proj (Attn.arr3 x0) (Attn.mat x1)) (Attn.proj (Attn.arr3 x0) (Attn.mat x2)) (Attn.proj (Attn.arr3 x0) (Attn.mat x3)) b s j
      * Attn.mat x4 e j
  refine Finset.sum_congr rfl fun k _ => ?_
  rw [lidx_out, ridx_out, v29_at]
  rfl

end Cert.ReferenceIdeal.Bridge

end
-- ==== Proof.lean ====
/-
  Causal multi-head self-attention with its output projection, as a two-kernel program (a fused Q/K/V projection; then
  attention over a triangular schedule of 512×512 tiles with a running maximum, a running denominator and a running
  weighted sum, the output projection applied at the last tile of each row), against the plain formulation
  softmax(Q Kᵀ / 8 + causal mask) V Woᵀ.

  Over the extended reals the two are one function of the five argument arrays (`Attn.out`, Spec.lean):
  * the reference's host operations, read one at a time, are that function (RefBridge.lean);
  * the first kernel leaves x·Wqᵀ | x·Wkᵀ | x·Wvᵀ side by side (R0Value.lean);
  * the second kernel's running buffers follow the tile-by-tile recurrence (R1Step, R1Bridge, R1Value), which for real
    inputs sums to the softmax-weighted average — scaling the queries by 1/8 before the product instead of dividing the
    scores by √64 = 8 afterwards, rescaling by exp(old max − new max) whenever a tile raises the maximum, masked entries
    contributing exp(−∞) = 0, and dividing once at the end (Online.lean); finiteness of the inputs is what makes the
    rescaling and the final division exact;
  * the kernel's finite stand-in for −∞ in the mask is named −∞ in the idealized program: the sixteen entries of
    `preserves` (one per head) are that one statement.
  Each program's frame (it terminates, faults nowhere, leaves its arguments unchanged) comes from the composition of its
  two regions (Run.lean for the idealized program, the same text at the word level for the printed one), the reference's
  from its generated run.
-/
import proofs.«405825_j40080634807018_3_alg».proof.Defs
import proofs.«405825_j40080634807018_3_alg».proof.Proof.Gen.Kernel
import proofs.«405825_j40080634807018_3_alg».proof.Proof.Gen.KernelIdeal
import proofs.«405825_j40080634807018_3_alg».proof.Proof.Gen.ReferenceIdeal
import proofs.«405825_j40080634807018_3_alg».proof.Proof.Gen.Pre_finite_inputs
import proofs.«405825_j40080634807018_3_alg».proof.Proof.KRun
import proofs.«405825_j40080634807018_3_alg».proof.Proof.Run
import proofs.«405825_j40080634807018_3_alg».proof.Proof.Final
import proofs.«405825_j40080634807018_3_alg».proof.Proof.RefBridge
import Idealize.ShloMosaic.Adequacy
import Idealize.ShloMosaic.Init

noncomputable section

namespace Cert.Proof

open Idealize.ShloMosaic Idealize.SL.Sem

/-! ## The frames -/

theorem frame_k [Cert.Kernel.Facts] [Cert.Pre_finite_inputs.Facts] : Cert.frame_Kernel := fun m ρ _ =>
  (θ_run Cert.Kernel.defs _ _).mono (fun _ h c => (h c).2) (Cert.Kernel.Hand.run_val m ρ)

theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Hand.run_val m ρ)

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-! ## The idealization's one rewrite, sixteen times -/

/-- The mask's fill value −1e30 is read as −∞: the certificate's table says so, and the printed constant is that value
    at the ideal instance. -/
theorem neg_big_stmt : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal :=
  ⟨neg_big_stmt, neg_big_stmt, neg_big_stmt, neg_big_stmt, neg_big_stmt, neg_big_stmt, neg_big_stmt, neg_big_stmt,
   neg_big_stmt, neg_big_stmt, neg_big_stmt, neg_big_stmt, neg_big_stmt, neg_big_stmt, neg_big_stmt, neg_big_stmt⟩

/-! ## The two results are one function of the arguments -/

theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Attn.toIdx3 (Attn.out (Attn.arr3 (m ((c.tc : Thread Cert.KernelIdeal.nD Cert.KernelIdeal.τ).loc Cert.KernelIdeal.main_arg0))) (Attn.mat (m ((c.tc : Thread Cert.KernelIdeal.nD Cert.KernelIdeal.τ).loc Cert.KernelIdeal.main_arg1))) (Attn.mat (m ((c.tc : Thread Cert.KernelIdeal.nD Cert.KernelIdeal.τ).loc Cert.KernelIdeal.main_arg2))) (Attn.mat (m ((c.tc : Thread Cert.KernelIdeal.nD Cert.KernelIdeal.τ).loc Cert.KernelIdeal.main_arg3))) (Attn.mat (m ((c.tc : Thread Cert.KernelIdeal.nD Cert.KernelIdeal.τ).loc Cert.KernelIdeal.main_arg4)))), ?_, ?_⟩
  · exact (θ_run Cert.KernelIdeal.defs _ _).mono
      (fun _ h c => ⟨(h c).1.trans (Cert.KernelIdeal.Hand.kernel_out m hpre c), (h c).2⟩)
      (Cert.KernelIdeal.Hand.run_val m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, Cert.ReferenceIdeal.Bridge.ref_out,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
